-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S2048x256 .f32 .bf16
  ∧ IdealRules.truncf_extf.Statement Cert.KernelIdeal.S1000x2048 .f32 .bf16
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S1000x256 : Shape := ⟨2, ![1000, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg1 : IVec S65536 32) (main_v13 : IVec S_ 1) (main_v15 : IVec S65536 1) (main_c_5 : IVec S_ 32) : IVec S_ 1 :=
  let main_v16 : IVec S65536 32 := broadcastInDim S65536 ![] bcast_S_S65536 main_c_5
  let main_v17 : IVec S65536 1 := cmpi .slt main_arg1 main_v16
  let main_v18 : IVec S65536 1 := andi main_v15 main_v17
  let main_c_6 : IVec S_ 1 := constantI S_ 1 1#1
  let main_v19 : IVec S_ 1 := (fun x v => Host.reduce IntOp.andi x v reducesTo_S65536_S_d0 h_S_) main_v18 main_c_6
  let main_v20 : IVec S_ 1 := andi main_v13 main_v19
  main_v20

def fn {F : FTy → Type} [FloatOps F] (main_arg0 : FVec F S65536x256 .f32) (main_arg1 : IVec S65536 32) (main_arg2 : FVec F S1000x256 .f32) (main_arg3 : FVec F S1000x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1000x256 .f32 := Host.absf main_arg2
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_v9 : FVec F S1000x256 .f32 := Host.absf main_arg3
  let main_cst_2 : FVec F S_ .f32 := constant S_ .f32 0x7F800000#32
  let main_v10 : FVec F S1000x256 .f32 := broadcastInDim S1000x256 ![] bcast_S_S1000x256 main_cst_2
  let main_v11 : IVec S1000x256 1 := cmpf .olt main_v9 main_v10
  let main_c_3 : IVec S_ 1 := constantI S_ 1 1#1
  let main_v12 : IVec S_ 1 := (fun x v => Host.reduce IntOp.andi x v reducesTo_S1000x256_S_d0_1 h_S_) main_v11 main_c_3
  let main_v13 : IVec S_ 1 := andi main_v8 main_v12
  let main_c_4 : IVec S_ 32 := constantI S_ 32 0#32
  let main_v14 : IVec S65536 32 := broadcastInDim S65536 ![] bcast_S_S65536 main_c_4
  let main_v15 : IVec S65536 1 := cmpi .sge main_arg1 main_v14
  let main_c_5 : IVec S_ 32 := constantI S_ 32 2000#32
  fn_part1 (F := F) main_arg1 main_v13 main_v15 main_c_5
-- ==== Kernel.lean ====
abbrev S65536x256 : Shape := ⟨2, ![65536, 256]⟩
abbrev S65536 : Shape := ⟨1, ![65536]⟩
abbrev S1000x256 : Shape := ⟨2, ![1000, 256]⟩
abbrev S1x65536 : Shape := ⟨2, ![1, 65536]⟩
abbrev S65536x1 : Shape := ⟨2, ![65536, 1]⟩
abbrev S2x1000x256 : Shape := ⟨3, ![2, 1000, 256]⟩
abbrev S2x1000x1 : Shape := ⟨3, ![2, 1000, 1]⟩
abbrev S2048x256 : Shape := ⟨2, ![2048, 256]⟩
abbrev S1x2048 : Shape := ⟨2, ![1, 2048]⟩
abbrev S1x1000x256 : Shape := ⟨3, ![1, 1000, 256]⟩
abbrev S1x1000x1 : Shape := ⟨3, ![1, 1000, 1]⟩
abbrev S1000x1 : Shape := ⟨2, ![1000, 1]⟩
abbrev S2048 : Shape := ⟨1, ![2048]⟩
abbrev S2048x1 : Shape := ⟨2, ![2048, 1]⟩
abbrev S1000x2048 : Shape := ⟨2, ![1000, 2048]⟩
abbrev S1000 : Shape := ⟨1, ![1000]⟩
abbrev S_ : Shape := ⟨0, ![]⟩
abbrev S2000x256 : Shape := ⟨2, ![2000, 256]⟩
abbrev S256x2048 : Shape := ⟨2, ![256, 2048]⟩
abbrev S2x1x1 : Shape := ⟨3, ![2, 1, 1]⟩
abbrev S1024x256 : Shape := ⟨2, ![1024, 256]⟩
abbrev S1024x1 : Shape := ⟨2, ![1024, 1]⟩
abbrev S1x1x1 : Shape := ⟨3, ![1, 1, 1]⟩
abbrev S1x1 : Shape := ⟨2, ![1, 1]⟩
abbrev S1024x2048 : Shape := ⟨2, ![1024, 2048]⟩
abbrev S1024 : Shape := ⟨1, ![1024]⟩
abbrev S1x1024x1 : Shape := ⟨3, ![1, 1024, 1]⟩
abbrev S1 : Shape := ⟨1, ![1]⟩

abbrev nBuf : Space → Nat
  | .hbm => 69
  | .vmem => 17
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S1000x256, .f32⟩
  | .hbm, ⟨3, _⟩ => ⟨S1000x256, .f32⟩
  | .hbm, ⟨4, _⟩ => ⟨S1x65536, .i32⟩
  | .hbm, ⟨5, _⟩ => ⟨S65536x1, .i32⟩
  | .hbm, ⟨6, _⟩ => ⟨S2x1000x256, .f32⟩
  | .hbm, ⟨7, _⟩ => ⟨S2x1000x1, .f32⟩
  | .hbm, ⟨8, _⟩ => ⟨S65536x256, .bf16⟩
  | .hbm, ⟨9, _⟩ => ⟨S_, .f32⟩
  | .hbm, ⟨10, _⟩ => ⟨S1000x256, .f32⟩
  | .hbm, ⟨11, _⟩ => ⟨S_, .f32⟩
  | .hbm, ⟨12, _⟩ => ⟨S1000x1, .f32⟩
  | .hbm, ⟨13, _⟩ => ⟨S_, .f32⟩
  | .hbm, ⟨14, _⟩ => ⟨S1000x1, .f32⟩
  | .hbm, ⟨15, _⟩ => ⟨S1000x1, .i1⟩
  | .hbm, ⟨16, _⟩ => ⟨S1000x1, .f32⟩
  | .hbm, ⟨17, _⟩ => ⟨S1000x256, .f32⟩
  | .hbm, ⟨18, _⟩ => ⟨S_, .f32⟩
  | .hbm, ⟨19, _⟩ => ⟨S1000, .f32⟩
  | .hbm, ⟨20, _⟩ => ⟨S1000x1, .f32⟩
  | .hbm, ⟨21, _⟩ => ⟨S1000x1, .f32⟩
  | .hbm, ⟨22, _⟩ => ⟨S_, .f32⟩
  | .hbm, ⟨23, _⟩ => ⟨S1000x1, .f32⟩
  | .hbm, ⟨24, _⟩ => ⟨S1000x1, .f32⟩
  | .hbm, ⟨25, _⟩ => ⟨S1000x256, .f32⟩
  | .hbm, ⟨26, _⟩ => ⟨S1000x256, .f32⟩
  | .hbm, ⟨27, _⟩ => ⟨S1000x256, .f32⟩
  | .hbm, ⟨28, _⟩ => ⟨S1000x256, .f32⟩
  | .hbm, ⟨29, _⟩ => ⟨S1000x256, .f32⟩
  | .hbm, ⟨30, _⟩ => ⟨S_, .f32⟩
  | .hbm, ⟨31, _⟩ => ⟨S1000, .f32⟩
  | .hbm, ⟨32, _⟩ => ⟨S1000x1, .f32⟩
  | .hbm, ⟨33, _⟩ => ⟨S_, .f32⟩
  | .hbm, ⟨34, _⟩ => ⟨S1000x1, .f32⟩
  | .hbm, ⟨35, _⟩ => ⟨S1000x1, .f32⟩
  | .hbm, ⟨36, _⟩ => ⟨S1000x1, .f32⟩
  | .hbm, ⟨37, _⟩ => ⟨S_, .f32⟩
  | .hbm, ⟨38, _⟩ => ⟨S1000x1, .f32⟩
  | .hbm, ⟨39, _⟩ => ⟨S1000x1, .f32⟩
  | .hbm, ⟨40, _⟩ => ⟨S1000x256, .f32⟩
  | .hbm, ⟨41, _⟩ => ⟨S1000x256, .f32⟩
  | .hbm, ⟨42, _⟩ => ⟨S_, .f32⟩
  | .hbm, ⟨43, _⟩ => ⟨S1000x1, .f32⟩
  | .hbm, ⟨44, _⟩ => ⟨S1000x1, .f32⟩
  | .hbm, ⟨45, _⟩ => ⟨S1000x256, .f32⟩
  | .hbm, ⟨46, _⟩ => ⟨S1000x256, .f32⟩
  | .hbm, ⟨47, _⟩ => ⟨S1000x256, .f32⟩
  | .hbm, ⟨48, _⟩ => ⟨S1000x256, .f32⟩
  | .hbm, ⟨49, _⟩ => ⟨S_, .f32⟩
  | .hbm, ⟨50, _⟩ => ⟨S1000, .f32⟩
  | .hbm, ⟨51, _⟩ => ⟨S1000x1, .f32⟩
  | .hbm, ⟨52, _⟩ => ⟨S1000x1, .f32⟩
  | .hbm, ⟨53, _⟩ => ⟨S_, .f32⟩
  | .hbm, ⟨54, _⟩ => ⟨S1000x1, .f32⟩
  | .hbm, ⟨55, _⟩ => ⟨S1000x1, .f32⟩
  | .hbm, ⟨56, _⟩ => ⟨S1000x256, .f32⟩
  | .hbm, ⟨57, _⟩ => ⟨S1000x256, .f32⟩
  | .hbm, ⟨58, _⟩ => ⟨S2000x256, .f32⟩
  | .hbm, ⟨59, _⟩ => ⟨S2000x256, .bf16⟩
  | .hbm, ⟨60, _⟩ => ⟨S_, .i32⟩
  | .hbm, ⟨61, _⟩ => ⟨S_, .bf16⟩
  | .hbm, ⟨62, _⟩ => ⟨S2048x256, .bf16⟩
  | .hbm, ⟨63, _⟩ => ⟨S256x2048, .bf16⟩
  | .hbm, ⟨64, _⟩ => ⟨S2x1x1, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1x2048, .i32⟩
  | .local _ .vmem, ⟨3, _⟩ => ⟨S1x2048, .i32⟩
  | .local _ .vmem, ⟨4, _⟩ => ⟨S1x1000x256, .f32⟩
  | .local _ .vmem, ⟨5, _⟩ => ⟨S1x1000x256, .f32⟩
  | .local _ .vmem, ⟨6, _⟩ => ⟨S1x1000x1, .f32⟩
  | .local _ .vmem, ⟨7, _⟩ => ⟨S1x1000x1, .f32⟩
  | .local _ .vmem, ⟨8, _⟩ => ⟨S2048x256, .bf16⟩
  | .local _ .vmem, ⟨9, _⟩ => ⟨S2048x256, .bf16⟩
  | .local _ .vmem, ⟨10, _⟩ => ⟨S1024x256, .bf16⟩
  | .local _ .vmem, ⟨11, _⟩ => ⟨S1024x256, .bf16⟩
  | .local _ .vmem, ⟨12, _⟩ => ⟨S1024x1, .i32⟩
  | .local _ .vmem, ⟨13, _⟩ => ⟨S1024x1, .i32⟩
  | .local _ .vmem, ⟨14, _⟩ => ⟨S256x2048, .bf16⟩
  | .local _ .vmem, ⟨15, _⟩ => ⟨S1x1x1, .f32⟩
  | .local _ .vmem, ⟨16, _⟩ => ⟨S1x1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c : Ref sig .tc := ⟨.hbm, 60, rfl⟩
abbrev main_call2_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S65536_S1x65536 : S65536.ShapeCasts S1x65536
  shapeCasts_S65536_S65536x1 : S65536.ShapeCasts S65536x1
  inb_S1x1000x256_S1x1000x256_0_0_0 : ∀ a, (![0, 0, 0] : Fin 3 → Nat) a + S1x1000x256.size a ≤ S1x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  inb_S1x1000x1_S1x1000x1_0_0_0 : ∀ a, (![0, 0, 0] : Fin 3 → Nat) a + S1x1000x1.size a ≤ S1x1000x1.size a
  h_S1x1000x1 : 0 < S1x1000x1.numel
  shapeCasts_S1x1000x1_S1000x1 : S1x1000x1.ShapeCasts S1000x1
  shapeCasts_S1000x1_S1x1000x1 : S1000x1.ShapeCasts S1x1000x1
  inb_S2048x256_S2048x256_0_0 : ∀ a, (![0, 0] : Fin 2 → Nat) a + S2048x256.size a ≤ S2048x256.size a
  h_S2048x256 : 0 < S2048x256.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  iota_S1000x2048_d0_w32 : S1000x2048.Iotas .tc 32 [0]
  broadcasts_S1x2048_S1000x2048 : S1x2048.Broadcasts S1000x2048
  natLt_1_32 : 1 < 32
  reduces_S1000x2048_S1000 : S1000x2048.Reduces [1] S1000
  shapeCasts_S1000_S1000x1 : S1000.ShapeCasts S1000x1
  reducesTo_S2x1000x256_S1000x256_d0 : S2x1000x256.ReducesTo [0] S1000x256
  h_S_ : 0 < S_.numel
  reducesTo_S2x1000x1_S1000x1_d0 : S2x1000x1.ReducesTo [0] S1000x1
  bcast_S_S1000x1 : S_.BroadcastsInDim S1000x1 (![] : Fin 0 → Fin S1000x1.rank)
  reducesTo_S1000x256_S1000_d1 : S1000x256.ReducesTo [1] S1000
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  concatenates_S1000x256_S1000x256_S2000x256_d0 : Shape.Concatenates [S1000x256, S1000x256] S2000x256 0
  pads_S2000x256_S2048x256_0480_000 : S2000x256.Pads (![0, 0] : Fin 2 → Nat) ![48, 0] ![0, 0] S2048x256
  transposes_S2048x256_S256x2048_1_0 : S2048x256.Transposes [1, 0] S256x2048
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  iota_S1024x2048_d1_w32 : S1024x2048.Iotas .tc 32 [1]
  broadcasts_S1024x1_S1024x2048 : S1024x1.Broadcasts S1024x2048
  reduces_S1024x2048_S1024 : S1024x2048.Reduces [1] S1024
  shapeCasts_S1024_S1024x1 : S1024.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  dot_S1000x2048_S2048x256_S1000x256_1_0_0_1_n_n_wf : DotDims.WF S1000x2048 S2048x256 S1000x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x65536.size a
  hwx0_1 : ∀ i : grid0.Coords, EltTy.bits .i32 = 32 ∨ (Rect.block (s := S1x65536) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x256.size a ≤ S2x1000x256.size a
  hwx0_2 : ∀ i : grid0.Coords, EltTy.bits .f32 = 32 ∨ (Rect.block (s := S2x1000x256) S1x1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x1.size a ≤ S2x1000x1.size a
  hwx0_3 : ∀ i : grid0.Coords, EltTy.bits .f32 = 32 ∨ (Rect.block (s := S2x1000x1) S1x1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S65536x256.size a
  hwx0_4 : ∀ i : grid0.Coords, EltTy.bits .bf16 = 32 ∨ (Rect.block (s := S65536x256) S2048x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S65536x256.size a
  hwx1_0 : ∀ i : grid1.Coords, EltTy.bits .bf16 = 32 ∨ (Rect.block (s := S65536x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S65536x1.size a
  hwx1_1 : ∀ i : grid1.Coords, EltTy.bits .i32 = 32 ∨ (Rect.block (s := S65536x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S256x2048.size a
  hwx1_2 : ∀ i : grid1.Coords, EltTy.bits .bf16 = 32 ∨ (Rect.block (s := S256x2048) S256x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

def dot_S1000x2048_S2048x256_S1000x256_1_0_0_1_n_n : DotDims S1000x2048 S2048x256 S1000x256 where
  lhsContracting := [1]
  rhsContracting := [0]
  lhsNonContracting := [0]
  rhsNonContracting := [1]
  lhsBatch := []
  rhsBatch := []
  wf := dot_S1000x2048_S2048x256_S1000x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S256x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x256 : Shape := ⟨2, ![65536, 256]⟩
abbrev S65536 : Shape := ⟨1, ![65536]⟩
abbrev S1000x256 : Shape := ⟨2, ![1000, 256]⟩
abbrev S_ : Shape := ⟨0, ![]⟩
abbrev S65536x1 : Shape := ⟨2, ![65536, 1]⟩
abbrev S1000 : Shape := ⟨1, ![1000]⟩
abbrev S1000x1 : Shape := ⟨2, ![1000, 1]⟩
abbrev S2000x256 : Shape := ⟨2, ![2000, 256]⟩
abbrev S256x2000 : Shape := ⟨2, ![256, 2000]⟩
abbrev S65536x2000 : Shape := ⟨2, ![65536, 2000]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S1000x256, .f32⟩
  | .hbm, ⟨3, _⟩ => ⟨S1000x256, .f32⟩
  | .hbm, ⟨4, _⟩ => ⟨S65536x256, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x256, .f32⟩
  | .hbm, ⟨13, _⟩ => ⟨S65536x256, .f32⟩
  | .hbm, ⟨14, _⟩ => ⟨S_, .f32⟩
  | .hbm, ⟨15, _⟩ => ⟨S1000x256, .f32⟩
  | .hbm, ⟨16, _⟩ => ⟨S65536x1, .i32⟩
  | .hbm, ⟨17, _⟩ => ⟨S1000x256, .f32⟩
  | .hbm, ⟨18, _⟩ => ⟨S_, .f32⟩
  | .hbm, ⟨19, _⟩ => ⟨S65536, .f32⟩
  | .hbm, ⟨20, _⟩ => ⟨S_, .f32⟩
  | .hbm, ⟨21, _⟩ => ⟨S1000, .f32⟩
  | .hbm, ⟨22, _⟩ => ⟨S65536x1, .i32⟩
  | .hbm, ⟨23, _⟩ => ⟨S1000, .f32⟩
  | .hbm, ⟨24, _⟩ => ⟨S_, .f32⟩
  | .hbm, ⟨25, _⟩ => ⟨S1000, .f32⟩
  | .hbm, ⟨26, _⟩ => ⟨S1000, .i1⟩
  | .hbm, ⟨27, _⟩ => ⟨S1000, .f32⟩
  | .hbm, ⟨28, _⟩ => ⟨S1000x1, .f32⟩
  | .hbm, ⟨29, _⟩ => ⟨S1000x256, .f32⟩
  | .hbm, ⟨30, _⟩ => ⟨S_, .f32⟩
  | .hbm, ⟨31, _⟩ => ⟨S1000, .f32⟩
  | .hbm, ⟨32, _⟩ => ⟨S1000x1, .f32⟩
  | .hbm, ⟨33, _⟩ => ⟨S1000x1, .f32⟩
  | .hbm, ⟨34, _⟩ => ⟨S_, .f32⟩
  | .hbm, ⟨35, _⟩ => ⟨S1000x1, .f32⟩
  | .hbm, ⟨36, _⟩ => ⟨S1000x1, .f32⟩
  | .hbm, ⟨37, _⟩ => ⟨S1000x256, .f32⟩
  | .hbm, ⟨38, _⟩ => ⟨S1000x256, .f32⟩
  | .hbm, ⟨39, _⟩ => ⟨S1000x256, .f32⟩
  | .hbm, ⟨40, _⟩ => ⟨S1000x256, .f32⟩
  | .hbm, ⟨41, _⟩ => ⟨S1000x256, .f32⟩
  | .hbm, ⟨42, _⟩ => ⟨S_, .f32⟩
  | .hbm, ⟨43, _⟩ => ⟨S1000, .f32⟩
  | .hbm, ⟨44, _⟩ => ⟨S1000x1, .f32⟩
  | .hbm, ⟨45, _⟩ => ⟨S_, .f32⟩
  | .hbm, ⟨46, _⟩ => ⟨S1000x1, .f32⟩
  | .hbm, ⟨47, _⟩ => ⟨S1000x1, .f32⟩
  | .hbm, ⟨48, _⟩ => ⟨S1000x1, .f32⟩
  | .hbm, ⟨49, _⟩ => ⟨S_, .f32⟩
  | .hbm, ⟨50, _⟩ => ⟨S1000x1, .f32⟩
  | .hbm, ⟨51, _⟩ => ⟨S1000x1, .f32⟩
  | .hbm, ⟨52, _⟩ => ⟨S1000x256, .f32⟩
  | .hbm, ⟨53, _⟩ => ⟨S1000x256, .f32⟩
  | .hbm, ⟨54, _⟩ => ⟨S_, .f32⟩
  | .hbm, ⟨55, _⟩ => ⟨S1000x1, .f32⟩
  | .hbm, ⟨56, _⟩ => ⟨S1000x1, .f32⟩
  | .hbm, ⟨57, _⟩ => ⟨S1000x256, .f32⟩
  | .hbm, ⟨58, _⟩ => ⟨S1000x256, .f32⟩
  | .hbm, ⟨59, _⟩ => ⟨S1000x256, .f32⟩
  | .hbm, ⟨60, _⟩ => ⟨S1000x256, .f32⟩
  | .hbm, ⟨61, _⟩ => ⟨S_, .f32⟩
  | .hbm, ⟨62, _⟩ => ⟨S1000, .f32⟩
  | .hbm, ⟨63, _⟩ => ⟨S1000x1, .f32⟩
  | .hbm, ⟨64, _⟩ => ⟨S1000x1, .f32⟩
  | .hbm, ⟨65, _⟩ => ⟨S_, .f32⟩
  | .hbm, ⟨66, _⟩ => ⟨S1000x1, .f32⟩
  | .hbm, ⟨67, _⟩ => ⟨S1000x1, .f32⟩
  | .hbm, ⟨68, _⟩ => ⟨S1000x256, .f32⟩
  | .hbm, ⟨69, _⟩ => ⟨S1000x256, .f32⟩
  | .hbm, ⟨70, _⟩ => ⟨S2000x256, .f32⟩
  | .hbm, ⟨71, _⟩ => ⟨S256x2000, .f32⟩
  | .hbm, ⟨72, _⟩ => ⟨S65536x2000, .f32⟩
  | .hbm, ⟨73, _⟩ => ⟨S_, .f32⟩
  | .hbm, ⟨74, _⟩ => ⟨S65536x2000, .f32⟩
  | .hbm, ⟨75, _⟩ => ⟨S65536x2000, .f32⟩
  | .hbm, ⟨76, _⟩ => ⟨S_, .f32⟩
  | .hbm, ⟨77, _⟩ => ⟨S65536, .f32⟩
  | .hbm, ⟨78, _⟩ => ⟨S_, .f32⟩
  | .hbm, ⟨79, _⟩ => ⟨S65536, .f32⟩
  | .hbm, ⟨80, _⟩ => ⟨S65536, .f32⟩
  | .hbm, ⟨81, _⟩ => ⟨S65536x1, .f32⟩
  | .hbm, ⟨82, _⟩ => ⟨S65536x2000, .f32⟩
  | .hbm, ⟨83, _⟩ => ⟨S65536x2000, .f32⟩
  | .hbm, ⟨84, _⟩ => ⟨S65536x2000, .f32⟩
  | .hbm, ⟨85, _⟩ => ⟨S_, .f32⟩
  | .hbm, ⟨86, _⟩ => ⟨S65536, .f32⟩
  | .hbm, ⟨87, _⟩ => ⟨S65536x1, .f32⟩
  | .hbm, ⟨88, _⟩ => ⟨S65536x1, .f32⟩
  | .hbm, ⟨89, _⟩ => ⟨S65536x2000, .f32⟩
  | .hbm, ⟨90, _⟩ => ⟨S65536x2000, .f32⟩
  | .hbm, ⟨91, _⟩ => ⟨S65536x1, .i32⟩
  | .hbm, ⟨92, _⟩ => ⟨S_, .i32⟩
  | .hbm, ⟨93, _⟩ => ⟨S65536x1, .i32⟩
  | .hbm, ⟨94, _⟩ => ⟨S65536x1, .i1⟩
  | .hbm, ⟨95, _⟩ => ⟨S_, .i32⟩
  | .hbm, ⟨96, _⟩ => ⟨S65536x1, .i32⟩
  | .hbm, ⟨97, _⟩ => ⟨S65536x1, .i32⟩
  | .hbm, ⟨98, _⟩ => ⟨S65536x1, .i32⟩
  | .hbm, ⟨99, _⟩ => ⟨S65536x1x1, .i32⟩
  | .hbm, ⟨100, _⟩ => ⟨S1, .i32⟩
  | .hbm, ⟨101, _⟩ => ⟨S_, .i32⟩
  | .hbm, ⟨102, _⟩ => ⟨S65536x1x1, .i32⟩
  | .hbm, ⟨103, _⟩ => ⟨S65536x1x1, .i1⟩
  | .hbm, ⟨104, _⟩ => ⟨S1x1x1, .i32⟩
  | .hbm, ⟨105, _⟩ => ⟨S65536x1x1, .i32⟩
  | .hbm, ⟨106, _⟩ => ⟨S65536x1x1, .i1⟩
  | .hbm, ⟨107, _⟩ => ⟨S65536x1x1, .i1⟩
  | .hbm, ⟨108, _⟩ => ⟨S_, .i1⟩
  | .hbm, ⟨109, _⟩ => ⟨S65536x1, .i1⟩
  | .hbm, ⟨110, _⟩ => ⟨S65536x1, .f32⟩
  | .hbm, ⟨111, _⟩ => ⟨S_, .f32⟩
  | .hbm, ⟨112, _⟩ => ⟨S65536x1, .f32⟩
  | .hbm, ⟨113, _⟩ => ⟨S65536x1, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call2_v0 : Ref sig .tc := ⟨.hbm, 60, rfl⟩
abbrev main_call2_cst : Ref sig .tc := ⟨.hbm, 61, rfl⟩
abbrev main_call2_v1 : Ref sig .tc := ⟨.hbm, 62, rfl⟩
abbrev main_call2_v2 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_call3_cst : Ref sig .tc := ⟨.hbm, 76, rfl⟩
abbrev main_call3_v0 : Ref sig .tc := ⟨.hbm, 77, rfl⟩
abbrev main_call3_cst_0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_cst_1 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_v48 : Ref sig .tc := ⟨.hbm, 90, rfl⟩
abbrev main_v49 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_c_2 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_3 : Ref sig .tc := ⟨.hbm, 108, rfl⟩
abbrev main_call4_v12 : Ref sig .tc := ⟨.hbm, 109, rfl⟩
abbrev main_call4_v13 : Ref sig .tc := ⟨.hbm, 110, rfl⟩
abbrev main_call4_cst : Ref sig .tc := ⟨.hbm, 111, rfl⟩
abbrev main_call4_v14 : Ref sig .tc := ⟨.hbm, 112, rfl⟩
abbrev main_v50 : Ref sig .tc := ⟨.hbm, 113, rfl⟩
abbrev main_cst_11 : Ref sig .tc := ⟨.hbm, 114, rfl⟩
abbrev main_v51 : Ref sig .tc := ⟨.hbm, 115, rfl⟩
abbrev main_cst_12 : Ref sig .tc := ⟨.hbm, 116, rfl⟩
abbrev main_v52 : Ref sig .tc := ⟨.hbm, 117, rfl⟩
abbrev main_v53 : Ref sig .tc := ⟨.hbm, 118, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  bcast_S_S1000x256 : S_.BroadcastsInDim S1000x256 (![] : Fin 0 → Fin S1000x256.rank)
  bcast_S_S65536 : S_.BroadcastsInDim S65536 (![] : Fin 0 → Fin S65536.rank)
  bcast_S_S1000 : S_.BroadcastsInDim S1000 (![] : Fin 0 → Fin S1000.rank)
  bcast_S1000_S1000x1_0 : S1000.BroadcastsInDim S1000x1 (![0] : Fin 1 → Fin S1000x1.rank)
  reducesTo_S1000x256_S1000_d1 : S1000x256.ReducesTo [1] S1000
  bcast_S_S1000x1 : S_.BroadcastsInDim S1000x1 (![] : Fin 0 → Fin S1000x1.rank)
  bcast_S1000x1_S1000x256_0_1 : S1000x1.BroadcastsInDim S1000x256 (![0, 1] : Fin 2 → Fin S1000x256.rank)
  concatenates_S1000x256_S1000x256_S2000x256_d0 : Shape.Concatenates [S1000x256, S1000x256] S2000x256 0
  transposes_S2000x256_S256x2000_1_0 : S2000x256.Transposes [1, 0] S256x2000
  bcast_S_S65536x2000 : S_.BroadcastsInDim S65536x2000 (![] : Fin 0 → Fin S65536x2000.rank)
  reducesTo_S65536x2000_S65536_d1 : S65536x2000.ReducesTo [1] S65536
  bcast_S65536x1_S65536x2000_0_1 : S65536x1.BroadcastsInDim S65536x2000 (![0, 1] : Fin 2 → Fin S65536x2000.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  reducesTo_S65536x1_S_d0_1 : S65536x1.ReducesTo [0, 1] S_
  scatter_S1000x256_S65536x1_S65536x256_1_0_0_1_wf : ScatterDims.WF S1000x256 S65536x1 S65536x256 [1] [0] [0] 1
  scatter_S1000_S65536x1_S65536_n_0_0_1_wf : ScatterDims.WF S1000 S65536x1 S65536 [] [0] [0] 1
  dot_S65536x256_S256x2000_S65536x2000_1_0_0_1_n_n_wf : DotDims.WF S65536x256 S256x2000 S65536x2000 [1] [0] [0] [1] [] []
  gather_S65536x2000_S65536x1x1_S65536x1_n_1_0_0_1_2_11_wf : GatherDims.WF S65536x2000 S65536x1x1 S65536x1 [] [1] [0] [1] [0] 2 ![1, 1]

variable [Facts₀]

def scatter_S1000x256_S65536x1_S65536x256_1_0_0_1 : ScatterDims S1000x256 S65536x1 S65536x256 where
  updateWindowDims := [1]
  insertedWindowDims := [0]
  scatterDimsToOperandDims := [0]
  indexVectorDim := 1
  wf := scatter_S1000x256_S65536x1_S65536x256_1_0_0_1_wf
def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf
def dot_S65536x256_S256x2000_S65536x2000_1_0_0_1_n_n : DotDims S65536x256 S256x2000 S65536x2000 where
  lhsContracting := [1]
  rhsContracting := [0]
  lhsNonContracting := [0]
  rhsNonContracting := [1]
  lhsBatch := []
  rhsBatch := []
  wf := dot_S65536x256_S256x2000_S65536x2000_1_0_0_1_n_n_wf
def gather_S65536x2000_S65536x1x1_S65536x1_n_1_0_0_1_2_11 : GatherDims S65536x2000 S65536x1x1 S65536x1 where
  offsetDims := []
  collapsedSliceDims := [1]
  operandBatchingDims := [0]
  startIndicesBatchingDims := [0]
  startIndexMap := [1]
  indexVectorDim := 2
  sliceSizes := ![1, 1]
  wf := gather_S65536x2000_S65536x1x1_S65536x1_n_1_0_0_1_2_11_wf

class Facts : Prop extends Facts₀ where

variable [Facts]
-- ==== Proof.Spec.lean ====
/-
  The mathematics both programs compute, stated once over the extended reals, index by index.

  Inputs: features X (65536 by 256), integer labels lab (65536), class centres mem (1000 by 256) and source
  centres src (1000 by 256).
  * fn X n d: row n of X divided by max (its Euclidean norm) eps (a unit row).
  * sums X lab c d, cnt lab c: the sum of the unit rows whose label is class c, and how many there are
    (a label outside [0, 1000) belongs to no class).
  * newMem: the centre update (normalise the class sums, blend with the old centre by their cosine where the class
    is non-empty, normalise again): ONE whole-array function of (class sums, non-empty flags, old centres), the same
    sequence of array operations in both programs, kept opaque.
  * memo: the 2000 rows newMem ++ src; logit n j = (sum over d of fn X n d * memo j d) / 1.
  * per row: the maximum rowMax, the shifted exponential sum lseSum, and the cross-entropy of row n at its
    label, written the two ways the two programs write it (kerRow, refRow); the loss is their mean (kerLoss,
    refLoss).
-/
import Idealize.ShloMosaic.PureOps.Ideal
import Idealize.ShloMosaic.Lib.ValueIdx

noncomputable section

namespace Cert.Spec

open Idealize.ShloMosaic Idealize.ShloMosaic.ValueIdx

abbrev S_ : Shape := ⟨0, ![]⟩
abbrev S1000 : Shape := ⟨1, ![1000]⟩
abbrev S1000x1 : Shape := ⟨2, ![1000, 1]⟩
abbrev S1000x256 : Shape := ⟨2, ![1000, 256]⟩

/-- The four float literals both programs carry, as the extended reals their words denote. -/
abbrev epsLit : EReal := Ideal.ofBits .f32 0x2B8CBCCC#32
abbrev zeroLit : EReal := Ideal.ofBits .f32 0x00000000#32
abbrev oneLit : EReal := Ideal.ofBits .f32 0x3F800000#32
abbrev nLit : EReal := Ideal.ofBits .f32 0x47800000#32

abbrev Feat : Type := Fin 65536 → Fin 256 → EReal
abbrev Lab : Type := Fin 65536 → BitVec 32
abbrev Cen : Type := Fin 1000 → Fin 256 → EReal

/-- Row n of X over max (its norm) eps. -/
def fn (X : Feat) (n : Fin 65536) (d : Fin 256) : EReal :=
  Ideal.div (X n d) (max (Ideal.sqrt (∑ e : Fin 256, X n e * X n e)) epsLit)

/-- The sum of the unit rows labelled c. -/
def sums (X : Feat) (lab : Lab) (c : Fin 1000) (d : Fin 256) : EReal :=
  ∑ n : Fin 65536, if lab n = BitVec.ofNat 32 c.val then fn X n d else 0

/-- The number of rows labelled c. -/
def cnt (lab : Lab) (c : Fin 1000) : EReal :=
  ∑ n : Fin 65536, if lab n = BitVec.ofNat 32 c.val then (1 : EReal) else 0

/-- 1 where class c has a row, else 0: the comparison cnt > 0 read as a float. -/
def flag (lab : Lab) (c : Fin 1000) : EReal :=
  FloatOps.uitofp (F := Ideal) .f32 (FloatOps.cmpf (F := Ideal) (φ := .f32) .ogt (cnt lab c) zeroLit)

/-- The class sums and the flags as arrays of the programs' shapes. -/
def sumsArr (X : Feat) (lab : Lab) : FVec Ideal S1000x256 .f32 := fun i => sums X lab (i 0) (i 1)
def flagArr (lab : Lab) : FVec Ideal S1000x1 .f32 := fun i => flag lab (i 0)

/-- The facts about shapes the centre update's array operations take. -/
structure NMFacts : Prop where
  b01 : S1000x1.BroadcastsInDim S1000x256 (![0, 1] : Fin 2 → Fin S1000x256.rank)
  r1 : S1000x256.ReducesTo [1] S1000
  b0 : S1000.BroadcastsInDim S1000x1 (![0] : Fin 1 → Fin S1000x1.rank)
  bs : S_.BroadcastsInDim S1000x1 (![] : Fin 0 → Fin S1000x1.rank)
  h0 : 0 < S_.numel

variable (hf : NMFacts)

/-- The Euclidean norm of each row, as a column. -/
def rowNorm (a : FVec Ideal S1000x256 .f32) : FVec Ideal S1000x1 .f32 :=
  Host.sqrt (broadcastInDim S1000x1 ![0] hf.b0 (Host.reduceAdd (mulf a a) (constant S_ .f32 0x00000000#32) hf.r1 hf.h0))

/-- Each row over max (its norm) eps. -/
def l2rows (a : FVec Ideal S1000x256 .f32) : FVec Ideal S1000x256 .f32 :=
  Host.divf a (broadcastInDim S1000x256 ![0, 1] hf.b01
    (maximumf (rowNorm hf a) (broadcastInDim S1000x1 ![] hf.bs (constant S_ .f32 0x2B8CBCCC#32))))

/-- The batch centre: the normalised class sum, zeroed where the class is empty. -/
def batchCentre (s : FVec Ideal S1000x256 .f32) (fl : FVec Ideal S1000x1 .f32) : FVec Ideal S1000x256 .f32 :=
  mulf (l2rows hf s) (broadcastInDim S1000x256 ![0, 1] hf.b01 fl)

/-- The blend weight 1 - (1 - <mem, centre>) * flag, a column. -/
def blend (s : FVec Ideal S1000x256 .f32) (fl : FVec Ideal S1000x1 .f32) (mem : FVec Ideal S1000x256 .f32) :
    FVec Ideal S1000x1 .f32 :=
  subf (broadcastInDim S1000x1 ![] hf.bs (constant S_ .f32 0x3F800000#32))
    (mulf (subf (broadcastInDim S1000x1 ![] hf.bs (constant S_ .f32 0x3F800000#32))
      (broadcastInDim S1000x1 ![0] hf.b0
        (Host.reduceAdd (mulf mem (batchCentre hf s fl)) (constant S_ .f32 0x00000000#32) hf.r1 hf.h0))) fl)

/-- The updated centres: w * mem + (1 - w) * centre, rows normalised. -/
def newMem (s : FVec Ideal S1000x256 .f32) (fl : FVec Ideal S1000x1 .f32) (mem : FVec Ideal S1000x256 .f32) :
    FVec Ideal S1000x256 .f32 :=
  l2rows hf (addf (mulf (broadcastInDim S1000x256 ![0, 1] hf.b01 (blend hf s fl mem)) mem)
    (mulf (broadcastInDim S1000x256 ![0, 1] hf.b01
      (subf (broadcastInDim S1000x1 ![] hf.bs (constant S_ .f32 0x3F800000#32)) (blend hf s fl mem)))
      (batchCentre hf s fl)))

/-- Row j of the 2000 centres the logits are taken against: the updated class centres, then the source centres. -/
def memo (nm : FVec Ideal S1000x256 .f32) (src : Cen) (j : Fin 2000) (d : Fin 256) : EReal :=
  if h : j.val < 1000 then nm (ix2 ⟨j.val, h⟩ d) else src ⟨j.val - 1000, by have := j.isLt; omega⟩ d

/-- The logits of a feature array A against centres Mo (a division by the literal one kept as the programs
    write it). -/
def logitOf (A : Fin 65536 → Fin 256 → EReal) (Mo : Fin 2000 → Fin 256 → EReal) (n : Fin 65536) (j : Fin 2000) : EReal :=
  Ideal.div (∑ d : Fin 256, A n d * Mo j d) oneLit

abbrev Logits : Type := Fin 65536 → Fin 2000 → EReal

/-- The greatest logit of row n. -/
def rowMax (L : Logits) (n : Fin 65536) : EReal := Finset.univ.sup fun j : Fin 2000 => L n j

/-- The sum over j of exp (L n j - max). -/
def lseSum (L : Logits) (n : Fin 65536) : EReal := ∑ j : Fin 2000, Ideal.exp (L n j - rowMax L n)

/-- The label of row n as a column, when it is one. -/
def labCol (lab : Lab) (n : Fin 65536) (h : (lab n).toNat < 2000) : Fin 2000 := ⟨(lab n).toNat, h⟩

/-- Row n's cross-entropy as the kernel writes it: (log sum + max) - L[label]. -/
def kerRow (L : Logits) (lab : Lab) (hl : ∀ n, (lab n).toNat < 2000) (n : Fin 65536) : EReal :=
  (Ideal.log (lseSum L n) + rowMax L n) - L n (labCol lab n (hl n))

/-- Row n's log-probability at its label as the reference writes it: (L[label] - max) - log sum. -/
def refRow (L : Logits) (lab : Lab) (hl : ∀ n, (lab n).toNat < 2000) (n : Fin 65536) : EReal :=
  (L n (labCol lab n (hl n)) - rowMax L n) - Ideal.log (lseSum L n)

/-- The kernel's loss: the mean of the rows' cross-entropies. -/
def kerLoss (L : Logits) (lab : Lab) (hl : ∀ n, (lab n).toNat < 2000) : EReal :=
  Ideal.div (∑ n : Fin 65536, kerRow L lab hl n) nLit

/-- The reference's loss: minus the mean of the log-probabilities. -/
def refLoss (L : Logits) (lab : Lab) (hl : ∀ n, (lab n).toNat < 2000) : EReal :=
  -(Ideal.div (∑ n : Fin 65536, refRow L lab hl n) nLit)

/-- The logits of the problem: the unit rows against the updated and the source centres. -/
def logits (X : Feat) (lab : Lab) (mem : FVec Ideal S1000x256 .f32) (src : Cen) : Logits :=
  logitOf (fn X) (memo (newMem hf (sumsArr X lab) (flagArr lab) mem) src)

/-- Row r of block b of core k in the first kernel's tiling (2 cores, 16 blocks of 2048 rows each). -/
def row0 (k : Fin 2) (b : Fin 16) (r : Fin 2048) : Fin 65536 :=
  ⟨(k.val * 16 + b.val) * 2048 + r.val, by have := k.isLt; have := b.isLt; have := r.isLt; omega⟩

/-- Row r of block b of core k in the second kernel's tiling (2 cores, 32 blocks of 1024 rows each). -/
def row1 (k : Fin 2) (b : Fin 32) (r : Fin 1024) : Fin 65536 :=
  ⟨(k.val * 32 + b.val) * 1024 + r.val, by have := k.isLt; have := b.isLt; have := r.isLt; omega⟩

/-- An extended real that is a real number. -/
def IsR (x : EReal) : Prop := ∃ r : ℝ, x = (r : EReal)

end Cert.Spec

end
-- ==== Proof.HostK.lean ====
import proofs.«429995_j90031104459201_3_alg».proof.Defs
import proofs.«429995_j90031104459201_3_alg».proof.Proof.Gen.KernelIdeal.Frame
import proofs.«429995_j90031104459201_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostK

open Cert.KernelIdeal Cert.KernelIdeal.Gen

/- The host operations of the kernel's program, read as values: what the first region is entered with, what the
   second is entered with as functions of the first region's outputs, and the program's result as a function of the
   second region's output. -/

variable (m : (ℓ : Loc nD τ sig) → Buf (Elt Ideal) ℓ) (ρ : Dev nD → PrngReg)

/-- A stretch of host operations leaves a buffer none of them writes as it was: the side goal, a list of
    inequalities between buffers, decided one by one. -/
local macro "unwritten" : tactic => `(tactic| (
  refine StableHlo.after_of_forall_not_mem _ _ (List.forall_iff_forall_mem.mp ?_)
  simp only [hostOps0, hostOps1, hostOps1_1, hostOps1_2, hostOps1_3, hostOps1_4, hostOps1_5, hostOps1_6, hostOps2,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The first region finds the features as launched, and the labels as one row. -/
theorem V1_x (c : Dev nD) : V1 m ρ c main_arg0 = m ((c : Thread nD τ).loc main_arg0) := by
  show StableHlo.after hostOps0 (W0 m ρ c) (Proc.devRef .tc main_arg0) = _
  refine Eq.trans (b := W0 m ρ c (Proc.devRef .tc main_arg0)) ?_ rfl
  unwritten
theorem V1_lab (c : Dev nD) (n : Fin 65536) :
    (V1 m ρ c main_v0 : S1x65536.Idx → BitVec 32) (ix2 0 n) = (m ((c : Thread nD τ).loc main_arg1) : S65536.Idx → BitVec 32) (ix1 n) := by
  have e : (V1 m ρ c main_v0 : S1x65536.Idx → BitVec 32)
      = shapeCast S1x65536 (m ((c : Thread nD τ).loc main_arg1) : S65536.Idx → BitVec 32) shapeCasts_S65536_S1x65536 := by
    show StableHlo.after hostOps0 (W0 m ρ c) (Proc.devRef .tc main_v0) = _
    after_results
    rfl
  rw [e]
  refine shapeCast_apply (s := S65536) (t := S1x65536) _ _ (ix2 0 n) (ix1 n) ?_
  rw [Shape.rowMajor_val_one, Shape.rowMajor_val_two]
  show n.val = (0 : Fin 1).val * 65536 + n.val
  simp

/-- The second region finds the first region's normalised rows, and the labels as one column. -/
theorem V9_fn (c : Dev nD) : V9 m ρ c main_v2_2 = (dat0 (F := Ideal) (V1 m ρ) c).arrAt 4 cfg0.N := by
  show W9 m ρ c (Proc.devRef .tc main_v2_2) = _
  refine Eq.trans (b := W8 m ρ c (Proc.devRef .tc main_v2_2)) (by unwritten) ?_
  refine Eq.trans (b := W7 m ρ c (Proc.devRef .tc main_v2_2)) (by unwritten) ?_
  refine Eq.trans (b := W6 m ρ c (Proc.devRef .tc main_v2_2)) (by unwritten) ?_
  refine Eq.trans (b := W5 m ρ c (Proc.devRef .tc main_v2_2)) (by unwritten) ?_
  refine Eq.trans (b := W4 m ρ c (Proc.devRef .tc main_v2_2)) (by unwritten) ?_
  refine Eq.trans (b := W3 m ρ c (Proc.devRef .tc main_v2_2)) (by unwritten) ?_
  refine Eq.trans (b := W2 m ρ c (Proc.devRef .tc main_v2_2)) (by unwritten) ?_
  exact W2_arr m ρ c 4
theorem V9_lab (c : Dev nD) (n : Fin 65536) :
    (V9 m ρ c main_v1 : S65536x1.Idx → BitVec 32) (ix2 n 0) = (m ((c : Thread nD τ).loc main_arg1) : S65536.Idx → BitVec 32) (ix1 n) := by
  have w : W9 m ρ c (Proc.devRef .tc main_v1) = W1 m ρ c (Proc.devRef .tc main_v1) := by
    refine Eq.trans (b := W8 m ρ c (Proc.devRef .tc main_v1)) (by unwritten) ?_
    refine Eq.trans (b := W7 m ρ c (Proc.devRef .tc main_v1)) (by unwritten) ?_
    refine Eq.trans (b := W6 m ρ c (Proc.devRef .tc main_v1)) (by unwritten) ?_
    refine Eq.trans (b := W5 m ρ c (Proc.devRef .tc main_v1)) (by unwritten) ?_
    refine Eq.trans (b := W4 m ρ c (Proc.devRef .tc main_v1)) (by unwritten) ?_
    refine Eq.trans (b := W3 m ρ c (Proc.devRef .tc main_v1)) (by unwritten) ?_
    refine Eq.trans (b := W2 m ρ c (Proc.devRef .tc main_v1)) (by unwritten) ?_
    exact W2_of_ne m ρ c main_v1 (by decide)
  have e : (V9 m ρ c main_v1 : S65536x1.Idx → BitVec 32)
      = shapeCast S65536x1 (m ((c : Thread nD τ).loc main_arg1) : S65536.Idx → BitVec 32) shapeCasts_S65536_S65536x1 := by
    refine Eq.trans (b := W1 m ρ c (Proc.devRef .tc main_v1)) w ?_
    show StableHlo.after hostOps0 (W0 m ρ c) (Proc.devRef .tc main_v1) = _
    after_results
    rfl
  rw [e]
  refine shapeCast_apply (s := S65536) (t := S65536x1) _ _ (ix2 n 0) (ix1 n) ?_
  rw [Shape.rowMajor_val_one, Shape.rowMajor_val_two]
  show n.val = n.val * 1 + (0 : Fin 1).val
  simp

/-- A sum over the two-by-one-by-one cells is the two cells' sum. -/
theorem sum_cells (L : S2x1x1.Idx → EReal) : ∑ i : S2x1x1.Idx, L i = L (ix3 0 0 0) + L (ix3 1 0 0) := by
  have h : ∑ i : S2x1x1.Idx, L i = ∑ k : Fin 2, L (ix3 k 0 0) := by
    refine Fintype.sum_equiv ⟨fun i => (i 0 : Fin 2), fun k => ix3 k 0 0, fun i => ?_, fun k => rfl⟩ _ _ fun i => ?_
    · obtain ⟨a, b, d, rfl⟩ : ∃ (a : Fin 2) (b : Fin 1) (d : Fin 1), i = ix3 a b d := ⟨i 0, i 1, i 2, eq_ix3 i⟩
      obtain rfl := Fin.eq_zero b
      obtain rfl := Fin.eq_zero d
      rfl
    · obtain ⟨a, b, d, rfl⟩ : ∃ (a : Fin 2) (b : Fin 1) (d : Fin 1), i = ix3 a b d := ⟨i 0, i 1, i 2, eq_ix3 i⟩
      obtain rfl := Fin.eq_zero b
      obtain rfl := Fin.eq_zero d
      rfl
  rw [h, Fin.sum_univ_two]

/-- The host's last two operations on any two-by-one-by-one array: its cells added from zero, over the literal
    65536. -/
theorem tail_val (L : FVec Ideal S2x1x1 .f32) :
    Host.divf (F := Ideal) (Host.reduceAdd (F := Ideal) L (constant (F := Ideal) S_ .f32 0x00000000#32)
        reducesTo_S2x1x1_S_d0_1_2 h_S_) (constant (F := Ideal) S_ .f32 0x47800000#32) ix0
      = Ideal.div (Spec.zeroLit + (L (ix3 0 0 0) + L (ix3 1 0 0))) Spec.nLit := by
  show Ideal.div (Ideal.hostReduceAdd reducesTo_S2x1x1_S_d0_1_2 L Spec.zeroLit ix0) Spec.nLit = _
  rw [Ideal.hostReduceAdd_total _ (fun b => b.elim0), sum_cells]

/-- The second region's loss cells, as an array of its literal shape. -/
abbrev lossC (c : Dev nD) : S2x1x1.Idx → EReal := (dat1 (F := Ideal) (V9 m ρ) c).arrAt 3 cfg1.N

/-- The program's result: the two cores' loss cells added from zero, over the literal 65536. -/
theorem tail (c : Dev nD) :
    (W11 m ρ c (Proc.devRef .tc main_v41) : S_.Idx → EReal) ix0
      = Ideal.div (Spec.zeroLit + (lossC m ρ c (ix3 0 0 0) + lossC m ρ c (ix3 1 0 0))) Spec.nLit := by
  have h39 : W10 m ρ c (Proc.devRef .tc main_v39) = lossC m ρ c := W10_arr m ρ c 3
  have e : (W11 m ρ c (Proc.devRef .tc main_v41) : S_.Idx → EReal)
      = Host.divf (F := Ideal) (Host.reduceAdd (F := Ideal) (W10 m ρ c (Proc.devRef .tc main_v39) : FVec Ideal S2x1x1 .f32)
          (constant (F := Ideal) S_ .f32 0x00000000#32) reducesTo_S2x1x1_S_d0_1_2 h_S_) (constant (F := Ideal) S_ .f32 0x47800000#32) := by
    show StableHlo.after hostOps2 (W10 m ρ c) (Proc.devRef .tc main_v41) = _
    after_results
  rw [e, h39]
  exact tail_val (lossC m ρ c)

end Cert.KernelIdeal.HostK

end
-- ==== Proof.HostMid.lean ====
import proofs.«429995_j90031104459201_3_alg».proof.Defs
import proofs.«429995_j90031104459201_3_alg».proof.Proof.Gen.KernelIdeal.Frame
import proofs.«429995_j90031104459201_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Run
import Idealize.ShloMosaic.Lib.KernelVsHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostMid

open Cert.KernelIdeal Cert.KernelIdeal.Gen

/-- A buffer's name as the contents are indexed by it. -/
local notation "rd" => Proc.devRef Proc.tc

section Stretches

variable (V : Valuation τ sig (Elt Ideal))

/-! ### The centre update over a GIVEN norm column (the program computes the norm in a called function, so between
    the two stretches it is a buffer of its own) -/

/-- The batch centre over a given norm column nr of the class sums. -/
def centreW (s : FVec Ideal S1000x256 .f32) (fl : FVec Ideal S1000x1 .f32) (nr : FVec Ideal S1000x1 .f32) :
    FVec Ideal S1000x256 .f32 :=
  mulf (Host.divf (F := Ideal) s (broadcastInDim S1000x256 ![0, 1] bcast_S1000x1_S1000x256_0_1
      (maximumf nr (broadcastInDim S1000x1 ![] bcast_S_S1000x1 (constant (F := Ideal) S_ .f32 0x2B8CBCCC#32)))))
    (broadcastInDim S1000x256 ![0, 1] bcast_S1000x1_S1000x256_0_1 fl)

/-- The blend weight over a given norm column. -/
def blendW (s : FVec Ideal S1000x256 .f32) (fl : FVec Ideal S1000x1 .f32) (mem : FVec Ideal S1000x256 .f32)
    (nr : FVec Ideal S1000x1 .f32) : FVec Ideal S1000x1 .f32 :=
  subf (broadcastInDim S1000x1 ![] bcast_S_S1000x1 (constant (F := Ideal) S_ .f32 0x3F800000#32))
    (mulf (subf (broadcastInDim S1000x1 ![] bcast_S_S1000x1 (constant (F := Ideal) S_ .f32 0x3F800000#32))
      (broadcastInDim S1000x1 ![0] bcast_S1000_S1000x1_0
        (Host.reduceAdd (F := Ideal) (mulf mem (centreW s fl nr)) (constant (F := Ideal) S_ .f32 0x00000000#32)
          reducesTo_S1000x256_S1000_d1 h_S_))) fl)

/-- The blended rows before the last normalisation, over a given norm column. -/
def mixW (s : FVec Ideal S1000x256 .f32) (fl : FVec Ideal S1000x1 .f32) (mem : FVec Ideal S1000x256 .f32)
    (nr : FVec Ideal S1000x1 .f32) : FVec Ideal S1000x256 .f32 :=
  addf (mulf (broadcastInDim S1000x256 ![0, 1] bcast_S1000x1_S1000x256_0_1 (blendW s fl mem nr)) mem)
    (mulf (broadcastInDim S1000x256 ![0, 1] bcast_S1000x1_S1000x256_0_1
      (subf (broadcastInDim S1000x1 ![] bcast_S_S1000x1 (constant (F := Ideal) S_ .f32 0x3F800000#32)) (blendW s fl mem nr)))
      (centreW s fl nr))

/-- The norm column of an array's rows, as the called function computes it. -/
def normW (a : FVec Ideal S1000x256 .f32) : FVec Ideal S1000x1 .f32 :=
  Host.sqrt (broadcastInDim S1000x1 ![0] bcast_S1000_S1000x1_0
    (Host.reduceAdd (F := Ideal) (mulf a a) (constant (F := Ideal) S_ .f32 0x00000000#32) reducesTo_S1000x256_S1000_d1 h_S_))

/-! ### One stretch at a time, over any contents V -/

theorem ops16_v38 :
    (StableHlo.after (hostOps1_6 (F := Ideal)) V (rd main_v38) : FVec Ideal S256x2048 .bf16)
      = transpose S256x2048 [1, 0] (V (rd main_v37) : FVec Ideal S2048x256 .bf16) transposes_S2048x256_S256x2048_1_0 := by
  after_results <;> rfl

theorem ops15_v37 :
    (StableHlo.after (hostOps1_5 (F := Ideal)) V (rd main_v37) : FVec Ideal S2048x256 .bf16)
      = pad S2048x256 ![0, 0] ![48, 0] ![0, 0] (V (rd main_v36) : FVec Ideal S2000x256 .bf16)
          (sitofp (F := Ideal) .bf16 (V (rd main_c) : IVec S_ 32)) pads_S2000x256_S2048x256_0480_000 h_S_ := by
  after_results <;> rfl

theorem ops14_c :
    (StableHlo.after (hostOps1_4 (F := Ideal)) V (rd main_c) : IVec S_ 32) = constantI S_ 32 0#32 := by
  after_results <;> rfl

theorem ops14_v36 :
    (StableHlo.after (hostOps1_4 (F := Ideal)) V (rd main_v36) : FVec Ideal S2000x256 .bf16)
      = truncf .bf16 (concatenate S2000x256 0
          [⟨S1000x256, Host.divf (F := Ideal) (V (rd main_v29) : FVec Ideal S1000x256 .f32)
              (broadcastInDim S1000x256 ![0, 1] bcast_S1000x1_S1000x256_0_1
                (maximumf (V (rd main_v30) : FVec Ideal S1000x1 .f32)
                  (broadcastInDim S1000x1 ![] bcast_S_S1000x1 (constant (F := Ideal) S_ .f32 0x2B8CBCCC#32))))⟩,
           ⟨S1000x256, (V (rd main_arg3) : FVec Ideal S1000x256 .f32)⟩]
          concatenates_S1000x256_S1000x256_S2000x256_d0) bitsLt_bf16_f32 := by
  after_results <;> rfl

theorem ops13_v30 :
    (StableHlo.after (hostOps1_3 (F := Ideal)) V (rd main_v30) : FVec Ideal S1000x1 .f32)
      = normW (V (rd main_v29)) := by
  unfold normW; after_results <;> rfl

theorem ops13_v29 :
    (StableHlo.after (hostOps1_3 (F := Ideal)) V (rd main_v29) : FVec Ideal S1000x256 .f32) = V (rd main_v29) := by
  after_results <;> rfl

theorem ops13_arg3 :
    (StableHlo.after (hostOps1_3 (F := Ideal)) V (rd main_arg3) : FVec Ideal S1000x256 .f32) = V (rd main_arg3) := by
  after_results <;> rfl

theorem ops12_v29 :
    (StableHlo.after (hostOps1_2 (F := Ideal)) V (rd main_v29) : FVec Ideal S1000x256 .f32)
      = mixW (V (rd main_v3)) (V (rd main_v7)) (V (rd main_arg2)) (V (rd main_v8)) := by
  after_results_simp <;> rfl

theorem ops12_arg3 :
    (StableHlo.after (hostOps1_2 (F := Ideal)) V (rd main_arg3) : FVec Ideal S1000x256 .f32) = V (rd main_arg3) := by
  after_results <;> rfl

theorem ops11_v8 :
    (StableHlo.after (hostOps1_1 (F := Ideal)) V (rd main_v8) : FVec Ideal S1000x1 .f32) = normW (V (rd main_v3)) := by
  unfold normW; after_results <;> rfl

theorem ops11_v3 :
    (StableHlo.after (hostOps1_1 (F := Ideal)) V (rd main_v3) : FVec Ideal S1000x256 .f32) = V (rd main_v3) := by
  after_results <;> rfl
theorem ops11_v7 :
    (StableHlo.after (hostOps1_1 (F := Ideal)) V (rd main_v7) : FVec Ideal S1000x1 .f32) = V (rd main_v7) := by
  after_results <;> rfl
theorem ops11_arg2 :
    (StableHlo.after (hostOps1_1 (F := Ideal)) V (rd main_arg2) : FVec Ideal S1000x256 .f32) = V (rd main_arg2) := by
  after_results <;> rfl
theorem ops11_arg3 :
    (StableHlo.after (hostOps1_1 (F := Ideal)) V (rd main_arg3) : FVec Ideal S1000x256 .f32) = V (rd main_arg3) := by
  after_results <;> rfl

theorem ops1_v3 :
    (StableHlo.after (hostOps1 (F := Ideal)) V (rd main_v3) : FVec Ideal S1000x256 .f32)
      = Host.reduceAdd (F := Ideal) (V (rd main_v2_0) : FVec Ideal S2x1000x256 .f32)
          (constant (F := Ideal) S_ .f32 0x00000000#32) reducesTo_S2x1000x256_S1000x256_d0 h_S_ := by
  after_results <;> rfl
theorem ops1_v7 :
    (StableHlo.after (hostOps1 (F := Ideal)) V (rd main_v7) : FVec Ideal S1000x1 .f32)
      = uitofp (F := Ideal) .f32 (cmpf .ogt
          (Host.reduceAdd (F := Ideal) (V (rd main_v2_1) : FVec Ideal S2x1000x1 .f32)
            (constant (F := Ideal) S_ .f32 0x00000000#32) reducesTo_S2x1000x1_S1000x1_d0 h_S_)
          (broadcastInDim S1000x1 ![] bcast_S_S1000x1 (constant (F := Ideal) S_ .f32 0x00000000#32))) := by
  after_results <;> rfl
theorem ops1_arg2 :
    (StableHlo.after (hostOps1 (F := Ideal)) V (rd main_arg2) : FVec Ideal S1000x256 .f32) = V (rd main_arg2) := by
  after_results <;> rfl
theorem ops1_arg3 :
    (StableHlo.after (hostOps1 (F := Ideal)) V (rd main_arg3) : FVec Ideal S1000x256 .f32) = V (rd main_arg3) := by
  after_results <;> rfl
theorem ops0_arg2 :
    (StableHlo.after (hostOps0 (F := Ideal)) V (rd main_arg2) : FVec Ideal S1000x256 .f32) = V (rd main_arg2) := by
  after_results <;> rfl
theorem ops0_arg3 :
    (StableHlo.after (hostOps0 (F := Ideal)) V (rd main_arg3) : FVec Ideal S1000x256 .f32) = V (rd main_arg3) := by
  after_results <;> rfl

/-! ### The centre update is the program's: the two norm columns put back -/

theorem newMem_eq (hf : Spec.NMFacts) (s : FVec Ideal S1000x256 .f32) (fl : FVec Ideal S1000x1 .f32)
    (mem : FVec Ideal S1000x256 .f32) :
    Spec.newMem hf s fl mem
      = Host.divf (F := Ideal) (mixW s fl mem (normW s))
          (broadcastInDim S1000x256 ![0, 1] bcast_S1000x1_S1000x256_0_1
            (maximumf (normW (mixW s fl mem (normW s)))
              (broadcastInDim S1000x1 ![] bcast_S_S1000x1 (constant (F := Ideal) S_ .f32 0x2B8CBCCC#32)))) := by
  unfold Spec.newMem Spec.l2rows Spec.blend Spec.batchCentre Spec.l2rows Spec.rowNorm mixW blendW centreW normW
  rfl

/-! ### The host's sum over the two slabs, at an index -/

theorem reduce0_S (x : FVec Ideal S2x1000x256 .f32) (cl : Fin 1000) (d : Fin 256) :
    Host.reduceAdd (F := Ideal) x (constant (F := Ideal) S_ .f32 0x00000000#32) reducesTo_S2x1000x256_S1000x256_d0 h_S_
        (ix2 cl d)
      = Spec.zeroLit + (x (ix3 0 cl d) + x (ix3 1 cl d)) := by
  have h : S2x1000x256.Reduces [0] S1000x256 := by decide
  refine (Ideal.hostReduceAdd_single reducesTo_S2x1000x256_S1000x256_d0 h x _ (ix2 cl d)).trans ?_
  refine congrArg (fun z => Spec.zeroLit + z) ?_
  refine (Fin.sum_univ_two (fun k : Fin 2 => x (h.lift (ix2 cl d) k))).trans ?_
  have e0 : h.lift (ix2 cl d) (0 : Fin 2) = ix3 0 cl d := by
    funext a; apply Fin.ext; match a with | ⟨0, _⟩ => rfl | ⟨1, _⟩ => rfl | ⟨2, _⟩ => rfl
  have e1 : h.lift (ix2 cl d) (1 : Fin 2) = ix3 1 cl d := by
    funext a; apply Fin.ext; match a with | ⟨0, _⟩ => rfl | ⟨1, _⟩ => rfl | ⟨2, _⟩ => rfl
  rw [e0, e1]

theorem reduce0_C (x : FVec Ideal S2x1000x1 .f32) (cl : Fin 1000) (u : Fin 1) :
    Host.reduceAdd (F := Ideal) x (constant (F := Ideal) S_ .f32 0x00000000#32) reducesTo_S2x1000x1_S1000x1_d0 h_S_
        (ix2 cl u)
      = Spec.zeroLit + (x (ix3 0 cl 0) + x (ix3 1 cl 0)) := by
  have h : S2x1000x1.Reduces [0] S1000x1 := by decide
  obtain rfl : u = 0 := Subsingleton.elim _ _
  refine (Ideal.hostReduceAdd_single reducesTo_S2x1000x1_S1000x1_d0 h x _ (ix2 cl 0)).trans ?_
  refine congrArg (fun z => Spec.zeroLit + z) ?_
  refine (Fin.sum_univ_two (fun k : Fin 2 => x (h.lift (ix2 cl 0) k))).trans ?_
  have e0 : h.lift (ix2 cl (0 : Fin 1)) (0 : Fin 2) = ix3 0 cl 0 := by
    funext a; apply Fin.ext; match a with | ⟨0, _⟩ => rfl | ⟨1, _⟩ => rfl | ⟨2, _⟩ => rfl
  have e1 : h.lift (ix2 cl (0 : Fin 1)) (1 : Fin 2) = ix3 1 cl 0 := by
    funext a; apply Fin.ext; match a with | ⟨0, _⟩ => rfl | ⟨1, _⟩ => rfl | ⟨2, _⟩ => rfl
  rw [e0, e1]

/-! ### The layout tail read at (d, j), j below 2000 -/

theorem tail_apply (nm a3 : FVec Ideal S1000x256 .f32) (z : FVec Ideal S_ .bf16) (d : Fin 256) (j : Fin 2000) :
    transpose S256x2048 [1, 0]
        (pad S2048x256 ![0, 0] ![48, 0] ![0, 0]
          (truncf .bf16 (concatenate S2000x256 0 [⟨S1000x256, nm⟩, ⟨S1000x256, a3⟩]
            concatenates_S1000x256_S1000x256_S2000x256_d0) bitsLt_bf16_f32 : FVec Ideal S2000x256 .bf16)
          z pads_S2000x256_S2048x256_0480_000 h_S_)
        transposes_S2048x256_S256x2048_1_0 (ix2 d ⟨j.val, by have := j.isLt; omega⟩)
      = Spec.memo nm (fun cl e => a3 (ix2 cl e)) j d := by
  refine (transpose_ix2_apply (a := 2048) (b := 256) _ transposes_S2048x256_S256x2048_1_0 d ⟨j.val, by have := j.isLt; omega⟩).trans ?_
  refine (pad_apply_of_inside ![0, 0] ![48, 0] ![0, 0] _ z pads_S2000x256_S2048x256_0480_000 h_S_
    (ix2 (⟨j.val, by have := j.isLt; omega⟩ : Fin 2048) d) (ix2 j d)
    (fun a => match a with
      | ⟨0, _⟩ => by show j.val = 0 + j.val * (0 + 1); omega
      | ⟨1, _⟩ => by show d.val = 0 + d.val * (0 + 1); omega)).trans ?_
  refine (truncf_apply _ bitsLt_bf16_f32 (ix2 j d)).trans ?_
  unfold Spec.memo
  by_cases hj : j.val < 1000
  · rw [dif_pos hj]
    exact concatenate_pair_apply_left (0 : Fin 2) nm a3 concatenates_S1000x256_S1000x256_S2000x256_d0 (ix2 j d) rfl
      (ix2 ⟨j.val, hj⟩ d) (fun b => match b with | ⟨0, _⟩ => rfl | ⟨1, _⟩ => rfl)
  · rw [dif_neg hj]
    exact concatenate_pair_apply_right (0 : Fin 2) nm a3 concatenates_S1000x256_S1000x256_S2000x256_d0 (ix2 j d) rfl rfl
      (ix2 ⟨j.val - 1000, by have := j.isLt; omega⟩ d)
      (fun b => match b with | ⟨0, _⟩ => fun hb => absurd rfl hb | ⟨1, _⟩ => fun _ => rfl)
      (by show (j.val - 1000) + 1000 = j.val; omega)

end Stretches

/- The host operations between the two kernels, read as values: the class sums and flags from the first kernel's two
   slabs, the centre update, and the transposed padded centres the second kernel is entered with. -/

variable (m : (ℓ : Loc nD τ sig) → Buf (Elt Ideal) ℓ) (ρ : Dev nD → PrngReg)

/-- The first region's two slabs, as arrays of their literal shapes. -/
abbrev slabS (c : Dev nD) : S2x1000x256.Idx → EReal := (dat0 (F := Ideal) (V1 m ρ) c).arrAt 2 cfg0.N
abbrev slabC (c : Dev nD) : S2x1000x1.Idx → EReal := (dat0 (F := Ideal) (V1 m ρ) c).arrAt 3 cfg0.N

/-- The class sums and the flags the host computes from the two slabs. -/
def sumsK (c : Dev nD) : FVec Ideal Spec.S1000x256 .f32 := fun i =>
  Spec.zeroLit + (slabS m ρ c (ix3 0 (i 0) (i 1)) + slabS m ρ c (ix3 1 (i 0) (i 1)))
def cntK (c : Dev nD) (cl : Fin 1000) : EReal :=
  Spec.zeroLit + (slabC m ρ c (ix3 0 cl 0) + slabC m ρ c (ix3 1 cl 0))
def flagsK (c : Dev nD) : FVec Ideal Spec.S1000x1 .f32 := fun i =>
  FloatOps.uitofp (F := Ideal) .f32 (FloatOps.cmpf (F := Ideal) (φ := .f32) .ogt (cntK m ρ c (i 0)) Spec.zeroLit)

/-! ### The fold walked back: the second region's transposed centres as one term over the first region's slabs -/

/-- The host's class sums and flags, as the operations write them. -/
def sumsH (c : Dev nD) : FVec Ideal S1000x256 .f32 :=
  Host.reduceAdd (F := Ideal) (slabS m ρ c) (constant (F := Ideal) S_ .f32 0x00000000#32)
    reducesTo_S2x1000x256_S1000x256_d0 h_S_
def flagsH (c : Dev nD) : FVec Ideal S1000x1 .f32 :=
  uitofp (F := Ideal) .f32 (cmpf .ogt
    (Host.reduceAdd (F := Ideal) (slabC m ρ c) (constant (F := Ideal) S_ .f32 0x00000000#32)
      reducesTo_S2x1000x1_S1000x1_d0 h_S_)
    (broadcastInDim S1000x1 ![] bcast_S_S1000x1 (constant (F := Ideal) S_ .f32 0x00000000#32)))

theorem W2_arg2 (c : Dev nD) :
    (W2 m ρ c (rd main_arg2) : FVec Ideal S1000x256 .f32) = m ((c : Thread nD τ).loc main_arg2) :=
  (W2_of_ne m ρ c main_arg2 (by decide)).trans ((ops0_arg2 (W0 m ρ c)).trans rfl)
theorem W2_arg3 (c : Dev nD) :
    (W2 m ρ c (rd main_arg3) : FVec Ideal S1000x256 .f32) = m ((c : Thread nD τ).loc main_arg3) :=
  (W2_of_ne m ρ c main_arg3 (by decide)).trans ((ops0_arg3 (W0 m ρ c)).trans rfl)
theorem W2_slabS (c : Dev nD) : (W2 m ρ c (rd main_v2_0) : FVec Ideal S2x1000x256 .f32) = slabS m ρ c := W2_arr m ρ c 2
theorem W2_slabC (c : Dev nD) : (W2 m ρ c (rd main_v2_1) : FVec Ideal S2x1000x1 .f32) = slabC m ρ c := W2_arr m ρ c 3

theorem V9_v38_eq (hf : Spec.NMFacts) (c : Dev nD) :
    (V9 m ρ c main_v38 : FVec Ideal S256x2048 .bf16)
      = transpose S256x2048 [1, 0]
          (pad S2048x256 ![0, 0] ![48, 0] ![0, 0]
            (truncf .bf16 (concatenate S2000x256 0
              [⟨S1000x256, Spec.newMem hf (sumsH m ρ c) (flagsH m ρ c) (m ((c : Thread nD τ).loc main_arg2))⟩,
               ⟨S1000x256, (m ((c : Thread nD τ).loc main_arg3) : FVec Ideal S1000x256 .f32)⟩]
              concatenates_S1000x256_S1000x256_S2000x256_d0) bitsLt_bf16_f32 : FVec Ideal S2000x256 .bf16)
            (sitofp (F := Ideal) .bf16 (constantI S_ 32 0#32)) pads_S2000x256_S2048x256_0480_000 h_S_)
          transposes_S2048x256_S256x2048_1_0 := by
  rw [newMem_eq]
  rw [show (V9 m ρ c main_v38 : FVec Ideal S256x2048 .bf16) = _ from ops16_v38 (W8 m ρ c)]
  rw [show (W8 m ρ c (rd main_v37) : FVec Ideal S2048x256 .bf16) = _ from ops15_v37 (W7 m ρ c)]
  rw [show (W7 m ρ c (rd main_c) : IVec S_ 32) = _ from ops14_c (W6 m ρ c)]
  rw [show (W7 m ρ c (rd main_v36) : FVec Ideal S2000x256 .bf16) = _ from ops14_v36 (W6 m ρ c)]
  rw [show (W6 m ρ c (rd main_v30) : FVec Ideal S1000x1 .f32) = _ from ops13_v30 (W5 m ρ c)]
  rw [show (W6 m ρ c (rd main_v29) : FVec Ideal S1000x256 .f32) = _ from ops13_v29 (W5 m ρ c)]
  rw [show (W6 m ρ c (rd main_arg3) : FVec Ideal S1000x256 .f32) = _ from ops13_arg3 (W5 m ρ c)]
  rw [show (W5 m ρ c (rd main_v29) : FVec Ideal S1000x256 .f32) = _ from ops12_v29 (W4 m ρ c)]
  rw [show (W5 m ρ c (rd main_arg3) : FVec Ideal S1000x256 .f32) = _ from ops12_arg3 (W4 m ρ c)]
  rw [show (W4 m ρ c (rd main_v8) : FVec Ideal S1000x1 .f32) = _ from ops11_v8 (W3 m ρ c)]
  rw [show (W4 m ρ c (rd main_v3) : FVec Ideal S1000x256 .f32) = _ from ops11_v3 (W3 m ρ c)]
  rw [show (W4 m ρ c (rd main_v7) : FVec Ideal S1000x1 .f32) = _ from ops11_v7 (W3 m ρ c)]
  rw [show (W4 m ρ c (rd main_arg2) : FVec Ideal S1000x256 .f32) = _ from ops11_arg2 (W3 m ρ c)]
  rw [show (W4 m ρ c (rd main_arg3) : FVec Ideal S1000x256 .f32) = _ from ops11_arg3 (W3 m ρ c)]
  rw [show (W3 m ρ c (rd main_v3) : FVec Ideal S1000x256 .f32) = _ from ops1_v3 (W2 m ρ c)]
  rw [show (W3 m ρ c (rd main_v7) : FVec Ideal S1000x1 .f32) = _ from ops1_v7 (W2 m ρ c)]
  rw [show (W3 m ρ c (rd main_arg2) : FVec Ideal S1000x256 .f32) = _ from ops1_arg2 (W2 m ρ c)]
  rw [show (W3 m ρ c (rd main_arg3) : FVec Ideal S1000x256 .f32) = _ from ops1_arg3 (W2 m ρ c)]
  rw [W2_slabS, W2_slabC, W2_arg2, W2_arg3]
  rfl

/-- The host's sums over the two slabs are the two-term sums, entry by entry. -/
theorem sumsH_eq (c : Dev nD) : sumsH m ρ c = sumsK m ρ c := by
  funext i
  obtain ⟨a, b, rfl⟩ : ∃ a b, i = ix2 a b := ⟨i 0, i 1, eq_ix2 i⟩
  exact reduce0_S (slabS m ρ c) a b

theorem flagsH_eq (c : Dev nD) : flagsH m ρ c = flagsK m ρ c := by
  funext i
  obtain ⟨a, u, rfl⟩ : ∃ a u, i = ix2 a u := ⟨i 0, i 1, eq_ix2 i⟩
  show FloatOps.uitofp (F := Ideal) .f32 (FloatOps.cmpf (F := Ideal) (φ := .f32) .ogt
    (Host.reduceAdd (F := Ideal) (slabC m ρ c) (constant (F := Ideal) S_ .f32 0x00000000#32)
      reducesTo_S2x1000x1_S1000x1_d0 h_S_ (ix2 a u)) Spec.zeroLit) = _
  rw [reduce0_C]
  rfl

/-- The transposed, padded centres the second region finds, at a column below 2000: the updated centres, then the
    source centres. -/
theorem V9_memoT (hf : Spec.NMFacts) (c : Dev nD) (d : Fin 256) (j : Fin 2000) :
    (V9 m ρ c main_v38 : S256x2048.Idx → EReal) (ix2 d ⟨j.val, by have := j.isLt; omega⟩)
      = Spec.memo (Spec.newMem hf (sumsK m ρ c) (flagsK m ρ c) (m ((c : Thread nD τ).loc main_arg2)))
          (fun cl e => (m ((c : Thread nD τ).loc main_arg3) : S1000x256.Idx → EReal) (ix2 cl e)) j d := by
  refine (congrFun (V9_v38_eq m ρ hf c) _).trans ?_
  rw [sumsH_eq, flagsH_eq]
  exact tail_apply _ _ _ d j

end Cert.KernelIdeal.HostMid

end
-- ==== Proof.Reg0.lean ====
import proofs.«429995_j90031104459201_3_alg».proof.Defs
import proofs.«429995_j90031104459201_3_alg».proof.Proof.Gen.KernelIdeal.Frame
import proofs.«429995_j90031104459201_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

section Pieces
variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from a core's first block the normalised-rows buffer is left holding the body's quotient of the input block. -/
theorem pieceB4 (c : Dev nD) (i : grid0.Coords) (a2 : Memref sig .tc .vmem S2048x256 .f32) (h2 : a2.IsWhole)
    (a3 : Memref sig .tc .vmem S1x2048 .i32) (h3 : a3.IsWhole) (a4 : Memref sig .tc .vmem S1x1000x256 .f32) (h4 : a4.IsWhole)
    (a5 : Memref sig .tc .vmem S1x1000x1 .f32) (h5 : a5.IsWhole) (a6 : Memref sig .tc .vmem S2048x256 .bf16) (h6 : a6.IsWhole)
    (hc : ¬cond0_0 i) (x0 : Vec F S2048x256 .f32) (x1 : Vec F S1x2048 .i32) (xo2 : Vec F S1x1000x256 .f32) (xo3 : Vec F S1x1000x1 .f32) :
    out0_B_4 c i a2 h2 a3 h3 a4 h4 a5 h5 a6 h6 hc x0 x1 xo2 xo3 = k0_pay5 x0 := by
  unfold out0_B_4
  rw [View.read_writes_eq_canon _ _ _ (cover0_B_4 c i a2 h2 a3 h3 a4 h4 a5 h5 a6 h6 hc x0 x1 xo2 xo3)]
  unfold kernelRun0_B
  dsimp only
  sl_unfold_words
  rw [View.canon_unit_zero hz2]
  simp only [View.readAt_eq_ld, h2.read_unread, View.ld_unit_zero (S := S2048x256) hz2]

/-- At a core's first block likewise. -/
theorem pieceA4 (c : Dev nD) (i : grid0.Coords) (a2 : Memref sig .tc .vmem S2048x256 .f32) (h2 : a2.IsWhole)
    (a3 : Memref sig .tc .vmem S1x2048 .i32) (h3 : a3.IsWhole) (a4 : Memref sig .tc .vmem S1x1000x256 .f32) (h4 : a4.IsWhole)
    (a5 : Memref sig .tc .vmem S1x1000x1 .f32) (h5 : a5.IsWhole) (a6 : Memref sig .tc .vmem S2048x256 .bf16) (h6 : a6.IsWhole)
    (hc : cond0_0 i) (x0 : Vec F S2048x256 .f32) (x1 : Vec F S1x2048 .i32) :
    out0_A_4 c i a2 h2 a3 h3 a4 h4 a5 h5 a6 h6 hc x0 x1 = k0_pay5 x0 := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_unit_zero hz2]
  simp only [View.readAt_eq_ld, h2.read_unread, View.ld_unit_zero (S := S2048x256) hz2]

/-- Away from a core's first block the class-sum buffer holding xo2 is left at the body's update of it. -/
theorem pieceB2 (c : Dev nD) (i : grid0.Coords) (a2 : Memref sig .tc .vmem S2048x256 .f32) (h2 : a2.IsWhole)
    (a3 : Memref sig .tc .vmem S1x2048 .i32) (h3 : a3.IsWhole) (a4 : Memref sig .tc .vmem S1x1000x256 .f32) (h4 : a4.IsWhole)
    (a5 : Memref sig .tc .vmem S1x1000x1 .f32) (h5 : a5.IsWhole) (a6 : Memref sig .tc .vmem S2048x256 .bf16) (h6 : a6.IsWhole)
    (hc : ¬cond0_0 i) (x0 : Vec F S2048x256 .f32) (x1 : Vec F S1x2048 .i32) (xo2 : Vec F S1x1000x256 .f32) (xo3 : Vec F S1x1000x1 .f32) :
    out0_B_2 c i a2 h2 a3 h3 a4 h4 a5 h5 a6 h6 hc x0 x1 xo2 xo3 = k0_pay7 x0 x1 xo2 := by
  unfold out0_B_2
  rw [View.read_writes_eq_canon _ _ _ (cover0_B_2 c i a2 h2 a3 h3 a4 h4 a5 h5 a6 h6 hc x0 x1 xo2 xo3)]
  unfold kernelRun0_B
  dsimp only
  sl_unfold_words
  rw [View.canon_unit_zero hz3]
  simp only [View.readAt_eq_ld, h2.read_unread, h3.read_unread, h4.read_unread, View.ld_unit_zero (S := S2048x256) hz2,
    View.ld_unit_zero (S := S1x2048) hz2, View.ld_unit_zero (S := S1x1000x256) hz3]

/-- At a core's first block it is the update of the zero block just stored. -/
theorem pieceA2 (c : Dev nD) (i : grid0.Coords) (a2 : Memref sig .tc .vmem S2048x256 .f32) (h2 : a2.IsWhole)
    (a3 : Memref sig .tc .vmem S1x2048 .i32) (h3 : a3.IsWhole) (a4 : Memref sig .tc .vmem S1x1000x256 .f32) (h4 : a4.IsWhole)
    (a5 : Memref sig .tc .vmem S1x1000x1 .f32) (h5 : a5.IsWhole) (a6 : Memref sig .tc .vmem S2048x256 .bf16) (h6 : a6.IsWhole)
    (hc : cond0_0 i) (x0 : Vec F S2048x256 .f32) (x1 : Vec F S1x2048 .i32) :
    out0_A_2 c i a2 h2 a3 h3 a4 h4 a5 h5 a6 h6 hc x0 x1 = k0_pay7 x0 x1 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1000x256) hz3]
  simp only [View.readCov_unit_zero (S := S1x1000x256) _ hz3, View.readAt_eq_ld, h2.read_unread, h3.read_unread, View.ld_unit_zero (S := S2048x256) hz2,
    View.ld_unit_zero (S := S1x2048) hz2, View.ld_unit_zero (S := S1x1000x256) hz3]

/-- Away from a core's first block the count buffer holding xo3 is left at the body's update of it. -/
theorem pieceB3 (c : Dev nD) (i : grid0.Coords) (a2 : Memref sig .tc .vmem S2048x256 .f32) (h2 : a2.IsWhole)
    (a3 : Memref sig .tc .vmem S1x2048 .i32) (h3 : a3.IsWhole) (a4 : Memref sig .tc .vmem S1x1000x256 .f32) (h4 : a4.IsWhole)
    (a5 : Memref sig .tc .vmem S1x1000x1 .f32) (h5 : a5.IsWhole) (a6 : Memref sig .tc .vmem S2048x256 .bf16) (h6 : a6.IsWhole)
    (hc : ¬cond0_0 i) (x0 : Vec F S2048x256 .f32) (x1 : Vec F S1x2048 .i32) (xo2 : Vec F S1x1000x256 .f32) (xo3 : Vec F S1x1000x1 .f32) :
    out0_B_3 c i a2 h2 a3 h3 a4 h4 a5 h5 a6 h6 hc x0 x1 xo2 xo3 = k0_pay1 (k0_pay6 x1) xo3 := by
  unfold out0_B_3
  rw [View.read_writes_eq_canon _ _ _ (cover0_B_3 c i a2 h2 a3 h3 a4 h4 a5 h5 a6 h6 hc x0 x1 xo2 xo3)]
  unfold kernelRun0_B
  dsimp only
  sl_unfold_words
  rw [View.canon_unit_zero hz3]
  simp only [View.readAt_eq_ld, h3.read_unread, h5.read_unread,
    View.ld_unit_zero (S := S1x2048) hz2, View.ld_unit_zero (S := S1x1000x1) hz3]

/-- At a core's first block it is the update of the zero column just stored. -/
theorem pieceA3 (c : Dev nD) (i : grid0.Coords) (a2 : Memref sig .tc .vmem S2048x256 .f32) (h2 : a2.IsWhole)
    (a3 : Memref sig .tc .vmem S1x2048 .i32) (h3 : a3.IsWhole) (a4 : Memref sig .tc .vmem S1x1000x256 .f32) (h4 : a4.IsWhole)
    (a5 : Memref sig .tc .vmem S1x1000x1 .f32) (h5 : a5.IsWhole) (a6 : Memref sig .tc .vmem S2048x256 .bf16) (h6 : a6.IsWhole)
    (hc : cond0_0 i) (x0 : Vec F S2048x256 .f32) (x1 : Vec F S1x2048 .i32) :
    out0_A_3 c i a2 h2 a3 h3 a4 h4 a5 h5 a6 h6 hc x0 x1 = k0_pay1 (k0_pay6 x1) (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1000x1) hz3]
  simp only [View.readCov_unit_zero (S := S1x1000x1) _ hz3, View.readAt_eq_ld, h3.read_unread,
    View.ld_unit_zero (S := S1x2048) hz2, View.ld_unit_zero (S := S1x1000x1) hz3]
end Pieces

section Values

/-- The one-hot entry: the comparison of a class number with a label, widened and read as a float, is 1 or 0. -/
theorem onehot_val (a b : BitVec 32) :
    FloatOps.sitofp (F := Ideal) .f32 ((IntOp.cmpi .eq a b).setWidth 32) = if b = a then (1 : EReal) else 0 := by
  by_cases h : b = a
  · subst h
    rw [if_pos rfl]
    have e : IntOp.cmpi .eq b b = 1#1 := by simp [IntOp.cmpi]
    rw [e]
    show (((((1#1 : BitVec 1).setWidth 32).toInt : ℤ) : ℝ) : EReal) = 1
    rw [show ((1#1 : BitVec 1).setWidth 32).toInt = 1 from by decide]
    norm_num
  · rw [if_neg h]
    have e : IntOp.cmpi .eq a b = 0#1 := by
      have hab : (a == b) = false := by
        rw [beq_eq_false_iff_ne]; exact fun e => h e.symm
      show BitVec.ofBool (a == b) = 0#1
      rw [hab]; rfl
    rw [e]
    show (((((0#1 : BitVec 1).setWidth 32).toInt : ℤ) : ℝ) : EReal) = 0
    rw [show ((0#1 : BitVec 1).setWidth 32).toInt = 0 from by decide]
    norm_num

/-- The body's one-hot matrix at (class, row of the block). -/
theorem pay6_apply (l : Vec Ideal S1x2048 .i32) (cl : Fin 1000) (r : Fin 2048) :
    (k0_pay6 (F := Ideal) l) (ix2 cl r) = if l (ix2 (0 : Fin 1) r) = BitVec.ofNat 32 cl.val then (1 : EReal) else 0 := by
  unfold k0_pay6
  dsimp only
  refine (onehot_val _ _).trans ?_
  rw [shapeCast_self]
  have e1 : iota .tc S1000x2048 32 [0] iota_S1000x2048_d0_w32 (ix2 cl r) = BitVec.ofNat 32 cl.val :=
    iota_single_apply .tc S1000x2048 32 0 iota_S1000x2048_d0_w32 (ix2 cl r)
  have e2 : broadcastTo S1000x2048 l broadcasts_S1x2048_S1000x2048 (ix2 cl r) = l (ix2 (0 : Fin 1) r) :=
    broadcastTo_1b_ab_apply l broadcasts_S1x2048_S1000x2048 cl r
  rw [e1, e2]

/-- A row sum of a 2048 by 256 block, read at a row. -/
theorem rowsum_apply (y : FVec Ideal S2048x256 .f32) (hacc : (0x00000000#32 : BitVec 32) = 0x00000000#32) (r : Fin 2048) :
    multiReduction (F := Ideal) .add [1] S2048 y 0x00000000#32 reduces_S2048x256_S2048 (.inl rfl) hacc (ix1 r)
      = ∑ e : Fin 256, y (ix2 r e) := by
  refine (Ideal.multiReduction_add_single y 0x00000000#32 reduces_S2048x256_S2048 (.inl rfl) hacc (ix1 r)).trans ?_
  refine Finset.sum_congr rfl fun e _ => congrArg y ?_
  funext c
  match c with
  | ⟨0, _⟩ => exact Fin.ext rfl
  | ⟨1, _⟩ => exact Fin.ext rfl

/-- A vector of 2048 entries viewed as a column, read at a row. -/
theorem col_apply {α : Type} (v : S2048.Idx → α) (r : Fin 2048) :
    shapeCast S2048x1 v shapeCasts_S2048_S2048x1 (ix2 r (0 : Fin 1)) = v (ix1 r) :=
  shapeCast_apply v shapeCasts_S2048_S2048x1 (ix2 r (0 : Fin 1)) (ix1 r) (by
    rw [Shape.rowMajor_val_two, Shape.rowMajor_val_one]
    show r.val = r.val * 1 + 0
    omega)

/-- A column spread along 256 lanes, read at (row, lane). -/
theorem spread_apply {α : Type} (v : S2048x1.Idx → α) (r : Fin 2048) (d : Fin 256) :
    broadcastTo S2048x256 v broadcasts_S2048x1_S2048x256 (ix2 r d) = v (ix2 r (0 : Fin 1)) := by
  refine broadcastTo_apply v broadcasts_S2048x1_S2048x256 (ix2 r d) (ix2 r (0 : Fin 1)) fun ax => ?_
  match ax with
  | ⟨0, _⟩ => rfl
  | ⟨1, _⟩ => rfl

/-- The body's quotient at (row, lane) of a block: the entry over the greater of the row's norm and eps. -/
theorem pay4_apply (x : Vec Ideal S2048x256 .f32) (r : Fin 2048) (d : Fin 256) :
    (k0_pay4 (F := Ideal) x) (ix2 r d)
      = Ideal.div (x (ix2 r d)) (max (Ideal.sqrt (∑ e : Fin 256, x (ix2 r e) * x (ix2 r e))) Spec.epsLit) := by
  unfold k0_pay4
  dsimp only
  show Ideal.div (x (ix2 r d)) (broadcastTo S2048x256 _ broadcasts_S2048x1_S2048x256 (ix2 r d)) = _
  refine congrArg (Ideal.div (x (ix2 r d))) ?_
  refine (spread_apply _ r d).trans ?_
  show max (Ideal.sqrt (shapeCast S2048x1 _ shapeCasts_S2048_S2048x1 (ix2 r (0 : Fin 1)))) Spec.epsLit = _
  refine congrArg (fun z => max (Ideal.sqrt z) Spec.epsLit) ?_
  refine (col_apply _ r).trans ?_
  exact rowsum_apply (mulf x x) rfl r

/-- The stored normalised rows (a change of format only) are the same quotient. -/
theorem pay5_apply (x : Vec Ideal S2048x256 .f32) (r : Fin 2048) (d : Fin 256) :
    (k0_pay5 (F := Ideal) x) (ix2 r d)
      = Ideal.div (x (ix2 r d)) (max (Ideal.sqrt (∑ e : Fin 256, x (ix2 r e) * x (ix2 r e))) Spec.epsLit) :=
  pay4_apply x r d

end Values

section Values2

theorem lhs_mm_0 (i : S1000x256.Idx) (q : dot_S1000x2048_S2048x256_S1000x256_1_0_0_1_n_n.contr.Idx) :
    (dot_S1000x2048_S2048x256_S1000x256_1_0_0_1_n_n.lhsIdx i q 0).val = (i 0).val := by
  unfold DotDims.lhsIdx
  rw [dif_neg (show ¬(0 : Fin S1000x2048.rank) ∈ dot_S1000x2048_S2048x256_S1000x256_1_0_0_1_n_n.lhsBatch by decide), dif_pos (show (0 : Fin S1000x2048.rank) ∈ dot_S1000x2048_S2048x256_S1000x256_1_0_0_1_n_n.lhsNonContracting by decide)]
  rfl
theorem lhs_mm_1 (i : S1000x256.Idx) (q : dot_S1000x2048_S2048x256_S1000x256_1_0_0_1_n_n.contr.Idx) :
    (dot_S1000x2048_S2048x256_S1000x256_1_0_0_1_n_n.lhsIdx i q 1).val = (q ⟨0, by decide⟩).val :=
  dot_S1000x2048_S2048x256_S1000x256_1_0_0_1_n_n.lhsIdx_val_of_single rfl i q
theorem rhs_mm_0 (i : S1000x256.Idx) (q : dot_S1000x2048_S2048x256_S1000x256_1_0_0_1_n_n.contr.Idx) :
    (dot_S1000x2048_S2048x256_S1000x256_1_0_0_1_n_n.rhsIdx i q 0).val = (q ⟨0, by decide⟩).val :=
  dot_S1000x2048_S2048x256_S1000x256_1_0_0_1_n_n.rhsIdx_val_of_single rfl i q
theorem rhs_mm_1 (i : S1000x256.Idx) (q : dot_S1000x2048_S2048x256_S1000x256_1_0_0_1_n_n.contr.Idx) :
    (dot_S1000x2048_S2048x256_S1000x256_1_0_0_1_n_n.rhsIdx i q 1).val = (i 1).val := by
  unfold DotDims.rhsIdx
  rw [dif_neg (show ¬(1 : Fin S2048x256.rank) ∈ dot_S1000x2048_S2048x256_S1000x256_1_0_0_1_n_n.rhsBatch by decide), dif_pos (show (1 : Fin S2048x256.rank) ∈ dot_S1000x2048_S2048x256_S1000x256_1_0_0_1_n_n.rhsNonContracting by decide)]
  rfl

/-- The product of a 1000 by 2048 matrix with a 2048 by 256 matrix into the zero matrix, at (class, lane): the sum over the
    block's rows. -/
theorem mm_apply (A : FVec Ideal S1000x2048 .bf16) (B : FVec Ideal S2048x256 .bf16) (cl : Fin 1000) (d : Fin 256) :
    matmul dot_S1000x2048_S2048x256_S1000x256_1_0_0_1_n_n none A B (constant (F := Ideal) S1000x256 .f32 0x00000000#32) (ix2 cl d)
      = ∑ r : Fin 2048, A (ix2 cl r) * B (ix2 r d) := by
  refine (Ideal.matmul_constant_zero_apply dot_S1000x2048_S2048x256_S1000x256_1_0_0_1_n_n none A B (ix2 cl d)).trans ?_
  rw [← Equiv.sum_comp (ValueIdx.contrEquiv1 dot_S1000x2048_S2048x256_S1000x256_1_0_0_1_n_n 2048 rfl rfl).symm]
  refine Finset.sum_congr rfl fun k _ => ?_
  have hk := ValueIdx.contrEquiv1_symm_val dot_S1000x2048_S2048x256_S1000x256_1_0_0_1_n_n 2048 rfl rfl k
  have el : dot_S1000x2048_S2048x256_S1000x256_1_0_0_1_n_n.lhsIdx (ix2 cl d) ((ValueIdx.contrEquiv1 dot_S1000x2048_S2048x256_S1000x256_1_0_0_1_n_n 2048 rfl rfl).symm k) = ix2 cl k := funext fun a => Fin.ext (by
    match a with
    | ⟨0, _⟩ => exact lhs_mm_0 _ _
    | ⟨1, _⟩ => exact (lhs_mm_1 _ _).trans hk)
  have er : dot_S1000x2048_S2048x256_S1000x256_1_0_0_1_n_n.rhsIdx (ix2 cl d) ((ValueIdx.contrEquiv1 dot_S1000x2048_S2048x256_S1000x256_1_0_0_1_n_n 2048 rfl rfl).symm k) = ix2 k d := funext fun a => Fin.ext (by
    match a with
    | ⟨0, _⟩ => exact (rhs_mm_0 _ _).trans hk
    | ⟨1, _⟩ => exact rhs_mm_1 _ _)
  rw [el, er]

/-- The zero blocks a core's first point stores. -/
theorem pay2_apply (j : S1x1000x256.Idx) : (k0_pay2 (F := Ideal)) j = 0 := by
  unfold k0_pay2
  (try dsimp only)
  exact Ideal.ofBits_zero_f32
theorem pay3_apply (j : S1x1000x1.Idx) : (k0_pay3 (F := Ideal)) j = 0 := by
  unfold k0_pay3
  (try dsimp only)
  exact Ideal.ofBits_zero_f32

/-- The class-sum update at (class, lane): the old entry plus the two products' entries. -/
theorem pay7_apply (x : Vec Ideal S2048x256 .f32) (l : Vec Ideal S1x2048 .i32) (acc : Vec Ideal S1x1000x256 .f32)
    (cl : Fin 1000) (d : Fin 256) :
    (k0_pay7 (F := Ideal) x l acc) (ix3 (0 : Fin 1) cl d)
      = acc (ix3 (0 : Fin 1) cl d)
        + ((∑ r : Fin 2048, (k0_pay6 (F := Ideal) l) (ix2 cl r) * (k0_pay4 (F := Ideal) x) (ix2 r d))
          + (∑ r : Fin 2048, (k0_pay6 (F := Ideal) l) (ix2 cl r)
              * ((k0_pay4 (F := Ideal) x) (ix2 r d) - (k0_pay4 (F := Ideal) x) (ix2 r d)))) := by
  unfold k0_pay7
  (try dsimp only)
  refine (shapeCast_ab_1ab_apply _ shapeCasts_S1000x256_S1x1000x256 (0 : Fin 1) cl d).trans ?_
  refine congrArg₂ (· + ·) (shapeCast_1ab_ab_apply acc shapeCasts_S1x1000x256_S1000x256 cl d) ?_
  refine congrArg₂ (· + ·) ((mm_apply _ _ cl d).trans ?_) ((mm_apply _ _ cl d).trans ?_)
  · exact Finset.sum_congr rfl fun r _ => rfl
  · exact Finset.sum_congr rfl fun r _ => rfl

/-- A row sum of a 1000 by 2048 matrix, read at a class. -/
theorem clsum_apply (y : FVec Ideal S1000x2048 .f32) (hacc : (0x00000000#32 : BitVec 32) = 0x00000000#32) (cl : Fin 1000) :
    multiReduction (F := Ideal) .add [1] S1000 y 0x00000000#32 reduces_S1000x2048_S1000 (.inl rfl) hacc (ix1 cl)
      = ∑ r : Fin 2048, y (ix2 cl r) := by
  refine (Ideal.multiReduction_add_single y 0x00000000#32 reduces_S1000x2048_S1000 (.inl rfl) hacc (ix1 cl)).trans ?_
  refine Finset.sum_congr rfl fun e _ => congrArg y ?_
  funext a
  match a with
  | ⟨0, _⟩ => exact Fin.ext rfl
  | ⟨1, _⟩ => exact Fin.ext rfl

/-- The count update at a class: the old entry plus the one-hot row's sum. -/
theorem pay1_apply (oh : FVec Ideal S1000x2048 .f32) (acc : Vec Ideal S1x1000x1 .f32) (cl : Fin 1000) :
    (k0_pay1 (F := Ideal) oh acc) (ix3 (0 : Fin 1) cl (0 : Fin 1))
      = acc (ix3 (0 : Fin 1) cl (0 : Fin 1)) + ∑ r : Fin 2048, oh (ix2 cl r) := by
  unfold k0_pay1
  (try dsimp only)
  refine (shapeCast_ab_1ab_apply _ shapeCasts_S1000x1_S1x1000x1 (0 : Fin 1) cl (0 : Fin 1)).trans ?_
  refine congrArg₂ (· + ·) (shapeCast_1ab_ab_apply acc shapeCasts_S1x1000x1_S1000x1 cl (0 : Fin 1)) ?_
  refine (shapeCast_apply _ shapeCasts_S1000_S1000x1 (ix2 cl (0 : Fin 1)) (ix1 cl) (by
    rw [Shape.rowMajor_val_two, Shape.rowMajor_val_one]
    show cl.val = cl.val * 1 + 0
    omega)).trans ?_
  exact clsum_apply oh rfl cl

end Values2

/- The first kernel (normalise the rows, per-class sums and counts, two cores of sixteen 2048-row blocks), read at the
   contents V its region is entered with: what its three output arrays hold when it returns. -/

variable (V : (c : Dev nD) → (b : Ref sig .tc) → Buf (Elt Ideal) ((c : Thread nD τ).loc b))

/-- The features and the labels as the region finds them. -/
def X0 (c : Dev nD) : Spec.Feat := fun n d => (V c main_arg0 : S65536x256.Idx → EReal) (ix2 n d)
def lab0 (c : Dev nD) : Spec.Lab := fun n => (V c main_v0 : S1x65536.Idx → BitVec 32) (ix2 0 n)

/-! ## The blocks the windows read -/

/-- The printed index maps, decided once over the 32 grid points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- Row r of the block of grid point t. -/
def rowT (t : Fin cfg0.N) (r : Fin 2048) : Fin 65536 :=
  ⟨t.val * 2048 + r.val, by have := lt_of_lt_of_eq t.isLt (show cfg0.N = 32 from N_0); have := r.isLt; omega⟩

/-- The feature block and the label block of point t, at their literal types. -/
abbrev xblk (c : Dev nD) (t : Fin cfg0.N) : Vec Ideal S2048x256 .f32 := iblk0 V c 0 t
abbrev lblk (c : Dev nD) (t : Fin cfg0.N) : Vec Ideal S1x2048 .i32 := iblk0 V c 1 t

theorem xblk_apply (c : Dev nD) (t : Fin cfg0.N) (r : Fin 2048) (e : Fin 256) :
    xblk V c t (ix2 r e) = X0 V c (rowT t r) e := by
  obtain ⟨e0, e1, -⟩ := idx_facts t
  show iblk0 V c 0 t (ix2 r e) = _
  unfold iblk0 X0
  rw [View.read_apply]
  show V c main_arg0 _ = V c main_arg0 _
  congr 1
  funext a
  apply Fin.ext
  match a with
  | ⟨0, _⟩ => show win0_0.index t (0 : Fin 2) * 2048 + 1 * r.val = t.val * 2048 + r.val; rw [e0]; omega
  | ⟨1, _⟩ => show win0_0.index t (1 : Fin 2) * 256 + 1 * e.val = e.val; rw [e1]; omega

theorem lblk_apply (c : Dev nD) (t : Fin cfg0.N) (r : Fin 2048) :
    lblk V c t (ix2 (0 : Fin 1) r) = lab0 V c (rowT t r) := by
  obtain ⟨-, -, e0, e1, -⟩ := idx_facts t
  show iblk0 V c 1 t (ix2 (0 : Fin 1) r) = _
  unfold iblk0 lab0
  rw [View.read_apply]
  show V c main_v0 _ = V c main_v0 _
  congr 1
  funext a
  apply Fin.ext
  match a with
  | ⟨0, _⟩ => show win0_1.index t (0 : Fin 2) * 1 + 1 * 0 = 0; rw [e0]
  | ⟨1, _⟩ => show win0_1.index t (1 : Fin 2) * 2048 + 1 * r.val = t.val * 2048 + r.val; rw [e1]; omega

/-- The body's quotient of point t's block is the unit row of the whole array. -/
theorem pay4_fn (c : Dev nD) (t : Fin cfg0.N) (r : Fin 2048) (d : Fin 256) :
    (k0_pay4 (F := Ideal) (xblk V c t)) (ix2 r d) = Spec.fn (X0 V c) (rowT t r) d := by
  refine (pay4_apply (xblk V c t) r d).trans ?_
  unfold Spec.fn
  rw [xblk_apply V c t r d]
  refine congrArg (fun z => Ideal.div (X0 V c (rowT t r) d) (max (Ideal.sqrt z) Spec.epsLit)) ?_
  exact Finset.sum_congr rfl fun e _ => by rw [xblk_apply V c t r e]

/-! ## One block's contribution -/

/-- Block t's contribution to the class sums and to the class counts. -/
def T2 (c : Dev nD) (t : Fin cfg0.N) (cl : Fin 1000) (d : Fin 256) : EReal :=
  ∑ r : Fin 2048, if lab0 V c (rowT t r) = BitVec.ofNat 32 cl.val then Spec.fn (X0 V c) (rowT t r) d else 0
def T3 (c : Dev nD) (t : Fin cfg0.N) (cl : Fin 1000) : EReal :=
  ∑ r : Fin 2048, if lab0 V c (rowT t r) = BitVec.ofNat 32 cl.val then (1 : EReal) else 0

/-- The class-sum update adds the block's contribution: the residual product vanishes because x - x = 0 on the reals, and a
    one-hot factor selects. -/
theorem upd2 (c : Dev nD) (hfn : ∀ n d, Spec.IsR (Spec.fn (X0 V c) n d)) (t : Fin cfg0.N)
    (acc : Vec Ideal S1x1000x256 .f32) (cl : Fin 1000) (d : Fin 256) :
    (k0_pay7 (F := Ideal) (xblk V c t) (lblk V c t) acc) (ix3 (0 : Fin 1) cl d)
      = acc (ix3 (0 : Fin 1) cl d) + T2 V c t cl d := by
  refine (pay7_apply (xblk V c t) (lblk V c t) acc cl d).trans ?_
  refine congrArg (acc (ix3 (0 : Fin 1) cl d) + ·) ?_
  have h2 : (∑ r : Fin 2048, (k0_pay6 (F := Ideal) (lblk V c t)) (ix2 cl r)
      * ((k0_pay4 (F := Ideal) (xblk V c t)) (ix2 r d) - (k0_pay4 (F := Ideal) (xblk V c t)) (ix2 r d))) = 0 :=
    Finset.sum_eq_zero fun r _ => by
      rw [pay4_fn V c t r d]
      obtain ⟨y, hy⟩ := hfn (rowT t r) d
      rw [hy, ← EReal.coe_sub, sub_self, EReal.coe_zero, mul_zero]
  rw [h2, add_zero]
  unfold T2
  refine Finset.sum_congr rfl fun r _ => ?_
  rw [pay6_apply, lblk_apply V c t r, pay4_fn V c t r d]
  split
  · rw [one_mul]
  · rw [zero_mul]

/-- The count update adds the number of the block's rows of the class. -/
theorem upd3 (c : Dev nD) (t : Fin cfg0.N) (acc : Vec Ideal S1x1000x1 .f32) (cl : Fin 1000) :
    (k0_pay1 (F := Ideal) (k0_pay6 (F := Ideal) (lblk V c t)) acc) (ix3 (0 : Fin 1) cl (0 : Fin 1))
      = acc (ix3 (0 : Fin 1) cl (0 : Fin 1)) + T3 V c t cl := by
  refine (pay1_apply (k0_pay6 (F := Ideal) (lblk V c t)) acc cl).trans ?_
  refine congrArg (acc (ix3 (0 : Fin 1) cl (0 : Fin 1)) + ·) ?_
  unfold T3
  exact Finset.sum_congr rfl fun r _ => by rw [pay6_apply, lblk_apply V c t r]

/-! ## The staging buffers after each grid point -/

theorem stepA2 (c : Dev nD) (hfn : ∀ n d, Spec.IsR (Spec.fn (X0 V c) n d)) (t : Fin cfg0.N) (h0 : t.val % 16 = 0)
    (cl : Fin 1000) (d : Fin 256) :
    (outsAt0 V c t.val t.isLt).1 (ix3 (0 : Fin 1) cl d) = T2 V c t cl d := by
  rw [outsAt0_A V c t h0]
  dsimp only
  refine (congrFun (pieceA2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (lblk V c t)) (ix3 (0 : Fin 1) cl d)).trans ?_
  refine (upd2 V c hfn t (k0_pay2 (F := Ideal)) cl d).trans ?_
  rw [pay2_apply, zero_add]

theorem stepB2 (c : Dev nD) (hfn : ∀ n d, Spec.IsR (Spec.fn (X0 V c) n d)) (t : Fin cfg0.N) (h0 : ¬t.val % 16 = 0)
    (cl : Fin 1000) (d : Fin 256) :
    (outsAt0 V c t.val t.isLt).1 (ix3 (0 : Fin 1) cl d)
      = (outsAt0 V c (t.val - 1) (Nat.lt_of_le_of_lt (Nat.sub_le _ _) t.isLt)).1 (ix3 (0 : Fin 1) cl d) + T2 V c t cl d := by
  rw [outsAt0_B V c t h0]
  dsimp only
  refine (congrFun (pieceB2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (lblk V c t)
    (outsAt0 V c (t.val - 1) (Nat.lt_of_le_of_lt (Nat.sub_le _ _) t.isLt)).1 (outsAt0 V c (t.val - 1) (Nat.lt_of_le_of_lt (Nat.sub_le _ _) t.isLt)).2.1) (ix3 (0 : Fin 1) cl d)).trans ?_
  exact upd2 V c hfn t (outsAt0 V c (t.val - 1) (Nat.lt_of_le_of_lt (Nat.sub_le _ _) t.isLt)).1 cl d

theorem stepA3 (c : Dev nD) (t : Fin cfg0.N) (h0 : t.val % 16 = 0) (cl : Fin 1000) :
    (outsAt0 V c t.val t.isLt).2.1 (ix3 (0 : Fin 1) cl (0 : Fin 1)) = T3 V c t cl := by
  rw [outsAt0_A V c t h0]
  dsimp only
  refine (congrFun (pieceA3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (lblk V c t)) (ix3 (0 : Fin 1) cl (0 : Fin 1))).trans ?_
  refine (upd3 V c t (k0_pay3 (F := Ideal)) cl).trans ?_
  rw [pay3_apply, zero_add]

theorem stepB3 (c : Dev nD) (t : Fin cfg0.N) (h0 : ¬t.val % 16 = 0) (cl : Fin 1000) :
    (outsAt0 V c t.val t.isLt).2.1 (ix3 (0 : Fin 1) cl (0 : Fin 1))
      = (outsAt0 V c (t.val - 1) (Nat.lt_of_le_of_lt (Nat.sub_le _ _) t.isLt)).2.1 (ix3 (0 : Fin 1) cl (0 : Fin 1)) + T3 V c t cl := by
  rw [outsAt0_B V c t h0]
  dsimp only
  refine (congrFun (pieceB3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (lblk V c t)
    (outsAt0 V c (t.val - 1) (Nat.lt_of_le_of_lt (Nat.sub_le _ _) t.isLt)).1 (outsAt0 V c (t.val - 1) (Nat.lt_of_le_of_lt (Nat.sub_le _ _) t.isLt)).2.1) (ix3 (0 : Fin 1) cl (0 : Fin 1))).trans ?_
  exact upd3 V c t (outsAt0 V c (t.val - 1) (Nat.lt_of_le_of_lt (Nat.sub_le _ _) t.isLt)).2.1 cl

/-- The normalised-rows buffer after point t holds the unit rows of block t. -/
theorem out4_pt (c : Dev nD) (t : Fin cfg0.N) (r : Fin 2048) (d : Fin 256) :
    (outsAt0 V c t.val t.isLt).2.2 (ix2 r d) = Spec.fn (X0 V c) (rowT t r) d := by
  by_cases h0 : t.val % 16 = 0
  · rw [outsAt0_A V c t h0]
    dsimp only
    refine (congrFun (pieceA4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (lblk V c t)) (ix2 r d)).trans ?_
    exact pay4_fn V c t r d
  · rw [outsAt0_B V c t h0]
    dsimp only
    refine (congrFun (pieceB4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (lblk V c t)
      (outsAt0 V c (t.val - 1) (Nat.lt_of_le_of_lt (Nat.sub_le _ _) t.isLt)).1 (outsAt0 V c (t.val - 1) (Nat.lt_of_le_of_lt (Nat.sub_le _ _) t.isLt)).2.1) (ix2 r d)).trans ?_
    exact pay4_fn V c t r d

/-! ## The running sums -/

/-- The contributions indexed by a natural number (zero past the grid). -/
def Tn2 (c : Dev nD) (cl : Fin 1000) (d : Fin 256) (p : ℕ) : EReal :=
  if h : p < cfg0.N then T2 V c ⟨p, h⟩ cl d else 0
def Tn3 (c : Dev nD) (cl : Fin 1000) (p : ℕ) : EReal :=
  if h : p < cfg0.N then T3 V c ⟨p, h⟩ cl else 0

/-- After point n the class-sum buffer holds the contributions of the blocks of n's core up to n. -/
theorem inv2 (c : Dev nD) (hfn : ∀ n d, Spec.IsR (Spec.fn (X0 V c) n d)) (cl : Fin 1000) (d : Fin 256) :
    ∀ (n : ℕ) (h : n < cfg0.N), (outsAt0 V c n h).1 (ix3 (0 : Fin 1) cl d)
      = ∑ s ∈ Finset.range (n % 16 + 1), Tn2 V c cl d (n - n % 16 + s)
  | 0, h => by
    refine (stepA2 V c hfn ⟨0, h⟩ rfl cl d).trans ?_
    rw [show (0 : ℕ) % 16 + 1 = 1 from rfl, Finset.sum_range_one]
    show _ = Tn2 V c cl d 0
    unfold Tn2
    rw [dif_pos h]
  | n + 1, h => by
    by_cases h0 : (n + 1) % 16 = 0
    · refine (stepA2 V c hfn ⟨n + 1, h⟩ h0 cl d).trans ?_
      rw [h0, Finset.sum_range_one]
      show _ = Tn2 V c cl d (n + 1)
      unfold Tn2
      rw [dif_pos h]
    · refine (stepB2 V c hfn ⟨n + 1, h⟩ h0 cl d).trans ?_
      show (outsAt0 V c n (Nat.lt_of_succ_lt h)).1 (ix3 (0 : Fin 1) cl d) + T2 V c ⟨n + 1, h⟩ cl d = _
      rw [inv2 c hfn cl d n (Nat.lt_of_succ_lt h)]
      have e1 : (n + 1) % 16 = n % 16 + 1 := by omega
      have e2 : n + 1 - (n % 16 + 1) = n - n % 16 := by omega
      rw [e1, e2, Finset.sum_range_succ _ (n % 16 + 1)]
      refine congrArg (_ + ·) ?_
      rw [show n - n % 16 + (n % 16 + 1) = n + 1 from by omega]
      unfold Tn2
      rw [dif_pos h]

theorem inv3 (c : Dev nD) (cl : Fin 1000) :
    ∀ (n : ℕ) (h : n < cfg0.N), (outsAt0 V c n h).2.1 (ix3 (0 : Fin 1) cl (0 : Fin 1))
      = ∑ s ∈ Finset.range (n % 16 + 1), Tn3 V c cl (n - n % 16 + s)
  | 0, h => by
    refine (stepA3 V c ⟨0, h⟩ rfl cl).trans ?_
    rw [show (0 : ℕ) % 16 + 1 = 1 from rfl, Finset.sum_range_one]
    show _ = Tn3 V c cl 0
    unfold Tn3
    rw [dif_pos h]
  | n + 1, h => by
    by_cases h0 : (n + 1) % 16 = 0
    · refine (stepA3 V c ⟨n + 1, h⟩ h0 cl).trans ?_
      rw [h0, Finset.sum_range_one]
      show _ = Tn3 V c cl (n + 1)
      unfold Tn3
      rw [dif_pos h]
    · refine (stepB3 V c ⟨n + 1, h⟩ h0 cl).trans ?_
      show (outsAt0 V c n (Nat.lt_of_succ_lt h)).2.1 (ix3 (0 : Fin 1) cl (0 : Fin 1)) + T3 V c ⟨n + 1, h⟩ cl = _
      rw [inv3 c cl n (Nat.lt_of_succ_lt h)]
      have e1 : (n + 1) % 16 = n % 16 + 1 := by omega
      have e2 : n + 1 - (n % 16 + 1) = n - n % 16 := by omega
      rw [e1, e2, Finset.sum_range_succ _ (n % 16 + 1)]
      refine congrArg (_ + ·) ?_
      rw [show n - n % 16 + (n % 16 + 1) = n + 1 from by omega]
      unfold Tn3
      rw [dif_pos h]

/-- Core k's class sums and counts over its sixteen blocks. -/
def sumsK (c : Dev nD) (k : Fin 2) (cl : Fin 1000) (d : Fin 256) : EReal :=
  ∑ b : Fin 16, ∑ r : Fin 2048,
    if lab0 V c (Spec.row0 k b r) = BitVec.ofNat 32 cl.val then Spec.fn (X0 V c) (Spec.row0 k b r) d else 0
def cntK (c : Dev nD) (k : Fin 2) (cl : Fin 1000) : EReal :=
  ∑ b : Fin 16, ∑ r : Fin 2048, if lab0 V c (Spec.row0 k b r) = BitVec.ofNat 32 cl.val then (1 : EReal) else 0

/-- At the last point of core k the buffers hold the core's whole sums. -/
theorem last2 (c : Dev nD) (hfn : ∀ n d, Spec.IsR (Spec.fn (X0 V c) n d)) (t : Fin cfg0.N) (h15 : t.val % 16 = 15)
    (k : Fin 2) (hk : k.val = t.val / 16) (cl : Fin 1000) (d : Fin 256) :
    (outsAt0 V c t.val t.isLt).1 (ix3 (0 : Fin 1) cl d) = sumsK V c k cl d := by
  have hN : cfg0.N = 32 := N_0
  have ht : t.val < 32 := lt_of_lt_of_eq t.isLt hN
  rw [inv2 V c hfn cl d t.val t.isLt, h15, Finset.sum_range]
  unfold sumsK
  refine Finset.sum_congr rfl fun b _ => ?_
  have hb : t.val - 15 + b.val < cfg0.N := by have := b.isLt; omega
  unfold Tn2
  rw [dif_pos hb]
  unfold T2
  refine Finset.sum_congr rfl fun r _ => ?_
  have e : rowT ⟨t.val - 15 + b.val, hb⟩ r = Spec.row0 k b r :=
    Fin.ext (by
      show (t.val - 15 + b.val) * 2048 + r.val = (k.val * 16 + b.val) * 2048 + r.val
      have := b.isLt; omega)
  rw [e]

theorem last3 (c : Dev nD) (t : Fin cfg0.N) (h15 : t.val % 16 = 15)
    (k : Fin 2) (hk : k.val = t.val / 16) (cl : Fin 1000) :
    (outsAt0 V c t.val t.isLt).2.1 (ix3 (0 : Fin 1) cl (0 : Fin 1)) = cntK V c k cl := by
  have hN : cfg0.N = 32 := N_0
  have ht : t.val < 32 := lt_of_lt_of_eq t.isLt hN
  rw [inv3 V c cl t.val t.isLt, h15, Finset.sum_range]
  unfold cntK
  refine Finset.sum_congr rfl fun b _ => ?_
  have hb : t.val - 15 + b.val < cfg0.N := by have := b.isLt; omega
  unfold Tn3
  rw [dif_pos hb]
  unfold T3
  refine Finset.sum_congr rfl fun r _ => ?_
  have e : rowT ⟨t.val - 15 + b.val, hb⟩ r = Spec.row0 k b r :=
    Fin.ext (by
      show (t.val - 15 + b.val) * 2048 + r.val = (k.val * 16 + b.val) * 2048 + r.val
      have := b.isLt; omega)
  rw [e]

/-! ## What each write-back writes, and the final arrays -/

/-- The three arrays the region leaves, as functions of an index. -/
def G2 (c : Dev nD) : S2x1000x256.Idx → EReal :=
  fun i => sumsK V c ⟨(i 0).val, (i 0).isLt⟩ ⟨(i 1).val, (i 1).isLt⟩ ⟨(i 2).val, (i 2).isLt⟩
def G3 (c : Dev nD) : S2x1000x1.Idx → EReal :=
  fun i => cntK V c ⟨(i 0).val, (i 0).isLt⟩ ⟨(i 1).val, (i 1).isLt⟩
def G4 (c : Dev nD) : S65536x256.Idx → EReal :=
  fun i => Spec.fn (X0 V c) ⟨(i 0).val, (i 0).isLt⟩ ⟨(i 1).val, (i 1).isLt⟩

theorem flushed2_pt (c : Dev nD) (hfn : ∀ n d, Spec.IsR (Spec.fn (X0 V c) n d)) (t : Fin cfg0.N) (h15 : t.val % 16 = 15)
    (j : S1x1000x256.Idx) :
    (outsAt0 V c t.val t.isLt).1 j = G2 V c (((cfg0.win 2).blk t).view.emb j) := by
  obtain ⟨u, cl, d, rfl⟩ : ∃ (u : Fin 1) (cl : Fin 1000) (d : Fin 256), j = ix3 u cl d := ⟨j 0, j 1, j 2, eq_ix3 j⟩
  obtain rfl : u = 0 := Subsingleton.elim _ _
  have ht : t.val < 32 := lt_of_lt_of_eq t.isLt (show cfg0.N = 32 from N_0)
  obtain ⟨-, -, -, -, e0, e1, e2, -⟩ := idx_facts t
  refine (last2 V c hfn t h15 ⟨t.val / 16, by omega⟩ rfl cl d).trans ?_
  unfold G2
  congr 1 <;> apply Fin.ext
  · show t.val / 16 = win0_2.index t (0 : Fin 3) * 1 + 1 * 0
    rw [e0]; omega
  · show cl.val = win0_2.index t (1 : Fin 3) * 1000 + 1 * cl.val
    rw [e1]; omega
  · show d.val = win0_2.index t (2 : Fin 3) * 256 + 1 * d.val
    rw [e2]; omega

theorem flushed2_eq (c : Dev nD) (hfn : ∀ n d, Spec.IsR (Spec.fn (X0 V c) n d)) (t : Fin cfg0.N)
    (hf : (cfg0.win 2).flush t = true) :
    (dat0 V c).flushed 2 t = ((cfg0.win 2).blk t).view.read (Elt Ideal) (G2 V c) := by
  have h15 := (flush0_2 t).mp hf
  show (cfg0.win 2).cut (grid0.coords t) ((dat0 V c).after 2 t) = _
  rw [after0_2]
  funext j
  rw [View.read_apply]
  exact flushed2_pt V c hfn t h15 j

theorem flushed3_pt (c : Dev nD) (t : Fin cfg0.N) (h15 : t.val % 16 = 15) (j : S1x1000x1.Idx) :
    (outsAt0 V c t.val t.isLt).2.1 j = G3 V c (((cfg0.win 3).blk t).view.emb j) := by
  obtain ⟨u, cl, z, rfl⟩ : ∃ (u : Fin 1) (cl : Fin 1000) (z : Fin 1), j = ix3 u cl z := ⟨j 0, j 1, j 2, eq_ix3 j⟩
  obtain rfl : u = 0 := Subsingleton.elim _ _
  obtain rfl : z = 0 := Subsingleton.elim _ _
  have ht : t.val < 32 := lt_of_lt_of_eq t.isLt (show cfg0.N = 32 from N_0)
  obtain ⟨-, -, -, -, -, -, -, e0, e1, e2, -⟩ := idx_facts t
  refine (last3 V c t h15 ⟨t.val / 16, by omega⟩ rfl cl).trans ?_
  unfold G3
  congr 1 <;> apply Fin.ext
  · show t.val / 16 = win0_3.index t (0 : Fin 3) * 1 + 1 * 0
    rw [e0]; omega
  · show cl.val = win0_3.index t (1 : Fin 3) * 1000 + 1 * cl.val
    rw [e1]; omega

theorem flushed3_eq (c : Dev nD) (t : Fin cfg0.N) (hf : (cfg0.win 3).flush t = true) :
    (dat0 V c).flushed 3 t = ((cfg0.win 3).blk t).view.read (Elt Ideal) (G3 V c) := by
  have h15 := (flush0_3 t).mp hf
  show (cfg0.win 3).cut (grid0.coords t) ((dat0 V c).after 3 t) = _
  rw [after0_3]
  funext j
  rw [View.read_apply]
  exact flushed3_pt V c t h15 j

theorem flushed4_pt (c : Dev nD) (t : Fin cfg0.N) (j : S2048x256.Idx) :
    (outsAt0 V c t.val t.isLt).2.2 j = G4 V c (((cfg0.win 4).blk t).view.emb j) := by
  obtain ⟨r, d, rfl⟩ : ∃ (r : Fin 2048) (d : Fin 256), j = ix2 r d := ⟨j 0, j 1, eq_ix2 j⟩
  obtain ⟨-, -, -, -, -, -, -, -, -, -, e0, e1⟩ := idx_facts t
  refine (out4_pt V c t r d).trans ?_
  unfold G4
  refine congrArg₂ (Spec.fn (X0 V c)) (Fin.ext ?_) (Fin.ext ?_)
  · show t.val * 2048 + r.val = win0_4.index t (0 : Fin 2) * 2048 + 1 * r.val
    rw [e0]; omega
  · show d.val = win0_4.index t (1 : Fin 2) * 256 + 1 * d.val
    rw [e1]; omega

theorem flushed4_eq (c : Dev nD) (t : Fin cfg0.N) (hf : (cfg0.win 4).flush t = true) :
    (dat0 V c).flushed 4 t = ((cfg0.win 4).blk t).view.read (Elt Ideal) (G4 V c) := by
  show (cfg0.win 4).cut (grid0.coords t) ((dat0 V c).after 4 t) = _
  rw [after0_4]
  funext j
  rw [View.read_apply]
  exact flushed4_pt V c t j

/-- An index of an output array lies in point t's block iff each coordinate lies in the block's range. -/
theorem mem_blk2 (t : Fin cfg0.N) (i : S2x1000x256.Idx) :
    i ∈ ((cfg0.win 2).blk t).view.set ↔ ∀ a : Fin 3, win0_2.index t a * S1x1000x256.size a ≤ (i a).val
      ∧ (i a).val < win0_2.index t a * S1x1000x256.size a + S1x1000x256.size a := by
  show i ∈ ((View.whole main_v2_0).slice (win0_2.rect t)).set ↔ _
  rw [View.set_slice_whole, Rect.mem_set_unit]
  exact Iff.rfl
theorem mem_blk3 (t : Fin cfg0.N) (i : S2x1000x1.Idx) :
    i ∈ ((cfg0.win 3).blk t).view.set ↔ ∀ a : Fin 3, win0_3.index t a * S1x1000x1.size a ≤ (i a).val
      ∧ (i a).val < win0_3.index t a * S1x1000x1.size a + S1x1000x1.size a := by
  show i ∈ ((View.whole main_v2_1).slice (win0_3.rect t)).set ↔ _
  rw [View.set_slice_whole, Rect.mem_set_unit]
  exact Iff.rfl
theorem mem_blk4 (t : Fin cfg0.N) (i : S65536x256.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v2_2).slice (win0_4.rect t)).set ↔ _
  rw [View.set_slice_whole, Rect.mem_set_unit]
  exact Iff.rfl

/-- The normalised rows, written block by block: the whole array is the unit rows. -/
theorem fn_out (c : Dev nD) (n : Fin 65536) (d : Fin 256) :
    ((dat0 (F := Ideal) V c).arrAt 4 cfg0.N : S65536x256.Idx → EReal) (ix2 n d) = Spec.fn (X0 V c) n d := by
  have hN : cfg0.N = 32 := N_0
  have hn : n.val < 65536 := n.isLt
  have hd : d.val < 256 := d.isLt
  have htN : n.val / 2048 < cfg0.N := by omega
  obtain ⟨-, -, -, -, -, -, -, -, -, -, e0, e1⟩ := idx_facts ⟨n.val / 2048, htN⟩
  have hi : (ix2 n d : S65536x256.Idx) ∈ ((cfg0.win 4).blk ⟨n.val / 2048, htN⟩).view.set := by
    rw [mem_blk4]
    intro a
    match a with
    | ⟨0, _⟩ =>
      show win0_4.index ⟨n.val / 2048, htN⟩ (0 : Fin 2) * 2048 ≤ n.val ∧ n.val < win0_4.index ⟨n.val / 2048, htN⟩ (0 : Fin 2) * 2048 + 2048
      rw [e0]; show n.val / 2048 * 2048 ≤ n.val ∧ n.val < n.val / 2048 * 2048 + 2048; omega
    | ⟨1, _⟩ =>
      show win0_4.index ⟨n.val / 2048, htN⟩ (1 : Fin 2) * 256 ≤ d.val ∧ d.val < win0_4.index ⟨n.val / 2048, htN⟩ (1 : Fin 2) * 256 + 256
      rw [e1]; omega
  exact (dat0 V c).arrAt_apply_of_mem 4 (G4 V c) (fun t hf => flushed4_eq V c t hf) cfg0.N ⟨n.val / 2048, htN⟩ (ix2 n d)
    htN (flush0_4 _) hi

/-- Core k's slab of class sums: over its sixteen blocks, the unit rows labelled cl (the residual term the kernel
    adds, fn - fn, is zero because the unit rows are real numbers). -/
theorem sums_out (c : Dev nD) (hfn : ∀ n d, Spec.IsR (Spec.fn (X0 V c) n d)) (k : Fin 2) (cl : Fin 1000) (d : Fin 256) :
    ((dat0 (F := Ideal) V c).arrAt 2 cfg0.N : S2x1000x256.Idx → EReal) (ix3 k cl d)
      = ∑ b : Fin 16, ∑ r : Fin 2048,
          if lab0 V c (Spec.row0 k b r) = BitVec.ofNat 32 cl.val then Spec.fn (X0 V c) (Spec.row0 k b r) d else 0 := by
  have hN : cfg0.N = 32 := N_0
  have hk : k.val < 2 := k.isLt
  have hcl : cl.val < 1000 := cl.isLt
  have hd : d.val < 256 := d.isLt
  have htN : 16 * k.val + 15 < cfg0.N := by omega
  obtain ⟨-, -, -, -, e0, e1, e2, -⟩ := idx_facts ⟨16 * k.val + 15, htN⟩
  have hf : (cfg0.win 2).flush ⟨16 * k.val + 15, htN⟩ = true :=
    (flush0_2 _).mpr (by show (16 * k.val + 15) % 16 = 15; omega)
  have hi : (ix3 k cl d : S2x1000x256.Idx) ∈ ((cfg0.win 2).blk ⟨16 * k.val + 15, htN⟩).view.set := by
    rw [mem_blk2]
    intro a
    match a with
    | ⟨0, _⟩ =>
      show win0_2.index ⟨16 * k.val + 15, htN⟩ (0 : Fin 3) * 1 ≤ k.val ∧ k.val < win0_2.index ⟨16 * k.val + 15, htN⟩ (0 : Fin 3) * 1 + 1
      rw [e0]; show (16 * k.val + 15) / 16 * 1 ≤ k.val ∧ k.val < (16 * k.val + 15) / 16 * 1 + 1; omega
    | ⟨1, _⟩ =>
      show win0_2.index ⟨16 * k.val + 15, htN⟩ (1 : Fin 3) * 1000 ≤ cl.val ∧ cl.val < win0_2.index ⟨16 * k.val + 15, htN⟩ (1 : Fin 3) * 1000 + 1000
      rw [e1]; omega
    | ⟨2, _⟩ =>
      show win0_2.index ⟨16 * k.val + 15, htN⟩ (2 : Fin 3) * 256 ≤ d.val ∧ d.val < win0_2.index ⟨16 * k.val + 15, htN⟩ (2 : Fin 3) * 256 + 256
      rw [e2]; omega
  exact (dat0 V c).arrAt_apply_of_mem 2 (G2 V c) (fun t hf => flushed2_eq V c hfn t hf) cfg0.N ⟨16 * k.val + 15, htN⟩
    (ix3 k cl d) htN hf hi

/-- Core k's slab of class counts. -/
theorem cnt_out (c : Dev nD) (k : Fin 2) (cl : Fin 1000) :
    ((dat0 (F := Ideal) V c).arrAt 3 cfg0.N : S2x1000x1.Idx → EReal) (ix3 k cl 0)
      = ∑ b : Fin 16, ∑ r : Fin 2048,
          if lab0 V c (Spec.row0 k b r) = BitVec.ofNat 32 cl.val then (1 : EReal) else 0 := by
  have hN : cfg0.N = 32 := N_0
  have hk : k.val < 2 := k.isLt
  have hcl : cl.val < 1000 := cl.isLt
  have htN : 16 * k.val + 15 < cfg0.N := by omega
  obtain ⟨-, -, -, -, -, -, -, e0, e1, e2, -⟩ := idx_facts ⟨16 * k.val + 15, htN⟩
  have hf : (cfg0.win 3).flush ⟨16 * k.val + 15, htN⟩ = true :=
    (flush0_3 _).mpr (by show (16 * k.val + 15) % 16 = 15; omega)
  have hi : (ix3 k cl 0 : S2x1000x1.Idx) ∈ ((cfg0.win 3).blk ⟨16 * k.val + 15, htN⟩).view.set := by
    rw [mem_blk3]
    intro a
    match a with
    | ⟨0, _⟩ =>
      show win0_3.index ⟨16 * k.val + 15, htN⟩ (0 : Fin 3) * 1 ≤ k.val ∧ k.val < win0_3.index ⟨16 * k.val + 15, htN⟩ (0 : Fin 3) * 1 + 1
      rw [e0]; show (16 * k.val + 15) / 16 * 1 ≤ k.val ∧ k.val < (16 * k.val + 15) / 16 * 1 + 1; omega
    | ⟨1, _⟩ =>
      show win0_3.index ⟨16 * k.val + 15, htN⟩ (1 : Fin 3) * 1000 ≤ cl.val ∧ cl.val < win0_3.index ⟨16 * k.val + 15, htN⟩ (1 : Fin 3) * 1000 + 1000
      rw [e1]; omega
    | ⟨2, _⟩ =>
      show win0_3.index ⟨16 * k.val + 15, htN⟩ (2 : Fin 3) * 1 ≤ 0 ∧ 0 < win0_3.index ⟨16 * k.val + 15, htN⟩ (2 : Fin 3) * 1 + 1
      rw [e2]; omega
  exact (dat0 V c).arrAt_apply_of_mem 3 (G3 V c) (fun t hf => flushed3_eq V c t hf) cfg0.N ⟨16 * k.val + 15, htN⟩
    (ix3 k cl 0) htN hf hi

end Cert.KernelIdeal.Reg0

end
-- ==== Proof.Reg1.lean ====
import proofs.«429995_j90031104459201_3_alg».proof.Defs
import proofs.«429995_j90031104459201_3_alg».proof.Proof.Gen.KernelIdeal.Frame
import proofs.«429995_j90031104459201_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

section Pieces
variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that does not reset: the body leaves in the cell the payload of its loads over what the cell held. -/
theorem out_B (c : Dev nD) (i : grid1.Coords) (a2 : Memref sig .tc .vmem S1024x256 .bf16) (h2 : a2.IsWhole) (a3 : Memref sig .tc .vmem S1024x1 .i32) (h3 : a3.IsWhole) (a4 : Memref sig .tc .vmem S256x2048 .bf16) (h4 : a4.IsWhole) (a5 : Memref sig .tc .vmem S1x1x1 .f32) (h5 : a5.IsWhole) (hc : ¬cond1_0 i)
    (x0 : Vec F S1024x256 .bf16) (x1 : Vec F S1024x1 .i32) (x2 : Vec F S256x2048 .bf16) (xo : Vec F S1x1x1 .f32) :
    out1_B_3 c i a2 h2 a3 h3 a4 h4 a5 h5 hc x0 x1 x2 xo = k1_pay1 (k1_pay3 x0 x1 x2) xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero (S := S1x1x1) hz3]
  simp only [View.readAt_eq_ld, h2.read_unread, h3.read_unread, h4.read_unread, h5.read_unread,
    View.ld_unit_zero (S := S1024x256) hz2, View.ld_unit_zero (S := S1024x1) hz2, View.ld_unit_zero (S := S256x2048) hz2,
    View.ld_unit_zero (S := S1x1x1) hz3]

/-- A point that resets: the zero cell is stored, read back, and the payload added to it. -/
theorem out_A (c : Dev nD) (i : grid1.Coords) (a2 : Memref sig .tc .vmem S1024x256 .bf16) (h2 : a2.IsWhole) (a3 : Memref sig .tc .vmem S1024x1 .i32) (h3 : a3.IsWhole) (a4 : Memref sig .tc .vmem S256x2048 .bf16) (h4 : a4.IsWhole) (a5 : Memref sig .tc .vmem S1x1x1 .f32) (h5 : a5.IsWhole) (hc : cond1_0 i)
    (x0 : Vec F S1024x256 .bf16) (x1 : Vec F S1024x1 .i32) (x2 : Vec F S256x2048 .bf16) :
    out1_A_3 c i a2 h2 a3 h3 a4 h4 a5 h5 hc x0 x1 x2 = k1_pay1 (k1_pay3 x0 x1 x2) (k1_pay2 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S1024x256) hz2, View.ld_unit_zero (S := S1024x1) hz2, View.ld_unit_zero (S := S256x2048) hz2]
end Pieces

/-- The one index of a [1,1,1] cell. -/
theorem idx111 (j : S1x1x1.Idx) : j = ix3 0 0 0 := by
  have h0 : (j 0).val < 1 := (j 0).isLt
  have h1 : (j 1).val < 1 := (j 1).isLt
  have h2 : (j 2).val < 1 := (j 2).isLt
  funext a
  apply Fin.ext
  match a with
  | ⟨0, _⟩ => show (j 0).val = 0; omega
  | ⟨1, _⟩ => show (j 1).val = 0; omega
  | ⟨2, _⟩ => show (j 2).val = 0; omega

theorem idx11 (j : S1x1.Idx) : j = ix2 0 0 := by
  have h0 : (j 0).val < 1 := (j 0).isLt
  have h1 : (j 1).val < 1 := (j 1).isLt
  funext a
  apply Fin.ext
  match a with
  | ⟨0, _⟩ => show (j 0).val = 0; omega
  | ⟨1, _⟩ => show (j 1).val = 0; omega

/-- A cast between two shapes of one element reads that element. -/
theorem shapeCast_one {s t : Shape} {α : Type} (hs : ∀ i i' : s.Idx, i = i') (x : s.Idx → α) (h : s.ShapeCasts t) (j : t.Idx)
    (k : s.Idx) : shapeCast t x h j = x k := by
  unfold shapeCast
  exact congrArg x (hs _ _)

/-- The carried cell after a step: what it held plus the block's scalar. -/
theorem pay1_apply (s : EReal) (acc : FVec Ideal S1x1x1 .f32) (j : S1x1x1.Idx) :
    k1_pay1 (F := Ideal) s acc j = acc (ix3 0 0 0) + s := by
  unfold k1_pay1
  refine (shapeCast_one (fun i i' => (idx11 i).trans (idx11 i').symm) _ _ j (ix2 0 0)).trans ?_
  show shapeCast S1x1 acc shapeCasts_S1x1x1_S1x1 (ix2 0 0) + s = _
  rw [shapeCast_one (fun i i' => (idx111 i).trans (idx111 i').symm) acc _ (ix2 0 0) (ix3 0 0 0)]

/-- The reset stores zero. -/
theorem pay2_apply (j : S1x1x1.Idx) : k1_pay2 (F := Ideal) j = 0 := by
  unfold k1_pay2
  refine (shapeCast_one (fun i i' => (idx11 i).trans (idx11 i').symm) _ _ j (ix2 0 0)).trans ?_
  show Ideal.ofBits .f32 0x00000000#32 = 0
  exact Ideal.ofBits_zero_f32

/-! ## A row of logits with its 48 padded columns at minus infinity -/

/-- The 2048 columns of a row whose first 2000 hold L and whose last 48 hold minus infinity. -/
def mrow (L : Fin 2000 → EReal) (j : Fin 2048) : EReal := if h : j.val < 2000 then L ⟨j.val, h⟩ else ⊥

/-- The padded columns do not change the maximum. -/
theorem fold_mrow (L : Fin 2000 → EReal) :
    (Finset.univ : Finset (Fin 2048)).fold max ⊥ (mrow L) = Finset.univ.sup L := by
  apply le_antisymm
  · refine (Finset.fold_max_le _).mpr ⟨bot_le, fun j _ => ?_⟩
    unfold mrow
    split
    · exact Finset.le_sup (f := L) (Finset.mem_univ _)
    · exact bot_le
  · refine Finset.sup_le fun j _ => ?_
    refine (Finset.le_fold_max _).mpr (Or.inr ⟨⟨j.val, by have := j.isLt; omega⟩, Finset.mem_univ _, ?_⟩)
    unfold mrow
    rw [dif_pos (show (⟨j.val, _⟩ : Fin 2048).val < 2000 from j.isLt)]

/-- A sum over the 2048 columns of terms that vanish on the last 48 is the sum over the first 2000. -/
theorem sum_2048_eq (G : Fin 2048 → EReal) (hG : ∀ j : Fin 2048, 2000 ≤ j.val → G j = 0) :
    ∑ j : Fin 2048, G j = ∑ i : Fin 2000, G ⟨i.val, by have := i.isLt; omega⟩ := by
  have e : (Finset.univ.map (Fin.castLEEmb (show 2000 ≤ 2048 by norm_num))) ⊆ (Finset.univ : Finset (Fin 2048)) :=
    Finset.subset_univ _
  rw [← Finset.sum_subset e (fun j _ hj => hG j ?_), Finset.sum_map]
  · rfl
  · by_contra hlt
    exact hj (Finset.mem_map.mpr ⟨⟨j.val, by omega⟩, Finset.mem_univ _, Fin.ext rfl⟩)

/-- The exponential of minus infinity less anything is zero, so the padded columns add nothing to the
    exponential sum. -/
theorem expsum_mrow (L : Fin 2000 → EReal) (m : EReal) :
    ∑ j : Fin 2048, Ideal.exp (mrow L j - m) = ∑ j : Fin 2000, Ideal.exp (L j - m) := by
  rw [sum_2048_eq (fun j => Ideal.exp (mrow L j - m)) (fun j hj => by
    show Ideal.exp (mrow L j - m) = 0
    unfold mrow
    rw [dif_neg (by omega), EReal.bot_sub, Ideal.exp_bot])]
  refine Finset.sum_congr rfl fun i _ => ?_
  show Ideal.exp (mrow L ⟨i.val, _⟩ - m) = _
  unfold mrow
  rw [dif_pos (show (⟨i.val, _⟩ : Fin 2048).val < 2000 from i.isLt)]

/-- A label word below 2000 selects its own column. -/
theorem target_mrow (L : Fin 2000 → EReal) (w : BitVec 32) (hw : w.toNat < 2000) :
    ∑ j : Fin 2048, (if BitVec.ofNat 32 j.val = w then mrow L j else 0) = L ⟨w.toNat, hw⟩ := by
  rw [Finset.sum_eq_single (⟨w.toNat, by omega⟩ : Fin 2048)]
  · rw [if_pos (show BitVec.ofNat 32 w.toNat = w from BitVec.eq_of_toNat_eq (by rw [BitVec.toNat_ofNat]; exact Nat.mod_eq_of_lt w.isLt))]
    unfold mrow
    rw [dif_pos hw]
  · intro j _ hj
    rw [if_neg]
    intro h
    apply hj
    apply Fin.ext
    have := congrArg BitVec.toNat h
    rw [BitVec.toNat_ofNat] at this
    have hj2 := j.isLt
    show j.val = w.toNat
    omega
  · intro h; exact absurd (Finset.mem_univ _) h

/-! ## The body's operations read at an index -/

theorem ofBits_neg_inf : Ideal.ofBits .f32 0xFF800000#32 = ⊥ := by simp [Ideal.ofBits, Ideal.ieee]

theorem neg_big_eq : Named.named (F := Ideal) Cert.KernelIdeal.κ "neg_big" (φ := .f32) 0xFF333332#32 = ⊥ :=
  IdealRules.named_const.ideal_named_scalar _ _ _ _ rfl

theorem lift_row (r : Fin 1024) (k : Fin 2048) : reduces_S1024x2048_S1024.lift (ix1 r) k = ix2 r k := by
  funext c
  apply Fin.ext
  match c with
  | ⟨0, _⟩ => rfl
  | ⟨1, _⟩ => rfl

/-- A sum along the columns, read at a row. -/
theorem rowsum_apply (v : FVec Ideal S1024x2048 .f32) (r : Fin 1024) :
    multiReduction .add [1] S1024 v 0x00000000#32 reduces_S1024x2048_S1024 (.inl rfl) rfl (ix1 r)
      = ∑ k : Fin 2048, v (ix2 r k) :=
  (Ideal.multiReduction_add_single v 0x00000000#32 reduces_S1024x2048_S1024 (.inl rfl) rfl (ix1 r)).trans
    (Finset.sum_congr rfl fun k _ => congrArg v (lift_row r k))

/-- A maximum along the columns, read at a row: the fold of max from minus infinity. -/
theorem rowmax_apply (v : FVec Ideal S1024x2048 .f32) (r : Fin 1024) :
    multiReduction .maximumf [1] S1024 v 0xFF800000#32 reduces_S1024x2048_S1024 (.inl rfl) rfl (ix1 r)
      = (Finset.univ : Finset (Fin 2048)).fold max ⊥ (fun k => v (ix2 r k)) := by
  refine (Ideal.multiReduction_maximumf_single v 0xFF800000#32 reduces_S1024x2048_S1024 (.inl rfl) rfl (ix1 r)).trans ?_
  have e : (v ∘ reduces_S1024x2048_S1024.lift (ix1 r)) = fun k : Fin 2048 => v (ix2 r k) :=
    funext fun k => congrArg v (lift_row r k)
  rw [e]
  show Finset.fold max (Ideal.ofBits .f32 0xFF800000#32) _ _ = _
  rw [ofBits_neg_inf]
  rfl

/-- A vector of 1024 entries viewed as a column. -/
theorem col_apply {α : Type} (v : S1024.Idx → α) (r : Fin 1024) :
    shapeCast S1024x1 v shapeCasts_S1024_S1024x1 (ix2 r 0) = v (ix1 r) :=
  shapeCast_apply v shapeCasts_S1024_S1024x1 (ix2 r 0) (ix1 r) (by
    rw [Shape.rowMajor_val_one, Shape.rowMajor_val_two]; simp)

/-- A column spread along the 2048 columns. -/
theorem spread_apply {α : Type} (v : S1024x1.Idx → α) (r : Fin 1024) (k : Fin 2048) :
    broadcastTo S1024x2048 v broadcasts_S1024x1_S1024x2048 (ix2 r k) = v (ix2 r 0) :=
  broadcastTo_apply v broadcasts_S1024x1_S1024x2048 (ix2 r k) (ix2 r 0) (fun a => by
    match a with
    | ⟨0, _⟩ => rfl
    | ⟨1, _⟩ => rfl)

/-- The signed comparison of a column number with 2000. -/
theorem slt_2000 : ∀ k : Fin 2048, IntOp.cmpi .slt (BitVec.ofNat 32 k.val) 2000#32 = if k.val < 2000 then 1#1 else 0#1 := by
  decide +kernel

/-- The logits with the columns from 2000 on replaced by the constant named minus infinity. -/
theorem mask_apply (u : FVec Ideal S1024x2048 .f32) (r : Fin 1024) (k : Fin 2048) :
    select (cmpi .slt (iota .tc S1024x2048 32 [1] iota_S1024x2048_d1_w32) (broadcast S1024x2048 2000#32)) u
      (broadcast S1024x2048 (Named.named (F := Ideal) Cert.KernelIdeal.κ "neg_big" (φ := .f32) 0xFF333332#32)) (ix2 r k)
      = if k.val < 2000 then u (ix2 r k) else ⊥ := by
  show Scalar.select (IntOp.cmpi .slt (iota .tc S1024x2048 32 [1] iota_S1024x2048_d1_w32 (ix2 r k)) 2000#32) (u (ix2 r k))
    (Named.named (F := Ideal) Cert.KernelIdeal.κ "neg_big" (φ := .f32) 0xFF333332#32) = _
  rw [iota_single_apply, neg_big_eq]
  show Scalar.select (IntOp.cmpi .slt (BitVec.ofNat 32 k.val) 2000#32) _ _ = _
  rw [slt_2000 k]
  split
  · exact select_one _ _
  · exact select_zero _ _

/-- The entry where the column number is the row's label, zero elsewhere. -/
theorem eqsel_apply (l : IVec S1024x1 32) (v : FVec Ideal S1024x2048 .f32) (r : Fin 1024) (k : Fin 2048) :
    select (cmpi .eq (iota .tc S1024x2048 32 [1] iota_S1024x2048_d1_w32)
        (broadcastTo S1024x2048 (shapeCast S1024x1 l shapeCasts_S1024x1_S1024x1) broadcasts_S1024x1_S1024x2048)) v
      (broadcast S1024x2048 (Scalar.ofBits (F := Ideal) .f32 0x00000000#32)) (ix2 r k)
      = if BitVec.ofNat 32 k.val = l (ix2 r 0) then v (ix2 r k) else 0 := by
  show Scalar.select (IntOp.cmpi .eq (iota .tc S1024x2048 32 [1] iota_S1024x2048_d1_w32 (ix2 r k))
      (broadcastTo S1024x2048 (shapeCast S1024x1 l shapeCasts_S1024x1_S1024x1) broadcasts_S1024x1_S1024x2048 (ix2 r k))) (v (ix2 r k))
    (Ideal.ofBits .f32 0x00000000#32) = _
  rw [iota_single_apply, spread_apply, shapeCast_self, Ideal.ofBits_zero_f32]
  show Scalar.select (IntOp.cmpi .eq (BitVec.ofNat 32 k.val) (l (ix2 r 0))) _ _ = _
  by_cases h : BitVec.ofNat 32 k.val = l (ix2 r 0)
  · rw [if_pos h, h]
    simp [Scalar.select, IntOp.cmpi]
  · rw [if_neg h]
    have hb : (BitVec.ofNat 32 k.val == l (ix2 r 0)) = false := beq_eq_false_iff_ne.mpr h
    simp [Scalar.select, IntOp.cmpi, hb]

theorem lhs_dot_0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem lhs_dot_1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
theorem rhs_dot_0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
theorem rhs_dot_1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- The product of a block of rows with the centres, read at (row, column): the sum over the 256 features. -/
theorem dot_apply (a : FVec Ideal S1024x256 .bf16) (bm : FVec Ideal S256x2048 .bf16) (r : Fin 1024) (k : Fin 2048) :
    matmul dot_S1024x256_S256x2048_S1024x2048_1_0_0_1_n_n none a bm (constant S1024x2048 .f32 0x00000000#32) (ix2 r k)
      = ∑ d : Fin 256, a (ix2 r d) * bm (ix2 d k) := by
  simp only [matmul]
  rw [Ideal.matmul_constant_zero_apply, ← Equiv.sum_comp (ValueIdx.contrEquiv1 dot_S1024x256_S256x2048_S1024x2048_1_0_0_1_n_n 256 rfl rfl).symm]
  refine Finset.sum_congr rfl fun d _ => ?_
  have hk := ValueIdx.contrEquiv1_symm_val dot_S1024x256_S256x2048_S1024x2048_1_0_0_1_n_n 256 rfl rfl d
  have el : dot_S1024x256_S256x2048_S1024x2048_1_0_0_1_n_n.lhsIdx (ix2 r k) ((ValueIdx.contrEquiv1 dot_S1024x256_S256x2048_S1024x2048_1_0_0_1_n_n 256 rfl rfl).symm d) = ix2 r d := funext fun a => Fin.ext (by
    match a with
    | ⟨0, _⟩ => exact lhs_dot_0 _ _
    | ⟨1, _⟩ => exact (lhs_dot_1 _ _).trans hk)
  have er : dot_S1024x256_S256x2048_S1024x2048_1_0_0_1_n_n.rhsIdx (ix2 r k) ((ValueIdx.contrEquiv1 dot_S1024x256_S256x2048_S1024x2048_1_0_0_1_n_n 256 rfl rfl).symm d) = ix2 d k := funext fun a => Fin.ext (by
    match a with
    | ⟨0, _⟩ => exact (rhs_dot_0 _ _).trans hk
    | ⟨1, _⟩ => exact rhs_dot_1 _ _)
  rw [el, er]

/-- The rows of a [1,1024,1] block. -/
def rowEquiv : Fin 1024 ≃ S1x1024x1.Idx where
  toFun r := ix3 0 r 0
  invFun i := ⟨(i 1).val, (i 1).isLt⟩
  left_inv r := rfl
  right_inv i := by
    have h0 : (i 0).val < 1 := (i 0).isLt
    have h2 : (i 2).val < 1 := (i 2).isLt
    funext a
    apply Fin.ext
    match a with
    | ⟨0, _⟩ => show 0 = (i 0).val; omega
    | ⟨1, _⟩ => rfl
    | ⟨2, _⟩ => show 0 = (i 2).val; omega

theorem idx1 (j : S1.Idx) : j = ix1 0 := by
  have h0 : (j 0).val < 1 := (j 0).isLt
  funext a
  apply Fin.ext
  match a with
  | ⟨0, _⟩ => show (j 0).val = 0; omega

/-- The block's scalar: the sum of a column's 1024 entries. -/
theorem blocksum_apply (w : FVec Ideal S1024x1 .f32) :
    extractAt ![0, 0, 0] (shapeCast S1x1x1 (multiReduction .add [1, 2] S1 (shapeCast S1x1024x1 w shapeCasts_S1024x1_S1x1024x1)
      0x00000000#32 reduces_S1x1024x1_S1 (.inl rfl) rfl) shapeCasts_S1_S1x1x1) inpos_S1x1x1_p0_0_0
      = ∑ r : Fin 1024, w (ix2 r 0) := by
  unfold extractAt
  refine (shapeCast_one (fun i i' => (idx1 i).trans (idx1 i').symm) _ _ _ (ix1 0)).trans ?_
  refine (Ideal.multiReduction_add_total (shapeCast S1x1024x1 w shapeCasts_S1024x1_S1x1024x1) 0x00000000#32 reduces_S1x1024x1_S1
    (fun b => by match b with | ⟨0, _⟩ => rfl) (.inl rfl) rfl (ix1 0)).trans ?_
  rw [← Equiv.sum_comp rowEquiv]
  refine Finset.sum_congr rfl fun r _ => ?_
  show shapeCast S1x1024x1 w shapeCasts_S1024x1_S1x1024x1 (ix3 0 r 0) = _
  exact shapeCast_apply w shapeCasts_S1024x1_S1x1024x1 (ix3 0 r 0) (ix2 r 0) (by
    rw [Shape.rowMajor_val_two, Shape.rowMajor_val_three]; simp)

/-- The masked logits of a block of rows against the transposed padded centres, as the body computes them. -/
def u16 (a : FVec Ideal S1024x256 .bf16) (bm : FVec Ideal S256x2048 .bf16) : FVec Ideal S1024x2048 .f32 :=
  select (cmpi .slt (iota .tc S1024x2048 32 [1] iota_S1024x2048_d1_w32) (broadcast S1024x2048 2000#32))
    (divf (matmul dot_S1024x256_S256x2048_S1024x2048_1_0_0_1_n_n none (shapeCast S1024x256 a shapeCasts_S1024x256_S1024x256)
      (shapeCast S256x2048 bm shapeCasts_S256x2048_S256x2048) (constant S1024x2048 .f32 0x00000000#32))
      (broadcast S1024x2048 (Scalar.ofBits (F := Ideal) .f32 0x3F800000#32)))
    (broadcast S1024x2048 (Named.named (F := Ideal) Cert.KernelIdeal.κ "neg_big" (φ := .f32) 0xFF333332#32))

/-- The rows' losses as a column, from the masked logits and the labels, as the body computes them. -/
def rowsOf (u : FVec Ideal S1024x2048 .f32) (l : IVec S1024x1 32) : FVec Ideal S1024x1 .f32 :=
  subf (addf (log (shapeCast S1024x1 (multiReduction .add [1] S1024 (exp (subf u (broadcastTo S1024x2048
      (shapeCast S1024x1 (multiReduction .maximumf [1] S1024 u 0xFF800000#32 reduces_S1024x2048_S1024 (.inl rfl) rfl) shapeCasts_S1024_S1024x1)
      broadcasts_S1024x1_S1024x2048))) 0x00000000#32 reduces_S1024x2048_S1024 (.inl rfl) rfl) shapeCasts_S1024_S1024x1))
      (shapeCast S1024x1 (multiReduction .maximumf [1] S1024 u 0xFF800000#32 reduces_S1024x2048_S1024 (.inl rfl) rfl) shapeCasts_S1024_S1024x1))
    (shapeCast S1024x1 (multiReduction .add [1] S1024 (select (cmpi .eq (iota .tc S1024x2048 32 [1] iota_S1024x2048_d1_w32)
        (broadcastTo S1024x2048 (shapeCast S1024x1 l shapeCasts_S1024x1_S1024x1) broadcasts_S1024x1_S1024x2048)) u
        (broadcast S1024x2048 (Scalar.ofBits (F := Ideal) .f32 0x00000000#32))) 0x00000000#32 reduces_S1024x2048_S1024 (.inl rfl) rfl)
      shapeCasts_S1024_S1024x1)

/-- The body's scalar is the block sum of those rows. -/
theorem pay3_unfold (a : FVec Ideal S1024x256 .bf16) (l : IVec S1024x1 32) (bm : FVec Ideal S256x2048 .bf16) :
    k1_pay3 (F := Ideal) a l bm
      = extractAt ![0, 0, 0] (shapeCast S1x1x1 (multiReduction .add [1, 2] S1 (shapeCast S1x1024x1 (rowsOf (u16 a bm) l) shapeCasts_S1024x1_S1x1024x1)
          0x00000000#32 reduces_S1x1024x1_S1 (.inl rfl) rfl) shapeCasts_S1_S1x1x1) inpos_S1x1x1_p0_0_0 := rfl

/-- A row's loss from its 2048 masked logits g: (log of the exponential sum + the maximum) - the entry at the label. -/
def rowLoss (g : Fin 2048 → EReal) (w : BitVec 32) : EReal :=
  (Ideal.log (∑ k : Fin 2048, Ideal.exp (g k - (Finset.univ : Finset (Fin 2048)).fold max ⊥ g))
      + (Finset.univ : Finset (Fin 2048)).fold max ⊥ g)
    - ∑ k : Fin 2048, (if BitVec.ofNat 32 k.val = w then g k else 0)

/-- (log P + Q) - T of three columns, read at a row. -/
theorem comb_apply (P Q T : FVec Ideal S1024 .f32) (r : Fin 1024) :
    subf (addf (log (shapeCast S1024x1 P shapeCasts_S1024_S1024x1)) (shapeCast S1024x1 Q shapeCasts_S1024_S1024x1))
      (shapeCast S1024x1 T shapeCasts_S1024_S1024x1) (ix2 r 0) = (Ideal.log (P (ix1 r)) + Q (ix1 r)) - T (ix1 r) := by
  show (Ideal.log (shapeCast S1024x1 P shapeCasts_S1024_S1024x1 (ix2 r 0)) + shapeCast S1024x1 Q shapeCasts_S1024_S1024x1 (ix2 r 0))
    - shapeCast S1024x1 T shapeCasts_S1024_S1024x1 (ix2 r 0) = _
  rw [col_apply P r, col_apply Q r, col_apply T r]

theorem rowsOf_apply (u : FVec Ideal S1024x2048 .f32) (l : IVec S1024x1 32) (r : Fin 1024) :
    rowsOf u l (ix2 r 0) = rowLoss (fun k => u (ix2 r k)) (l (ix2 r 0)) := by
  unfold rowsOf
  refine (comb_apply _ _ _ r).trans ?_
  unfold rowLoss
  refine congrArg₂ (fun x y : EReal => x - y) (congrArg₂ (fun x y : EReal => x + y) (congrArg Ideal.log ?_) ?_) ?_
  · refine (rowsum_apply _ r).trans (Finset.sum_congr rfl fun k _ => ?_)
    show Ideal.exp (u (ix2 r k) - broadcastTo S1024x2048 _ broadcasts_S1024x1_S1024x2048 (ix2 r k)) = _
    exact congrArg (fun m : EReal => Ideal.exp (u (ix2 r k) - m))
      ((spread_apply _ r k).trans ((col_apply _ r).trans (rowmax_apply u r)))
  · exact rowmax_apply u r
  · exact (rowsum_apply _ r).trans (Finset.sum_congr rfl fun k _ => eqsel_apply l u r k)

/-- The masked logits at (row, column). -/
def mlogit (a : FVec Ideal S1024x256 .bf16) (bm : FVec Ideal S256x2048 .bf16) (r : Fin 1024) (k : Fin 2048) : EReal :=
  if k.val < 2000 then Ideal.div (∑ d : Fin 256, a (ix2 r d) * bm (ix2 d k)) Spec.oneLit else ⊥

theorem u16_apply (a : FVec Ideal S1024x256 .bf16) (bm : FVec Ideal S256x2048 .bf16) (r : Fin 1024) (k : Fin 2048) :
    u16 a bm (ix2 r k) = mlogit a bm r k := by
  unfold u16 mlogit
  rw [mask_apply, shapeCast_self, shapeCast_self]
  congr 1
  show Ideal.div (matmul dot_S1024x256_S256x2048_S1024x2048_1_0_0_1_n_n none a bm (constant S1024x2048 .f32 0x00000000#32) (ix2 r k)) _ = _
  rw [dot_apply]
  rfl

/-- THE BLOCK'S SCALAR: the sum over its 1024 rows of each row's loss from its masked logits and its label. -/
theorem pay3_eq (a : FVec Ideal S1024x256 .bf16) (l : IVec S1024x1 32) (bm : FVec Ideal S256x2048 .bf16) :
    k1_pay3 (F := Ideal) a l bm = ∑ r : Fin 1024, rowLoss (mlogit a bm r) (l (ix2 r 0)) := by
  rw [pay3_unfold, blocksum_apply]
  refine Finset.sum_congr rfl fun r _ => ?_
  rw [rowsOf_apply]
  congr 1
  exact funext fun k => u16_apply a bm r k

/-! ## The blocks the body reads, and the carried cell point by point -/

section Frame
variable (V : (c : Dev nD) → (b : Ref sig .tc) → Buf (Elt Ideal) ((c : Thread nD τ).loc b))

abbrev xblk (c : Dev nD) (t : Fin cfg1.N) : Vec Ideal S1024x256 .bf16 := iblk1 V c 0 t
abbrev lblk (c : Dev nD) (t : Fin cfg1.N) : Vec Ideal S1024x1 .i32 := iblk1 V c 1 t
abbrev mblk (c : Dev nD) (t : Fin cfg1.N) : Vec Ideal S256x2048 .bf16 := iblk1 V c 2 t

/-- The index maps over the grid: the row blocks move with the point, the centres stay, the cell is the core's. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val / 32 ∧ win1_3.index t (1 : Fin 3) = 0 ∧ win1_3.index t (2 : Fin 3) = 0 :=
  (by decide +kernel : ∀ t : Fin grid1.N, _)

/-- The block's scalar at point n (zero past the grid). -/
def pay (c : Dev nD) (n : ℕ) : EReal :=
  if h : n < cfg1.N then k1_pay3 (F := Ideal) (xblk V c ⟨n, h⟩) (lblk V c ⟨n, h⟩) (mblk V c ⟨n, h⟩) else 0

theorem stepA (c : Dev nD) (t : Fin cfg1.N) (h0 : t.val % 32 = 0) (j : S1x1x1.Idx) :
    outsAt1 V c t.val t.isLt j = pay V c t.val := by
  rw [outsAt1_A V c t h0]
  refine (congrFun (out_A (F := Ideal) c (grid1.coords t) (ms1_0 t) (hs1_0 t) (ms1_1 t) (hs1_1 t) (ms1_2 t) (hs1_2 t) (ms1_3 t) (hs1_3 t)
    ((hcond1_0 t).mpr h0) (xblk V c t) (lblk V c t) (mblk V c t)) j).trans ?_
  rw [pay1_apply, pay2_apply, zero_add]
  unfold pay
  rw [dif_pos t.isLt]

theorem stepB (c : Dev nD) (n : ℕ) (h : n + 1 < cfg1.N) (h0 : ¬(n + 1) % 32 = 0) (j : S1x1x1.Idx) :
    outsAt1 V c (n + 1) h j = outsAt1 V c n (Nat.lt_of_succ_lt h) (ix3 0 0 0) + pay V c (n + 1) := by
  rw [outsAt1_B V c ⟨n + 1, h⟩ h0]
  refine (congrFun (out_B (F := Ideal) c (grid1.coords ⟨n + 1, h⟩) (ms1_0 ⟨n + 1, h⟩) (hs1_0 ⟨n + 1, h⟩) (ms1_1 ⟨n + 1, h⟩) (hs1_1 ⟨n + 1, h⟩)
    (ms1_2 ⟨n + 1, h⟩) (hs1_2 ⟨n + 1, h⟩) (ms1_3 ⟨n + 1, h⟩) (hs1_3 ⟨n + 1, h⟩)
    (fun hh => h0 ((hcond1_0 ⟨n + 1, h⟩).mp hh)) (xblk V c ⟨n + 1, h⟩) (lblk V c ⟨n + 1, h⟩) (mblk V c ⟨n + 1, h⟩)
    (outsAt1 V c n (Nat.lt_of_succ_lt h))) j).trans ?_
  rw [pay1_apply]
  unfold pay
  rw [dif_pos h]

/-- After point n the cell holds the sum of the scalars of its core's blocks so far. -/
theorem outsAt_eq (c : Dev nD) : ∀ (n : ℕ) (h : n < cfg1.N) (j : S1x1x1.Idx),
    outsAt1 V c n h j = ∑ s ∈ Finset.range (n % 32 + 1), pay V c (n - n % 32 + s)
  | 0, h, j => by
    rw [stepA V c ⟨0, h⟩ rfl j]
    simp
  | n + 1, h, j => by
    by_cases h0 : (n + 1) % 32 = 0
    · rw [stepA V c ⟨n + 1, h⟩ h0 j, h0, Finset.sum_range_one]
      rfl
    · rw [stepB V c n h h0 j, outsAt_eq c n (Nat.lt_of_succ_lt h) (ix3 0 0 0)]
      have hm : (n + 1) % 32 = n % 32 + 1 := by omega
      have hd : n + 1 - (n % 32 + 1) = n - n % 32 := by omega
      rw [hm, hd, Finset.sum_range_succ _ (n % 32 + 1)]
      congr 2
      omega
end Frame

/- The second kernel (logits of 1024-row blocks against the 2048 padded centre columns, row-wise cross-entropy, a
   running sum per core), read at the contents V its region is entered with. -/

variable (V : (c : Dev nD) → (b : Ref sig .tc) → Buf (Elt Ideal) ((c : Thread nD τ).loc b))

/-- The unit rows, the labels and the transposed padded centres as the region finds them. -/
def A1 (c : Dev nD) : Fin 65536 → Fin 256 → EReal := fun n d => (V c main_v2_2 : S65536x256.Idx → EReal) (ix2 n d)
def lab1 (c : Dev nD) : Spec.Lab := fun n => (V c main_v1 : S65536x1.Idx → BitVec 32) (ix2 n 0)
def Mo1 (c : Dev nD) : Fin 2000 → Fin 256 → EReal := fun j d =>
  (V c main_v38 : S256x2048.Idx → EReal) (ix2 d ⟨j.val, by have := j.isLt; omega⟩)

/-! ## The blocks as parts of the arrays, the write-back, and the cell's final value -/

/-- Row r of point t's block of unit rows is row 1024 t + r of the array. -/
theorem xblk_apply (c : Dev nD) (t : Fin cfg1.N) (r : Fin 1024) (d : Fin 256) (n : Fin 65536) (hn : n.val = 1024 * t.val + r.val) :
    xblk V c t (ix2 r d) = A1 V c n d := by
  obtain ⟨e0, e1, -⟩ := idx_facts t
  unfold A1
  show iblk1 V c 0 t (ix2 r d) = _
  unfold iblk1
  rw [View.read_apply]
  show V c main_v2_2 _ = V c main_v2_2 _
  congr 1
  funext a
  apply Fin.ext
  match a with
  | ⟨0, _⟩ => show win1_0.index t (0 : Fin 2) * 1024 + 1 * r.val = n.val; rw [e0]; omega
  | ⟨1, _⟩ => show win1_0.index t (1 : Fin 2) * 256 + 1 * d.val = d.val; rw [e1]; omega

/-- Row r of point t's block of labels is label 1024 t + r. -/
theorem lblk_apply (c : Dev nD) (t : Fin cfg1.N) (r : Fin 1024) (n : Fin 65536) (hn : n.val = 1024 * t.val + r.val) :
    lblk V c t (ix2 r 0) = lab1 V c n := by
  obtain ⟨-, -, e0, e1, -⟩ := idx_facts t
  unfold lab1
  show iblk1 V c 1 t (ix2 r 0) = _
  unfold iblk1
  rw [View.read_apply]
  show V c main_v1 _ = V c main_v1 _
  congr 1
  funext a
  apply Fin.ext
  match a with
  | ⟨0, _⟩ => show win1_1.index t (0 : Fin 2) * 1024 + 1 * r.val = n.val; rw [e0]; omega
  | ⟨1, _⟩ => show win1_1.index t (1 : Fin 2) * 1 + 1 * 0 = 0; rw [e1]

/-- Every point's block of centres is the whole transposed padded array. -/
theorem mblk_apply (c : Dev nD) (t : Fin cfg1.N) (d : Fin 256) (k : Fin 2048) :
    mblk V c t (ix2 d k) = (V c main_v38 : S256x2048.Idx → EReal) (ix2 d k) := by
  obtain ⟨-, -, -, -, e0, e1, -⟩ := idx_facts t
  show iblk1 V c 2 t (ix2 d k) = _
  unfold iblk1
  rw [View.read_apply]
  show V c main_v38 _ = V c main_v38 _
  congr 1
  funext a
  apply Fin.ext
  match a with
  | ⟨0, _⟩ => show win1_2.index t (0 : Fin 2) * 256 + 1 * d.val = d.val; rw [e0]; omega
  | ⟨1, _⟩ => show win1_2.index t (1 : Fin 2) * 2048 + 1 * k.val = k.val; rw [e1]; omega

/-- A row's loss as the body computes it is the row's cross-entropy: the 48 padded columns hold minus infinity, so they
    change neither the maximum nor the exponential sum, and the label, below 2000, selects its own logit. -/
theorem row_eq (c : Dev nD) (hl : ∀ n, (lab1 V c n).toNat < 2000) (t : Fin cfg1.N) (r : Fin 1024) (n : Fin 65536)
    (hn : n.val = 1024 * t.val + r.val) :
    rowLoss (mlogit (xblk V c t) (mblk V c t) r) (lblk V c t (ix2 r 0))
      = Spec.kerRow (Spec.logitOf (A1 V c) (Mo1 V c)) (lab1 V c) hl n := by
  have hg : mlogit (xblk V c t) (mblk V c t) r = mrow (fun j => Spec.logitOf (A1 V c) (Mo1 V c) n j) := by
    funext k
    unfold mlogit mrow
    by_cases hk : k.val < 2000
    · rw [if_pos hk, dif_pos hk]
      unfold Spec.logitOf
      congr 1
      refine Finset.sum_congr rfl fun d _ => ?_
      rw [xblk_apply V c t r d n hn, mblk_apply V c t d k]
      rfl
    · rw [if_neg hk, dif_neg hk]
  rw [hg, lblk_apply V c t r n hn]
  unfold rowLoss
  rw [fold_mrow, expsum_mrow, target_mrow _ _ (hl n)]
  rfl

/-- The scalar of block b of core k: the sum of its rows' cross-entropies. -/
theorem pay_eq (c : Dev nD) (hl : ∀ n, (lab1 V c n).toNat < 2000) (k : Fin 2) (b : Fin 32) :
    pay V c (32 * k.val + b.val)
      = ∑ r : Fin 1024, Spec.kerRow (Spec.logitOf (A1 V c) (Mo1 V c)) (lab1 V c) hl (Spec.row1 k b r) := by
  have hk := k.isLt
  have hb := b.isLt
  have hlt : 32 * k.val + b.val < cfg1.N := by rw [show cfg1.N = 64 from N_1]; omega
  unfold pay
  rw [dif_pos hlt, pay3_eq]
  refine Finset.sum_congr rfl fun r _ => ?_
  exact row_eq V c hl ⟨32 * k.val + b.val, hlt⟩ r (Spec.row1 k b r) (by
    show (k.val * 32 + b.val) * 1024 + r.val = 1024 * (32 * k.val + b.val) + r.val
    omega)

/-- What the loss array ends holding: at core k, the sum of that core's thirty-two block scalars. -/
def cellArr (c : Dev nD) : Vec Ideal S2x1x1 .f32 := fun i => ∑ s ∈ Finset.range 32, pay V c (32 * (i 0).val + s)

/-- The write-back at the last point of a core writes that core's cell. -/
theorem flushed_eq (c : Dev nD) (t : Fin cfg1.N) (hf : (cfg1.win 3).flush t = true) :
    (dat1 V c).flushed 3 t = ((cfg1.win 3).blk t).view.read (Elt Ideal) (cellArr V c) := by
  have hN : t.val < 64 := lt_of_lt_of_eq t.isLt (show cfg1.N = 64 from N_1)
  have h31 : t.val % 32 = 31 := (flush1_3 t).mp hf
  obtain ⟨-, -, -, -, -, -, e0, e1, e2⟩ := idx_facts t
  show (cfg1.win 3).cut (grid1.coords t) ((dat1 V c).after 3 t) = _
  rw [after1_3]
  funext y
  rw [View.read_apply]
  show outsAt1 V c t.val t.isLt y = cellArr V c (((cfg1.win 3).blk t).view.emb y)
  rw [outsAt_eq V c t.val t.isLt y]
  unfold cellArr
  have hy : (y 0).val < 1 := (y 0).isLt
  have he : ((((cfg1.win 3).blk t).view.emb y) 0).val = t.val / 32 := by
    show win1_3.index t (0 : Fin 3) * 1 + 1 * (y 0).val = t.val / 32
    rw [e0]; omega
  show _ = ∑ s ∈ Finset.range 32, pay V c (32 * ((((cfg1.win 3).blk t).view.emb y) 0).val + s)
  rw [he, h31, show t.val - 31 = 32 * (t.val / 32) from by omega]

/-- So the loss array ends holding the cells. -/
theorem final_cell (c : Dev nD) : (dat1 V c).arrAt 3 cfg1.N = cellArr V c :=
  (dat1 V c).arrAt_eq_of_cover 3 (cellArr V c) (flushed_eq V c) fun i => by
    have hi0 : (i 0).val < 2 := (i 0).isLt
    have hi1 : (i 1).val < 1 := (i 1).isLt
    have hi2 : (i 2).val < 1 := (i 2).isLt
    obtain ⟨t, ht⟩ : ∃ t : Fin cfg1.N, t.val = 32 * (i 0).val + 31 :=
      ⟨⟨32 * (i 0).val + 31, by rw [show cfg1.N = 64 from N_1]; omega⟩, rfl⟩
    obtain ⟨-, -, -, -, -, -, e0, e1, e2⟩ := idx_facts t
    refine ⟨t, (flush1_3 t).mpr (by omega), ?_⟩
    show i ∈ ((View.whole main_v39).slice (win1_3.rect t)).set
    rw [View.set_slice_whole, Rect.mem_set_unit]
    intro a
    match a with
    | ⟨0, _⟩ => show win1_3.index t (0 : Fin 3) * 1 ≤ (i 0).val ∧ (i 0).val < win1_3.index t (0 : Fin 3) * 1 + 1
                rw [e0]; omega
    | ⟨1, _⟩ => show win1_3.index t (1 : Fin 3) * 1 ≤ (i 1).val ∧ (i 1).val < win1_3.index t (1 : Fin 3) * 1 + 1
                rw [e1]; omega
    | ⟨2, _⟩ => show win1_3.index t (2 : Fin 3) * 1 ≤ (i 2).val ∧ (i 2).val < win1_3.index t (2 : Fin 3) * 1 + 1
                rw [e2]; omega

/-- Core k's loss cell: over its thirty-two blocks, the rows' cross-entropies (the 48 padded columns hold minus
    infinity, so they change neither a row's maximum nor its exponential sum, and a label below 2000 selects its
    own logit). -/
theorem loss_out (c : Dev nD) (hl : ∀ n, (lab1 V c n).toNat < 2000) (k : Fin 2) :
    ((dat1 (F := Ideal) V c).arrAt 3 cfg1.N : S2x1x1.Idx → EReal) (ix3 k 0 0)
      = ∑ b : Fin 32, ∑ r : Fin 1024,
          Spec.kerRow (Spec.logitOf (A1 V c) (Mo1 V c)) (lab1 V c) hl (Spec.row1 k b r) := by
  refine (congrFun (final_cell V c) (ix3 k 0 0)).trans ?_
  unfold cellArr
  show ∑ s ∈ Finset.range 32, pay V c (32 * k.val + s) = _
  rw [Finset.sum_range]
  exact Finset.sum_congr rfl fun b _ => pay_eq V c hl k b

end Cert.KernelIdeal.Reg1

end
-- ==== Proof.Reals.lean ====
import proofs.«429995_j90031104459201_3_alg».proof.Proof.Spec
import Idealize.ShloMosaic.PureOps.Ideal.Laws

noncomputable section

open Idealize.ShloMosaic Idealize.ShloMosaic.ValueIdx

namespace Cert.Spec

/- Everything the two programs compute from finite inputs is a real number: the literals, the unit rows, the class
   sums and counts, the updated centres and the logits. -/

/-! ### Real, nonnegative real and positive real extended reals, and their closure under the operations -/

/-- An extended real that is a nonnegative real number. -/
def IsNN (x : EReal) : Prop := ∃ r : ℝ, 0 ≤ r ∧ x = (r : EReal)

/-- An extended real that is a positive real number. -/
def IsPos (x : EReal) : Prop := ∃ r : ℝ, 0 < r ∧ x = (r : EReal)

theorem IsNN.isR {x : EReal} (h : IsNN x) : IsR x := by
  obtain ⟨r, _, e⟩ := h; exact ⟨r, e⟩

theorem IsPos.isR {x : EReal} (h : IsPos x) : IsR x := by
  obtain ⟨r, _, e⟩ := h; exact ⟨r, e⟩

theorem isR_zero : IsR (0 : EReal) := ⟨0, EReal.coe_zero.symm⟩

theorem isNN_zero : IsNN (0 : EReal) := ⟨0, le_refl _, EReal.coe_zero.symm⟩

theorem isR_add {x y : EReal} (hx : IsR x) (hy : IsR y) : IsR (x + y) := by
  obtain ⟨a, rfl⟩ := hx; obtain ⟨b, rfl⟩ := hy; exact ⟨a + b, (EReal.coe_add a b).symm⟩

theorem isNN_add {x y : EReal} (hx : IsNN x) (hy : IsNN y) : IsNN (x + y) := by
  obtain ⟨a, ha, rfl⟩ := hx; obtain ⟨b, hb, rfl⟩ := hy
  exact ⟨a + b, add_nonneg ha hb, (EReal.coe_add a b).symm⟩

theorem isR_mul {x y : EReal} (hx : IsR x) (hy : IsR y) : IsR (x * y) := by
  obtain ⟨a, rfl⟩ := hx; obtain ⟨b, rfl⟩ := hy; exact ⟨a * b, (EReal.coe_mul a b).symm⟩

theorem isR_sub {x y : EReal} (hx : IsR x) (hy : IsR y) : IsR (x - y) := by
  obtain ⟨a, rfl⟩ := hx; obtain ⟨b, rfl⟩ := hy; exact ⟨a - b, (EReal.coe_sub a b).symm⟩

/-- The square of a real is a nonnegative real. -/
theorem isNN_mul_self {x : EReal} (hx : IsR x) : IsNN (x * x) := by
  obtain ⟨a, rfl⟩ := hx; exact ⟨a * a, mul_self_nonneg a, (EReal.coe_mul a a).symm⟩

/-- A finite sum of reals is a real. -/
theorem isR_sum {ι : Type} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact isR_add (h a (Finset.mem_insert_self a s)) (ih fun i hi => h i (Finset.mem_insert_of_mem hi))

/-- A finite sum of nonnegative reals is a nonnegative real. -/
theorem isNN_sum {ι : Type} (s : Finset ι) (f : ι → EReal) (h : ∀ i ∈ s, IsNN (f i)) : IsNN (∑ i ∈ s, f i) := by
  classical
  induction s using Finset.induction_on with
  | empty => rw [Finset.sum_empty]; exact isNN_zero
  | insert a s ha ih =>
    rw [Finset.sum_insert ha]
    exact isNN_add (h a (Finset.mem_insert_self a s)) (ih fun i hi => h i (Finset.mem_insert_of_mem hi))

/-- The square root of a nonnegative real is a nonnegative real. -/
theorem isNN_sqrt {x : EReal} (hx : IsNN x) : IsNN (Ideal.sqrt x) := by
  obtain ⟨a, ha, rfl⟩ := hx
  rw [Ideal.sqrt_coe, if_neg (not_lt.mpr ha)]
  exact ⟨Real.sqrt a, Real.sqrt_nonneg a, rfl⟩

/-- The greater of a real and a positive real is a positive real. -/
theorem isPos_max {x y : EReal} (hx : IsR x) (hy : IsPos y) : IsPos (max x y) := by
  obtain ⟨a, rfl⟩ := hx; obtain ⟨b, hb, rfl⟩ := hy
  exact ⟨max a b, lt_max_of_lt_right hb, (EReal.coe_strictMono.monotone.map_max (a := a) (b := b))⟩

/-- A real over a positive real is a real. -/
theorem isR_div {x y : EReal} (hx : IsR x) (hy : IsPos y) : IsR (Ideal.div x y) := by
  obtain ⟨a, rfl⟩ := hx; obtain ⟨b, hb, rfl⟩ := hy
  rw [Ideal.div_coe (ne_of_gt hb)]
  exact ⟨a * (1 / b), (EReal.coe_mul _ _).symm⟩

/-! ### The literals -/

theorem zeroLit_eq : zeroLit = 0 := by
  exact Ideal.ofBits_zero_f32

theorem oneLit_eq : oneLit = ((1 : ℝ) : EReal) := by
  simp [Ideal.ofBits, Ideal.ieee, -EReal.coe_mul]
  try norm_num

theorem nLit_eq : nLit = ((65536 : ℝ) : EReal) := by
  simp [Ideal.ofBits, Ideal.ieee, -EReal.coe_mul]
  try norm_num

theorem epsLit_pos : ∃ r : ℝ, 0 < r ∧ epsLit = (r : EReal) := by
  simp [Ideal.ofBits, Ideal.ieee, -EReal.coe_mul]

theorem isNN_zeroLit : IsNN zeroLit := by rw [zeroLit_eq]; exact isNN_zero

theorem isR_oneLit : IsR oneLit := ⟨1, oneLit_eq⟩

theorem isPos_oneLit : IsPos oneLit := ⟨1, one_pos, oneLit_eq⟩

theorem isPos_epsLit : IsPos epsLit := epsLit_pos

/-! ### The unit rows, the class sums, the flags -/

theorem fn_real (X : Feat) (hX : ∀ n d, IsR (X n d)) (n : Fin 65536) (d : Fin 256) : IsR (fn X n d) := by
  unfold fn
  refine isR_div (hX n d) (isPos_max (isNN_sqrt ?_).isR isPos_epsLit)
  exact isNN_sum _ _ fun e _ => isNN_mul_self (hX n e)

theorem sumsArr_real (X : Feat) (lab : Lab) (hX : ∀ n d, IsR (X n d)) (i : S1000x256.Idx) : IsR (sumsArr X lab i) := by
  unfold sumsArr sums
  refine isR_sum _ _ fun n _ => ?_
  split_ifs
  · exact fn_real X hX n _
  · exact isR_zero

theorem flagArr_real (lab : Lab) (i : S1000x1.Idx) : IsR (flagArr lab i) := by
  unfold flagArr flag
  exact ⟨_, rfl⟩

/-! ### The array operations keep every entry real -/

section arrays

variable {s t u : Shape} {φ : FTy}

theorem all_bcast {P : EReal → Prop} (dims : Fin s.rank → Fin t.rank) (h : s.BroadcastsInDim t dims)
    (x : FVec Ideal s φ) (hx : ∀ i, P (x i)) (j : t.Idx) : P (broadcastInDim t dims h x j) := hx _

theorem allR_mulf (a b : FVec Ideal s φ) (ha : ∀ i, IsR (a i)) (hb : ∀ i, IsR (b i)) (i : s.Idx) :
    IsR (mulf a b i) := by
  rw [mulf_apply]; exact isR_mul (ha i) (hb i)

theorem allNN_mulf_self (a : FVec Ideal s φ) (ha : ∀ i, IsR (a i)) (i : s.Idx) : IsNN (mulf a a i) := by
  rw [mulf_apply]; exact isNN_mul_self (ha i)

theorem allR_addf (a b : FVec Ideal s φ) (ha : ∀ i, IsR (a i)) (hb : ∀ i, IsR (b i)) (i : s.Idx) :
    IsR (addf a b i) := by
  rw [addf_apply]; exact isR_add (ha i) (hb i)

theorem allR_subf (a b : FVec Ideal s φ) (ha : ∀ i, IsR (a i)) (hb : ∀ i, IsR (b i)) (i : s.Idx) :
    IsR (subf a b i) := by
  rw [subf_apply]; exact isR_sub (ha i) (hb i)

theorem allPos_maximumf (a b : FVec Ideal s φ) (ha : ∀ i, IsR (a i)) (hb : ∀ i, IsPos (b i)) (i : s.Idx) :
    IsPos (maximumf a b i) := by
  rw [maximumf_apply]; exact isPos_max (ha i) (hb i)

theorem allR_hostDivf (a b : FVec Ideal s φ) (ha : ∀ i, IsR (a i)) (hb : ∀ i, IsPos (b i)) (i : s.Idx) :
    IsR (Host.divf a b i) := by
  show IsR (Ideal.div (a i) (b i)); exact isR_div (ha i) (hb i)

theorem allNN_hostSqrt (a : FVec Ideal s φ) (ha : ∀ i, IsNN (a i)) (i : s.Idx) : IsNN (Host.sqrt a i) := by
  show IsNN (Ideal.sqrt (a i)); exact isNN_sqrt (ha i)

theorem allR_reduceAdd {axes : List (Fin s.rank)} (x : FVec Ideal s φ) (init : u.Idx → Ideal φ)
    (h : s.ReducesTo axes t) (hu : 0 < u.numel) (hx : ∀ i, IsR (x i)) (hi : ∀ k, IsR (init k)) (j : t.Idx) :
    IsR (Host.reduceAdd x init h hu j) := by
  show IsR (Ideal.hostReduceAdd h x (init (Shape.Idx.first hu)) j); unfold Ideal.hostReduceAdd
  exact isR_add (hi _) (isR_sum _ _ fun i _ => hx i)

theorem allNN_reduceAdd {axes : List (Fin s.rank)} (x : FVec Ideal s φ) (init : u.Idx → Ideal φ)
    (h : s.ReducesTo axes t) (hu : 0 < u.numel) (hx : ∀ i, IsNN (x i)) (hi : ∀ k, IsNN (init k)) (j : t.Idx) :
    IsNN (Host.reduceAdd x init h hu j) := by
  show IsNN (Ideal.hostReduceAdd h x (init (Shape.Idx.first hu)) j); unfold Ideal.hostReduceAdd
  exact isNN_add (hi _) (isNN_sum _ _ fun i _ => hx i)

end arrays

/-! ### The centre update -/

section centre

variable (hf : NMFacts)

theorem const_zero_nn (k : S_.Idx) : IsNN (constant (F := Ideal) S_ .f32 0x00000000#32 k) := isNN_zeroLit

theorem const_one_real (k : S_.Idx) : IsR (constant (F := Ideal) S_ .f32 0x3F800000#32 k) := isR_oneLit

theorem const_eps_pos (k : S_.Idx) : IsPos (constant (F := Ideal) S_ .f32 0x2B8CBCCC#32 k) := isPos_epsLit

/-- The row norms of a real array are nonnegative reals. -/
theorem rowNorm_nn (a : FVec Ideal S1000x256 .f32) (ha : ∀ i, IsR (a i)) (i : S1000x1.Idx) : IsNN (rowNorm hf a i) := by
  unfold rowNorm
  exact allNN_hostSqrt _ (all_bcast _ _ _ (allNN_reduceAdd _ _ _ _ (allNN_mulf_self a ha) const_zero_nn)) i

/-- The normalised rows of a real array are real. -/
theorem l2rows_real (a : FVec Ideal S1000x256 .f32) (ha : ∀ i, IsR (a i)) (i : S1000x256.Idx) : IsR (l2rows hf a i) := by
  unfold l2rows
  exact allR_hostDivf _ _ ha (all_bcast _ _ _
    (allPos_maximumf _ _ (fun k => (rowNorm_nn hf a ha k).isR) (all_bcast _ _ _ const_eps_pos))) i

theorem batchCentre_real (s : FVec Ideal S1000x256 .f32) (fl : FVec Ideal S1000x1 .f32)
    (hs : ∀ i, IsR (s i)) (hfl : ∀ i, IsR (fl i)) (i : S1000x256.Idx) : IsR (batchCentre hf s fl i) := by
  unfold batchCentre
  exact allR_mulf _ _ (l2rows_real hf s hs) (all_bcast _ _ _ hfl) i

theorem one_col_real (i : S1000x1.Idx) :
    IsR (broadcastInDim S1000x1 ![] hf.bs (constant (F := Ideal) S_ .f32 0x3F800000#32) i) :=
  all_bcast _ _ _ const_one_real i

theorem blend_real (s : FVec Ideal S1000x256 .f32) (fl : FVec Ideal S1000x1 .f32) (mem : FVec Ideal S1000x256 .f32)
    (hs : ∀ i, IsR (s i)) (hfl : ∀ i, IsR (fl i)) (hmem : ∀ i, IsR (mem i)) (i : S1000x1.Idx) :
    IsR (blend hf s fl mem i) := by
  unfold blend
  refine allR_subf _ _ (one_col_real hf) (allR_mulf _ _ (allR_subf _ _ (one_col_real hf) (all_bcast _ _ _ ?_)) hfl) i
  exact allR_reduceAdd _ _ _ _ (allR_mulf _ _ hmem (batchCentre_real hf s fl hs hfl)) (fun k => (const_zero_nn k).isR)

end centre

theorem newMem_real (hf : NMFacts) (s : FVec Ideal S1000x256 .f32) (fl : FVec Ideal S1000x1 .f32)
    (mem : FVec Ideal S1000x256 .f32) (hs : ∀ i, IsR (s i)) (hfl : ∀ i, IsR (fl i)) (hmem : ∀ i, IsR (mem i))
    (i : S1000x256.Idx) : IsR (newMem hf s fl mem i) := by
  unfold newMem
  refine l2rows_real hf _ (allR_addf _ _ (allR_mulf _ _ (all_bcast _ _ _ (blend_real hf s fl mem hs hfl hmem)) hmem)
    (allR_mulf _ _ (all_bcast _ _ _ (allR_subf _ _ (one_col_real hf) (blend_real hf s fl mem hs hfl hmem)))
      (batchCentre_real hf s fl hs hfl))) i

/-! ### The logits -/

theorem logits_real (hf : NMFacts) (X : Feat) (lab : Lab) (mem : FVec Ideal S1000x256 .f32) (src : Cen)
    (hX : ∀ n d, IsR (X n d)) (hmem : ∀ i, IsR (mem i)) (hsrc : ∀ cl e, IsR (src cl e)) (n : Fin 65536) (j : Fin 2000) :
    IsR (logits hf X lab mem src n j) := by
  unfold logits logitOf
  refine isR_div (isR_sum _ _ fun d _ => isR_mul (fn_real X hX n d) ?_) isPos_oneLit
  unfold memo
  split_ifs with h
  · exact newMem_real hf _ _ mem (sumsArr_real X lab hX) (flagArr_real lab) hmem _
  · exact hsrc _ _

end Cert.Spec

end
-- ==== Proof.LossAlg.lean ====
import proofs.«429995_j90031104459201_3_alg».proof.Proof.Spec
import Idealize.ShloMosaic.PureOps.Ideal.Laws

noncomputable section

open Idealize.ShloMosaic Idealize.ShloMosaic.ValueIdx

namespace Cert.Spec

/- The two ways of writing the mean cross-entropy agree on real logits, and the kernels' tilings of the 65536 rows
   (core, block, row in block) enumerate each row once. -/

/-- The coercion of the reals into the extended reals commutes with finite sums. -/
theorem coe_finsum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- On a row of real logits the maximum is one of the logits, so a real; every shifted exponential is a positive
    real, so their sum is a positive real and its logarithm a real. Hence the row's cross-entropy, written either
    way, is a real number, and the two ways differ by the sign. -/
theorem row_real (L : Logits) (hL : ∀ n j, IsR (L n j)) (n : Fin 65536) (j0 : Fin 2000) :
    ∃ x : ℝ, (Ideal.log (lseSum L n) + rowMax L n) - L n j0 = (x : EReal) ∧
      (L n j0 - rowMax L n) - Ideal.log (lseSum L n) = ((-x : ℝ) : EReal) := by
  have h : ∀ j, ∃ r : ℝ, L n j = (r : EReal) := hL n
  choose ℓ hℓ using h
  obtain ⟨i0, -, hi0⟩ := Finset.exists_mem_eq_sup (Finset.univ : Finset (Fin 2000))
    ⟨j0, Finset.mem_univ _⟩ (fun j : Fin 2000 => L n j)
  have hm : rowMax L n = ((ℓ i0 : ℝ) : EReal) := by
    unfold rowMax; rw [hi0, hℓ]
  have hS : lseSum L n = ((∑ j : Fin 2000, Real.exp (ℓ j - ℓ i0) : ℝ) : EReal) := by
    unfold lseSum
    rw [coe_finsum]
    refine Finset.sum_congr rfl fun j _ => ?_
    rw [hm, hℓ j, ← EReal.coe_sub, Ideal.exp_coe]
  have hpos : 0 < ∑ j : Fin 2000, Real.exp (ℓ j - ℓ i0) :=
    Finset.sum_pos (fun j _ => Real.exp_pos _) ⟨j0, Finset.mem_univ _⟩
  have hlog : Ideal.log (lseSum L n) = ((Real.log (∑ j : Fin 2000, Real.exp (ℓ j - ℓ i0)) : ℝ) : EReal) := by
    rw [hS, Ideal.log_coe, if_neg (not_le.mpr hpos)]
  refine ⟨Real.log (∑ j : Fin 2000, Real.exp (ℓ j - ℓ i0)) + ℓ i0 - ℓ j0, ?_, ?_⟩
  · rw [hlog, hm, hℓ j0, ← EReal.coe_add, ← EReal.coe_sub]
  · rw [hlog, hm, hℓ j0, ← EReal.coe_sub, ← EReal.coe_sub]
    congr 1; ring

theorem ker_eq_ref (L : Logits) (lab : Lab) (hl : ∀ n, (lab n).toNat < 2000) (hL : ∀ n j, IsR (L n j))
    (hn : nLit = ((65536 : ℝ) : EReal)) : kerLoss L lab hl = refLoss L lab hl := by
  choose x hx1 hx2 using fun n => row_real L hL n (labCol lab n (hl n))
  have hk : ∀ n, kerRow L lab hl n = ((x n : ℝ) : EReal) := fun n => hx1 n
  have hr : ∀ n, refRow L lab hl n = ((-x n : ℝ) : EReal) := fun n => hx2 n
  have h0 : (65536 : ℝ) ≠ 0 := by norm_num
  unfold kerLoss refLoss
  rw [Finset.sum_congr rfl fun n _ => hk n, Finset.sum_congr rfl fun n _ => hr n, hn,
    Ideal.div_coe h0, Ideal.div_coe h0, ← coe_finsum, ← coe_finsum, ← EReal.coe_mul, ← EReal.coe_mul,
    ← EReal.coe_neg]
  congr 1
  rw [Finset.sum_neg_distrib]; ring

/-- The first tiling (core, block, row in block) is a bijection onto the rows: it is injective (the three
    coordinates are the digits of the row number in the mixed radix 2, 16, 2048) between sets of equal size. -/
theorem row0_bij : Function.Bijective (fun p : Fin 2 × Fin 16 × Fin 2048 => row0 p.1 p.2.1 p.2.2) := by
  rw [Fintype.bijective_iff_injective_and_card]
  refine ⟨?_, by simp⟩
  rintro ⟨k, b, r⟩ ⟨k', b', r'⟩ h
  have h' : (k.val * 16 + b.val) * 2048 + r.val = (k'.val * 16 + b'.val) * 2048 + r'.val :=
    congrArg Fin.val h
  have := k.isLt; have := b.isLt; have := r.isLt
  have := k'.isLt; have := b'.isLt; have := r'.isLt
  refine Prod.ext (Fin.ext ?_) (Prod.ext (Fin.ext ?_) (Fin.ext ?_))
  · show k.val = k'.val; omega
  · show b.val = b'.val; omega
  · show r.val = r'.val; omega

/-- The second tiling is a bijection onto the rows in the same way (radix 2, 32, 1024). -/
theorem row1_bij : Function.Bijective (fun p : Fin 2 × Fin 32 × Fin 1024 => row1 p.1 p.2.1 p.2.2) := by
  rw [Fintype.bijective_iff_injective_and_card]
  refine ⟨?_, by simp⟩
  rintro ⟨k, b, r⟩ ⟨k', b', r'⟩ h
  have h' : (k.val * 32 + b.val) * 1024 + r.val = (k'.val * 32 + b'.val) * 1024 + r'.val :=
    congrArg Fin.val h
  have := k.isLt; have := b.isLt; have := r.isLt
  have := k'.isLt; have := b'.isLt; have := r'.isLt
  refine Prod.ext (Fin.ext ?_) (Prod.ext (Fin.ext ?_) (Fin.ext ?_))
  · show k.val = k'.val; omega
  · show b.val = b'.val; omega
  · show r.val = r'.val; omega

theorem sum_rows0 (f : Fin 65536 → EReal) :
    ∑ k : Fin 2, ∑ b : Fin 16, ∑ r : Fin 2048, f (row0 k b r) = ∑ n : Fin 65536, f n := by
  rw [← Fintype.sum_bijective _ row0_bij (fun p => f (row0 p.1 p.2.1 p.2.2)) f (fun _ => rfl),
    Fintype.sum_prod_type]
  refine Finset.sum_congr rfl fun k _ => ?_
  rw [Fintype.sum_prod_type]

theorem sum_rows1 (f : Fin 65536 → EReal) :
    ∑ k : Fin 2, ∑ b : Fin 32, ∑ r : Fin 1024, f (row1 k b r) = ∑ n : Fin 65536, f n := by
  rw [← Fintype.sum_bijective _ row1_bij (fun p => f (row1 p.1 p.2.1 p.2.2)) f (fun _ => rfl),
    Fintype.sum_prod_type]
  refine Finset.sum_congr rfl fun k _ => ?_
  rw [Fintype.sum_prod_type]

end Cert.Spec

end
-- ==== Proof.KValue.lean ====
import proofs.«429995_j90031104459201_3_alg».proof.Defs
import proofs.«429995_j90031104459201_3_alg».proof.Proof.RunNamed
import proofs.«429995_j90031104459201_3_alg».proof.Proof.HostK
import proofs.«429995_j90031104459201_3_alg».proof.Proof.HostMid
import proofs.«429995_j90031104459201_3_alg».proof.Proof.Reg0
import proofs.«429995_j90031104459201_3_alg».proof.Proof.Reg1
import proofs.«429995_j90031104459201_3_alg».proof.Proof.Reals
import proofs.«429995_j90031104459201_3_alg».proof.Proof.LossAlg

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

/- The kernel's result as a function of its arguments: the two regions' values and the host operations between and
   after them, composed. With real features and centres and labels below 2000 it is the mean cross-entropy of the
   unit rows' logits against the updated and the source centres. -/

variable (m : (ℓ : Loc nD τ sig) → Buf (Elt Ideal) ℓ) (ρ : Dev nD → PrngReg)

/-- The arguments as the specification's index functions. -/
def X (c : Dev nD) : Spec.Feat := fun n d => (m ((c : Thread nD τ).loc main_arg0) : S65536x256.Idx → EReal) (ix2 n d)
def lab (c : Dev nD) : Spec.Lab := fun n => (m ((c : Thread nD τ).loc main_arg1) : S65536.Idx → BitVec 32) (ix1 n)
def src (c : Dev nD) : Spec.Cen := fun cl e => (m ((c : Thread nD τ).loc main_arg3) : S1000x256.Idx → EReal) (ix2 cl e)
abbrev mem (c : Dev nD) : FVec Ideal Spec.S1000x256 .f32 := m ((c : Thread nD τ).loc main_arg2)

/-- A row's cross-entropy depends on the logits and the labels only through their values. -/
theorem kerRow_congr {L L' : Spec.Logits} {l l' : Spec.Lab} (hL : L = L') (hlab : l = l')
    (h : ∀ n, (l n).toNat < 2000) (h' : ∀ n, (l' n).toNat < 2000) (n : Fin 65536) :
    Spec.kerRow L l h n = Spec.kerRow L' l' h' n := by
  subst hL; subst hlab; rfl

/-- The first region finds the arguments. -/
theorem X0_eq (c : Dev nD) : Reg0.X0 (V1 m ρ) c = X m c := by
  funext n d
  exact congrFun (HostK.V1_x m ρ c) (ix2 n d)

theorem lab0_eq (c : Dev nD) : Reg0.lab0 (V1 m ρ) c = lab m c := funext fun n => HostK.V1_lab m ρ c n

theorem lab1_eq (c : Dev nD) : Reg1.lab1 (V9 m ρ) c = lab m c := funext fun n => HostK.V9_lab m ρ c n

/-- The second region finds the unit rows. -/
theorem A1_eq (c : Dev nD) : Reg1.A1 (V9 m ρ) c = Spec.fn (X m c) := by
  funext n d
  have e : (V9 m ρ c main_v2_2 : S65536x256.Idx → EReal) (ix2 n d)
      = ((dat0 (F := Ideal) (V1 m ρ) c).arrAt 4 cfg0.N : S65536x256.Idx → EReal) (ix2 n d) :=
    congrFun (HostK.V9_fn m ρ c) (ix2 n d)
  show (V9 m ρ c main_v2_2 : S65536x256.Idx → EReal) (ix2 n d) = _
  rw [e, Reg0.fn_out, X0_eq]

/-- The host's class sums from the two slabs are the specification's. -/
theorem sumsK_eq (c : Dev nD) (hX : ∀ n d, Spec.IsR (X m c n d)) :
    HostMid.sumsK m ρ c = Spec.sumsArr (X m c) (lab m c) := by
  funext i
  have hfn : ∀ n d, Spec.IsR (Spec.fn (Reg0.X0 (V1 m ρ) c) n d) := by
    rw [X0_eq]; exact Spec.fn_real _ hX
  have e0 := Reg0.sums_out (V1 m ρ) c hfn 0 (i 0) (i 1)
  have e1 := Reg0.sums_out (V1 m ρ) c hfn 1 (i 0) (i 1)
  rw [X0_eq, lab0_eq] at e0 e1
  show Spec.zeroLit + (HostMid.slabS m ρ c (ix3 0 (i 0) (i 1)) + HostMid.slabS m ρ c (ix3 1 (i 0) (i 1))) = _
  rw [show HostMid.slabS m ρ c (ix3 0 (i 0) (i 1)) = _ from e0, show HostMid.slabS m ρ c (ix3 1 (i 0) (i 1)) = _ from e1,
    Spec.zeroLit_eq, zero_add]
  unfold Spec.sumsArr Spec.sums
  rw [← Spec.sum_rows0 (fun n => if lab m c n = BitVec.ofNat 32 (i 0).val then Spec.fn (X m c) n (i 1) else 0),
    Fin.sum_univ_two]

/-- The host's flags from the two count slabs are the specification's. -/
theorem flagsK_eq (c : Dev nD) : HostMid.flagsK m ρ c = Spec.flagArr (lab m c) := by
  funext i
  have e0 := Reg0.cnt_out (V1 m ρ) c 0 (i 0)
  have e1 := Reg0.cnt_out (V1 m ρ) c 1 (i 0)
  rw [lab0_eq] at e0 e1
  have hc : HostMid.cntK m ρ c (i 0) = Spec.cnt (lab m c) (i 0) := by
    show Spec.zeroLit + (HostMid.slabC m ρ c (ix3 0 (i 0) 0) + HostMid.slabC m ρ c (ix3 1 (i 0) 0)) = _
    rw [show HostMid.slabC m ρ c (ix3 0 (i 0) 0) = _ from e0, show HostMid.slabC m ρ c (ix3 1 (i 0) 0) = _ from e1,
      Spec.zeroLit_eq, zero_add]
    unfold Spec.cnt
    rw [← Spec.sum_rows0 (fun n => if lab m c n = BitVec.ofNat 32 (i 0).val then (1 : EReal) else 0), Fin.sum_univ_two]
  show FloatOps.uitofp (F := Ideal) .f32 (FloatOps.cmpf (F := Ideal) (φ := .f32) .ogt (HostMid.cntK m ρ c (i 0)) Spec.zeroLit) = _
  rw [hc]
  rfl

/-- The second region finds the 2000 centres: the updated class centres, then the source centres. -/
theorem Mo1_eq (hf : Spec.NMFacts) (c : Dev nD) (hX : ∀ n d, Spec.IsR (X m c n d)) :
    Reg1.Mo1 (V9 m ρ) c = Spec.memo (Spec.newMem hf (Spec.sumsArr (X m c) (lab m c)) (Spec.flagArr (lab m c)) (mem m c)) (src m c) := by
  funext j d
  show (V9 m ρ c main_v38 : S256x2048.Idx → EReal) (ix2 d ⟨j.val, _⟩) = _
  rw [HostMid.V9_memoT m ρ hf c d j, sumsK_eq m ρ c hX, flagsK_eq]
  rfl

/-- The kernel's result. -/
theorem kernel_value (hf : Spec.NMFacts) (c : Dev nD) (hX : ∀ n d, Spec.IsR (X m c n d))
    (hl : ∀ n, (lab m c n).toNat < 2000) :
    (W11 m ρ c (Proc.devRef .tc main_v41) : S_.Idx → EReal) ix0
      = Spec.kerLoss (Spec.logits hf (X m c) (lab m c) (mem m c) (src m c)) (lab m c) hl := by
  have hl1 : ∀ n, (Reg1.lab1 (V9 m ρ) c n).toNat < 2000 := by rw [lab1_eq]; exact hl
  have hL : Spec.logitOf (Reg1.A1 (V9 m ρ) c) (Reg1.Mo1 (V9 m ρ) c)
      = Spec.logits hf (X m c) (lab m c) (mem m c) (src m c) := by
    rw [A1_eq, Mo1_eq m ρ hf c hX]; rfl
  have e0 := Reg1.loss_out (V9 m ρ) c hl1 0
  have e1 := Reg1.loss_out (V9 m ρ) c hl1 1
  rw [HostK.tail, show HostK.lossC m ρ c (ix3 0 0 0) = _ from e0, show HostK.lossC m ρ c (ix3 1 0 0) = _ from e1,
    Spec.zeroLit_eq, zero_add]
  unfold Spec.kerLoss
  rw [← Spec.sum_rows1 (fun n => Spec.kerRow (Spec.logits hf (X m c) (lab m c) (mem m c) (src m c)) (lab m c) hl n),
    Fin.sum_univ_two]
  simp only [kerRow_congr hL (lab1_eq m ρ c) hl1 hl]

end Cert.KernelIdeal.KValue

end
-- ==== Proof.RefLogits.lean ====
import proofs.«429995_j90031104459201_3_alg».proof.Defs
import proofs.«429995_j90031104459201_3_alg».proof.Proof.ReadP
import proofs.«429995_j90031104459201_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefLogits

open Cert.ReferenceIdeal Cert.ReferenceIdeal.Gen Cert.ReferenceIdeal.ReadP

/- The reference up to its logits: the normalised rows, the per-class scatter sums and counts, the centre update and
   the matrix product, read index by index. -/

variable (x0 : (⟨S65536x256, .f32⟩ : BufTy).Contents (Elt Ideal)) (x1 : (⟨S65536, .i32⟩ : BufTy).Contents (Elt Ideal))
  (x2 x3 : (⟨S1000x256, .f32⟩ : BufTy).Contents (Elt Ideal))

/-- The arguments as the specification's index functions. -/
def X (x0 : (⟨S65536x256, .f32⟩ : BufTy).Contents (Elt Ideal)) : Spec.Feat := fun n d => (x0 : S65536x256.Idx → EReal) (ix2 n d)
def lab (x1 : (⟨S65536, .i32⟩ : BufTy).Contents (Elt Ideal)) : Spec.Lab := fun n => (x1 : S65536.Idx → BitVec 32) (ix1 n)
def src (x3 : (⟨S1000x256, .f32⟩ : BufTy).Contents (Elt Ideal)) : Spec.Cen := fun cl e => (x3 : S1000x256.Idx → EReal) (ix2 cl e)

/-- The normalised rows: row n over max (its norm) eps. -/
theorem v4_at (n : Fin 65536) (d : Fin 256) :
    (val_main_v4 (F := Ideal) x0 : S65536x256.Idx → EReal) (ix2 n d) = Spec.fn (X x0) n d := by
  have e3 : idx_main_v3 (ix2 n d) = ix2 n (0 : Fin 1) :=
    funext fun a => Fin.ext (by match a with | ⟨0, _⟩ => rfl | ⟨1, _⟩ => rfl)
  have e2 : idx_main_call0_v2 (ix2 n (0 : Fin 1)) = ix1 n :=
    funext fun a => Fin.ext (by match a with | ⟨0, _⟩ => rfl)
  have e1 : ∀ k : Fin 256, idx_main_call0_v1 (ix1 n) k = ix2 n k := fun k =>
    funext fun a => Fin.ext (by match a with | ⟨0, _⟩ => rfl | ⟨1, _⟩ => rfl)
  rw [val_main_v4_apply, val_main_v3_apply, e3, val_main_v2_apply, val_main_v0_apply, val_main_call0_v2_apply, e2,
    val_main_call0_v1_apply, val_main_v1_apply, val_main_cst_apply, val_main_call0_cst_apply]
  simp only [e1, val_main_call0_v0_apply, Ideal.hostDivf_def, Ideal.hostUnary_sqrt_def, Ideal.maximumf_def,
    Ideal.mulf_def, Ideal.ofBits_def, Ideal.ofBits_zero_f32, zero_add]
  rfl

/-! ### The scatter of the class sums -/

abbrev DS := scatter_S1000x256_S65536x1_S65536x256_1_0_0_1
abbrev DC := scatter_S1000_S65536x1_S65536_n_0_0_1

/-- A 32-bit word is the word of a small number exactly when that number is its value. -/
theorem bv_eq_ofNat (b : BitVec 32) (c : Nat) (hc : c < 2000) : b = BitVec.ofNat 32 c ↔ b.toNat = c := by
  constructor
  · rintro rfl
    rw [BitVec.toNat_ofNat]; omega
  · intro h
    apply BitVec.eq_of_toNat_eq
    rw [BitVec.toNat_ofNat, h]; omega

/-- A small word read signed is its value. -/
theorem bv_toInt (b : BitVec 32) (h : b.toNat < 2000) : b.toInt = (b.toNat : Int) :=
  BitVec.toInt_eq_toNat_of_lt (by omega)

theorem ds_siIdx (n : Fin 65536) (e : Fin 256) (c : Fin DS.scatterDimsToOperandDims.length) :
    DS.siIdx (ix2 n e) c = ix2 n (0 : Fin 1) := by
  funext b
  match b with
  | ⟨0, _⟩ => rfl
  | ⟨1, h1⟩ =>
    have hc : c.val < 1 := c.isLt
    refine Fin.ext ?_
    show (DS.siIdx (ix2 n e) c ⟨1, h1⟩).val = 0
    unfold ScatterDims.siIdx
    rw [dif_pos (show (⟨1, h1⟩ : Fin S65536x1.rank).val = DS.indexVectorDim from rfl)]
    show c.val = 0
    omega

theorem ds_start0 (idx : IVec S65536x1 32) (n : Fin 65536) (e : Fin 256) :
    DS.start (ix2 n e) idx 0 = (idx (ix2 n (0 : Fin 1))).toInt := by
  unfold ScatterDims.start
  rw [dif_pos (by decide)]
  rw [ds_siIdx]

theorem ds_start1 (idx : IVec S65536x1 32) (n : Fin 65536) (e : Fin 256) :
    DS.start (ix2 n e) idx 1 = 0 := by
  unfold ScatterDims.start
  rw [dif_neg (by decide)]

theorem ds_window0 (n : Fin 65536) (e : Fin 256) : DS.window (ix2 n e) 0 = 0 := by
  unfold ScatterDims.window
  rw [dif_neg (by decide)]

theorem ds_window1 (n : Fin 65536) (e : Fin 256) : DS.window (ix2 n e) 1 = e.val := by
  unfold ScatterDims.window
  rw [dif_pos (by decide)]
  rfl

/-- Update element (n, e) lands on (class, column) exactly when row n's label is the class and e the column. -/
theorem ds_result (idx : IVec S65536x1 32) (n : Fin 65536) (e : Fin 256) (c : Fin 1000) (dd : Fin 256)
    (hl : (idx (ix2 n (0 : Fin 1))).toNat < 2000) :
    DS.resultIdx? (ix2 n e) idx = some (ix2 c dd) ↔ (idx (ix2 n (0 : Fin 1)) = BitVec.ofNat 32 c.val ∧ e = dd) := by
  have hI := bv_toInt _ hl
  have hc := c.isLt
  have he := e.isLt
  rw [bv_eq_ofNat _ _ (by omega)]
  have s0 : DS.start (ix2 n e) idx 0 + DS.window (ix2 n e) 0 = ((idx (ix2 n (0 : Fin 1))).toNat : Int) := by
    rw [ds_start0, ds_window0, hI]; simp
  have s1 : DS.start (ix2 n e) idx 1 + DS.window (ix2 n e) 1 = (e.val : Int) := by
    rw [ds_start1, ds_window1]; simp
  unfold ScatterDims.resultIdx?
  split
  · next h =>
    rw [Option.some.injEq]
    constructor
    · intro hE
      have h0 : (DS.start (ix2 n e) idx 0 + DS.window (ix2 n e) 0).toNat = c.val := congrArg (fun f => (f 0).val) hE
      have h1 : (DS.start (ix2 n e) idx 1 + DS.window (ix2 n e) 1).toNat = dd.val := congrArg (fun f => (f 1).val) hE
      rw [s0] at h0; rw [s1] at h1
      exact ⟨by omega, Fin.ext (by omega)⟩
    · rintro ⟨h0, h1⟩
      funext a
      match a with
      | ⟨0, _⟩ =>
        refine Fin.ext ?_
        show (DS.start (ix2 n e) idx 0 + DS.window (ix2 n e) 0).toNat = c.val
        rw [s0]; omega
      | ⟨1, _⟩ =>
        refine Fin.ext ?_
        show (DS.start (ix2 n e) idx 1 + DS.window (ix2 n e) 1).toNat = dd.val
        rw [s1, h1]; omega
  · next h =>
    constructor
    · intro hE; cases hE
    · rintro ⟨h0, h1⟩
      refine absurd (fun a => ?_) h
      match a with
      | ⟨0, _⟩ =>
        show 0 ≤ DS.start (ix2 n e) idx 0 + DS.window (ix2 n e) 0 ∧ DS.start (ix2 n e) idx 0 + DS.window (ix2 n e) 0 < ((1000 : Nat) : Int)
        rw [s0]; omega
      | ⟨1, _⟩ =>
        show 0 ≤ DS.start (ix2 n e) idx 1 + DS.window (ix2 n e) 1 ∧ DS.start (ix2 n e) idx 1 + DS.window (ix2 n e) 1 < ((256 : Nat) : Int)
        rw [s1]; omega

theorem v5_at (i : S1000x256.Idx) : (val_main_v5 (F := Ideal) : S1000x256.Idx → EReal) i = 0 := by
  rw [val_main_v5_apply, val_main_cst_0_apply, Ideal.ofBits_def, Ideal.ofBits_zero_f32]

theorem v6_at (n : Fin 65536) :
    (val_main_v6 (F := Ideal) x1 : S65536x1.Idx → BitVec 32) (ix2 n (0 : Fin 1)) = lab x1 n := by
  rw [val_main_v6_apply]
  exact congrArg x1 (funext fun a => Fin.ext (by match a with | ⟨0, _⟩ => rfl))

/-- The scatter-add of the unit rows by label is the class sums. -/
theorem v7_eq (hl : ∀ n, (lab x1 n).toNat < 2000) :
    val_main_v7 (F := Ideal) x0 x1 = Spec.sumsArr (X x0) (lab x1) := by
  funext i
  obtain ⟨c, dd, rfl⟩ : ∃ (c : Fin 1000) (dd : Fin 256), i = ix2 c dd := ⟨i 0, i 1, eq_ix2 i⟩
  unfold val_main_v7
  have hidx := v6_at x1
  have hupd := v4_at x0
  have hx := v5_at
  generalize val_main_v6 (F := Ideal) x1 = idx at hidx ⊢
  generalize val_main_v4 (F := Ideal) x0 = upd at hupd ⊢
  generalize val_main_v5 (F := Ideal) = z at hx ⊢
  simp only [Host.scatterAdd, Ideal.hostScatterAdd_def, Ideal.hostScatterAdd]
  rw [hx, zero_add, Finset.sum_filter, sum_idx2]
  show _ = Spec.sums (X x0) (lab x1) c dd
  unfold Spec.sums
  refine Finset.sum_congr rfl fun n _ => ?_
  have hn := hl n
  rw [← hidx n] at hn
  rw [Finset.sum_congr rfl fun e _ => if_congr (ds_result idx n e c dd hn) rfl rfl, hidx n]
  by_cases hc : lab x1 n = BitVec.ofNat 32 c.val
  · rw [if_pos hc]
    simp only [hc, true_and]
    rw [Finset.sum_ite_eq' Finset.univ dd (fun e => upd (ix2 n e)), if_pos (Finset.mem_univ dd), hupd]
  · rw [if_neg hc]
    exact Finset.sum_eq_zero fun e _ => if_neg fun h => hc h.1

/-! ### The scatter of the class counts -/

/-- A rank-1 index set is its coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

theorem dc_siIdx (n : Fin 65536) (c : Fin DC.scatterDimsToOperandDims.length) :
    DC.siIdx (ix1 n) c = ix2 n (0 : Fin 1) := by
  funext b
  match b with
  | ⟨0, _⟩ => rfl
  | ⟨1, h1⟩ =>
    have hc : c.val < 1 := c.isLt
    refine Fin.ext ?_
    show (DC.siIdx (ix1 n) c ⟨1, h1⟩).val = 0
    unfold ScatterDims.siIdx
    rw [dif_pos (show (⟨1, h1⟩ : Fin S65536x1.rank).val = DC.indexVectorDim from rfl)]
    show c.val = 0
    omega

theorem dc_start0 (idx : IVec S65536x1 32) (n : Fin 65536) :
    DC.start (ix1 n) idx 0 = (idx (ix2 n (0 : Fin 1))).toInt := by
  unfold ScatterDims.start
  rw [dif_pos (by decide)]
  rw [dc_siIdx]

theorem dc_window0 (n : Fin 65536) : DC.window (ix1 n) 0 = 0 := by
  unfold ScatterDims.window
  rw [dif_neg (by decide)]

/-- Update element n lands on a class exactly when row n's label is the class. -/
theorem dc_result (idx : IVec S65536x1 32) (n : Fin 65536) (c : Fin 1000)
    (hl : (idx (ix2 n (0 : Fin 1))).toNat < 2000) :
    DC.resultIdx? (ix1 n) idx = some (ix1 c) ↔ idx (ix2 n (0 : Fin 1)) = BitVec.ofNat 32 c.val := by
  have hI := bv_toInt _ hl
  have hc := c.isLt
  rw [bv_eq_ofNat _ _ (by omega)]
  have s0 : DC.start (ix1 n) idx 0 + DC.window (ix1 n) 0 = ((idx (ix2 n (0 : Fin 1))).toNat : Int) := by
    rw [dc_start0, dc_window0, hI]; simp
  unfold ScatterDims.resultIdx?
  split
  · next h =>
    rw [Option.some.injEq]
    constructor
    · intro hE
      have h0 : (DC.start (ix1 n) idx 0 + DC.window (ix1 n) 0).toNat = c.val := congrArg (fun f => (f 0).val) hE
      rw [s0] at h0
      omega
    · intro h0
      funext a
      match a with
      | ⟨0, _⟩ =>
        refine Fin.ext ?_
        show (DC.start (ix1 n) idx 0 + DC.window (ix1 n) 0).toNat = c.val
        rw [s0]; omega
  · next h =>
    constructor
    · intro hE; cases hE
    · intro h0
      refine absurd (fun a => ?_) h
      match a with
      | ⟨0, _⟩ =>
        show 0 ≤ DC.start (ix1 n) idx 0 + DC.window (ix1 n) 0 ∧ DC.start (ix1 n) idx 0 + DC.window (ix1 n) 0 < ((1000 : Nat) : Int)
        rw [s0]; omega

theorem one_lit : Spec.oneLit = 1 := by
  simp [Ideal.ofBits, Ideal.ieee, -EReal.coe_mul]
  try norm_num

theorem v9_at (i : S1000.Idx) : (val_main_v9 (F := Ideal) : S1000.Idx → EReal) i = 0 := by
  rw [val_main_v9_apply, val_main_cst_2_apply, Ideal.ofBits_def, Ideal.ofBits_zero_f32]

theorem v8_at (i : S65536.Idx) : (val_main_v8 (F := Ideal) : S65536.Idx → EReal) i = 1 := by
  rw [val_main_v8_apply, val_main_cst_1_apply, Ideal.ofBits_def]
  exact one_lit

theorem v10_at (n : Fin 65536) :
    (val_main_v10 (F := Ideal) x1 : S65536x1.Idx → BitVec 32) (ix2 n (0 : Fin 1)) = lab x1 n := by
  rw [val_main_v10_apply]
  exact congrArg x1 (funext fun a => Fin.ext (by match a with | ⟨0, _⟩ => rfl))

/-- The scatter-add of ones by label is the class counts. -/
theorem v11_at (hl : ∀ n, (lab x1 n).toNat < 2000) (c : Fin 1000) :
    (val_main_v11 (F := Ideal) x1 : S1000.Idx → EReal) (ix1 c) = Spec.cnt (lab x1) c := by
  unfold val_main_v11
  have hidx := v10_at x1
  have hupd := v8_at
  have hx := v9_at
  generalize val_main_v10 (F := Ideal) x1 = idx at hidx ⊢
  generalize val_main_v8 (F := Ideal) = upd at hupd ⊢
  generalize val_main_v9 (F := Ideal) = z at hx ⊢
  simp only [Host.scatterAdd, Ideal.hostScatterAdd_def, Ideal.hostScatterAdd]
  rw [hx, zero_add, Finset.sum_filter, sum_idx1]
  unfold Spec.cnt
  refine Finset.sum_congr rfl fun n _ => ?_
  have hn := hl n
  rw [← hidx n] at hn
  rw [if_congr (dc_result idx n c hn) rfl rfl, hidx n, hupd]

/-- The comparison of the counts against zero, as a column of floats, is the flags. -/
theorem v15_eq (hl : ∀ n, (lab x1 n).toNat < 2000) :
    val_main_v15 (F := Ideal) x1 = Spec.flagArr (lab x1) := by
  funext i
  obtain ⟨c, z, rfl⟩ : ∃ (c : Fin 1000) (z : Fin 1), i = ix2 c z := ⟨i 0, i 1, eq_ix2 i⟩
  have e15 : idx_main_v15 (ix2 c z) = ix1 c := funext fun a => Fin.ext (by match a with | ⟨0, _⟩ => rfl)
  rw [val_main_v15_apply, e15, val_main_v14_apply, val_main_v13_apply, v11_at x1 hl, val_main_v12_apply,
    val_main_cst_3_apply, Ideal.ofBits_def]
  rfl

/-! ### The centre update -/

/-- The reference's centre update is, operation for operation, the specification's array function of the class sums,
    the flags and the old centres. -/
theorem v42_eq (hf : Spec.NMFacts) :
    val_main_v42 (F := Ideal) x0 x1 x2
      = Spec.newMem hf (val_main_v7 (F := Ideal) x0 x1) (val_main_v15 (F := Ideal) x1) x2 := by
  unfold val_main_v42 val_main_v41 val_main_v40 val_main_v39 val_main_cst_9 val_main_v38 val_main_call2_v2
    val_main_call2_v1 val_main_call2_cst val_main_call2_v0 val_main_v37 val_main_v36 val_main_v35 val_main_v34
    val_main_v33 val_main_cst_8 val_main_v32 val_main_v31 val_main_v30 val_main_v29 val_main_cst_7 val_main_v28
    val_main_v27 val_main_v26 val_main_cst_6 val_main_v25 val_main_v24 val_main_cst_5 val_main_v23 val_main_v22
    val_main_v21 val_main_v20 val_main_v19 val_main_v18 val_main_v17 val_main_cst_4 val_main_v16 val_main_call1_v2
    val_main_call1_v1 val_main_call1_cst val_main_call1_v0
  generalize val_main_v7 (F := Ideal) x0 x1 = s
  generalize val_main_v15 (F := Ideal) x1 = fl
  rfl

/-! ### The 2000 centres, their transpose and the matrix product -/

/-- Row j of the concatenation: the updated class centres when j < 1000, else the source centres at j - 1000. -/
theorem v43_at (hf : Spec.NMFacts) (hl : ∀ n, (lab x1 n).toNat < 2000) (j : Fin 2000) (d : Fin 256) :
    (val_main_v43 (F := Ideal) x0 x1 x2 x3 : S2000x256.Idx → EReal) (ix2 j d)
      = Spec.memo (Spec.newMem hf (Spec.sumsArr (X x0) (lab x1)) (Spec.flagArr (lab x1)) x2) (src x3) j d := by
  unfold val_main_v43
  rw [v42_eq x0 x1 x2 hf, v7_eq x0 x1 hl, v15_eq x1 hl]
  generalize Spec.newMem hf (Spec.sumsArr (X x0) (lab x1)) (Spec.flagArr (lab x1)) x2 = nm
  unfold Spec.memo
  by_cases h : j.val < 1000
  · rw [dif_pos h]
    exact concatenate_pair_apply_left (0 : Fin S2000x256.rank) nm x3 concatenates_S1000x256_S1000x256_S2000x256_d0
      (ix2 j d) rfl (ix2 ⟨j.val, h⟩ d) (fun b => match b with | ⟨0, _⟩ => rfl | ⟨1, _⟩ => rfl)
  · rw [dif_neg h]
    have hj := j.isLt
    exact concatenate_pair_apply_right (0 : Fin S2000x256.rank) nm x3 concatenates_S1000x256_S1000x256_S2000x256_d0
      (ix2 j d) rfl rfl (ix2 ⟨j.val - 1000, by omega⟩ d)
      (fun b hb => match b, hb with | ⟨0, _⟩, hb => absurd rfl hb | ⟨1, _⟩, _ => rfl)
      (by show (j.val - 1000) + 1000 = j.val; omega)

/-- The reference's logits are the specification's (labels in [0, 2000) read signed are their unsigned values; a label
    of 1000 or more lands outside the 1000 classes and is dropped by the scatter). -/
theorem logits_eq (hf : Spec.NMFacts) (hl : ∀ n, (lab x1 n).toNat < 2000) (n : Fin 65536) (j : Fin 2000) :
    (val_main_v47 (F := Ideal) x0 x1 x2 x3 : S65536x2000.Idx → EReal) (ix2 n j)
      = Spec.logits hf (X x0) (lab x1) x2 (src x3) n j := by
  have el : ∀ k : Fin 256, lidx_main_v45 (ix2 n j) k = ix2 n k := fun k =>
    funext fun a => Fin.ext (by match a with | ⟨0, _⟩ => rfl | ⟨1, _⟩ => rfl)
  have er : ∀ k : Fin 256, ridx_main_v45 (ix2 n j) k = ix2 k j := fun k =>
    funext fun a => Fin.ext (by match a with | ⟨0, _⟩ => rfl | ⟨1, _⟩ => rfl)
  have e44 : ∀ k : Fin 256, idx_main_v44 (ix2 k j) = ix2 j k := fun k =>
    funext fun a => Fin.ext (by match a with | ⟨0, _⟩ => rfl | ⟨1, _⟩ => rfl)
  rw [val_main_v47_apply, val_main_v45_apply, val_main_v46_apply, val_main_cst_10_apply, Ideal.hostDivf_def,
    Ideal.ofBits_def]
  unfold Spec.logits Spec.logitOf
  refine congrArg (fun s => Ideal.div s Spec.oneLit) (Finset.sum_congr rfl fun k _ => ?_)
  rw [el, er, val_main_v44_apply, e44, v4_at, v43_at x0 x1 x2 x3 hf hl]

end Cert.ReferenceIdeal.RefLogits

end
-- ==== Proof.RefLoss.lean ====
import proofs.«429995_j90031104459201_3_alg».proof.Defs
import proofs.«429995_j90031104459201_3_alg».proof.Proof.ReadP
import proofs.«429995_j90031104459201_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefLoss

open Cert.ReferenceIdeal Cert.ReferenceIdeal.Gen Cert.ReferenceIdeal.ReadP

/-! ## The row maximum: a left fold of max from minus infinity is the supremum -/

/-- The word of minus infinity denotes the least extended real. -/
theorem ofBits_neg_inf : Ideal.ofBits .f32 0xFF800000#32 = (⊥ : EReal) := by
  simp [Ideal.ofBits, Ideal.ieee]

/-- The word of plus zero denotes zero. -/
theorem ofBits_zero : Ideal.ofBits .f32 0x00000000#32 = (0 : EReal) := by
  simp [Ideal.ofBits, Ideal.ieee]

/-- Row n with column k put back on the reduced axis is the index (n, k). -/
theorem lift_row (h : S65536x2000.Reduces [1] S65536) (n : Fin 65536) (k : Fin (S65536x2000.size 1)) :
    h.lift (ix1 n) k = ix2 n (⟨k.val, k.isLt⟩ : Fin 2000) := by
  funext c; apply Fin.ext
  match c with
  | ⟨0, _⟩ => rfl
  | ⟨1, _⟩ => rfl

/-- The reduce with a maximum body over the columns, started from an initial value that is minus infinity, is at
    row n the supremum of the row's entries. -/
theorem hostReduce_max_row (y : FVec Ideal S65536x2000 .f32) (init : FVec Ideal S_ .f32)
    (h' : S65536x2000.ReducesTo [1] S65536) (hu : 0 < S_.numel) (hinit : init (Shape.Idx.first hu) = (⊥ : EReal))
    (n : Fin 65536) :
    Host.reduce FloatOps.maximumf y init h' hu (ix1 n) = Finset.univ.sup fun j : Fin 2000 => y (ix2 n j) := by
  have h : S65536x2000.Reduces [1] S65536 := by decide
  rw [Host.reduce_eq_fold_single FloatOps.maximumf y init h' h hu, hinit]
  have hf : (y ∘ h.lift (ix1 n)) = fun k : Fin 2000 => y (ix2 n k) := funext fun k => congrArg y (lift_row h n k)
  exact congrArg (fun f => Finset.fold max (⊥ : EReal) f (Finset.univ : Finset (Fin 2000))) hf

/-! ## The gather of one entry per row -/

/-- The dimension numbers of the gather that takes one entry per row: the rows are a batching axis, the start index
    names the column, the slice is one entry. -/
abbrev gd : GatherDims S65536x2000 S65536x1x1 S65536x1 := gather_S65536x2000_S65536x1x1_S65536x1_n_1_0_0_1_2_11

/-- The gather that takes, on each row, the entry at that row's start index: the row's entry at the start index read
    signed and clamped into the columns. -/
theorem gather_row {α : Type} (y : S65536x2000.Idx → α) (idx : IVec S65536x1x1 32) (n : Fin 65536) :
    Host.gather gd y idx (ix2 n (0 : Fin 1))
      = y (ix2 n (⟨min (idx (ix3 n (0 : Fin 1) (0 : Fin 1))).toInt.toNat 1999, by omega⟩ : Fin 2000)) := by
  unfold Host.gather
  congr 1
  funext a
  refine Fin.ext ?_
  match a with
  | ⟨0, _⟩ =>
    show gd.start (ix2 n (0 : Fin 1)) idx 0 + gd.batchCoord (ix2 n (0 : Fin 1)) 0 + gd.offCoord (ix2 n (0 : Fin 1)) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S65536x2000.rank) ∈ gd.operandBatchingDims from List.mem_singleton.mpr rfl)]
    rfl
  | ⟨1, _⟩ =>
    show gd.start (ix2 n (0 : Fin 1)) idx 1 + gd.batchCoord (ix2 n (0 : Fin 1)) 1 + gd.offCoord (ix2 n (0 : Fin 1)) 1
        = min (idx (ix3 n (0 : Fin 1) (0 : Fin 1))).toInt.toNat 1999
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin S65536x2000.rank) ∈ gd.startIndexMap from List.mem_singleton.mpr rfl)]
    have hsi : gd.siIdx (ix2 n (0 : Fin 1)) ⟨List.idxOf (1 : Fin S65536x2000.rank) gd.startIndexMap,
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/- The reference from its logits to its result: the log-softmax, the logit picked at each row's label, the mean and
   the sign. -/

variable (x0 : (⟨S65536x256, .f32⟩ : BufTy).Contents (Elt Ideal)) (x1 : (⟨S65536, .i32⟩ : BufTy).Contents (Elt Ideal))
  (x2 x3 : (⟨S1000x256, .f32⟩ : BufTy).Contents (Elt Ideal))

/-- The reference's logits and labels as the specification's index functions. -/
def Lg (x0 : (⟨S65536x256, .f32⟩ : BufTy).Contents (Elt Ideal)) (x1 : (⟨S65536, .i32⟩ : BufTy).Contents (Elt Ideal))
    (x2 x3 : (⟨S1000x256, .f32⟩ : BufTy).Contents (Elt Ideal)) : Spec.Logits :=
  fun n j => (val_main_v47 (F := Ideal) x0 x1 x2 x3 : S65536x2000.Idx → EReal) (ix2 n j)
def lab (x1 : (⟨S65536, .i32⟩ : BufTy).Contents (Elt Ideal)) : Spec.Lab := fun n => (x1 : S65536.Idx → BitVec 32) (ix1 n)

/-! ## The log-softmax, entry by entry -/

/-- The index maps of the broadcasts, at explicit coordinates. -/
theorem idx_bc_col (n : Fin 65536) (j : Fin 2000) : idx_main_call3_v4 (ix2 n j) = ix2 n (0 : Fin 1) := by
  funext a; match a with | ⟨0, _⟩ => rfl | ⟨1, _⟩ => rfl
theorem idx_bc_row (n : Fin 65536) : idx_main_call3_v3 (ix2 n (0 : Fin 1)) = ix1 n := by
  funext a; match a with | ⟨0, _⟩ => rfl
theorem idx_sum_row (n : Fin 65536) (k : Fin 2000) : idx_main_call3_v7 (ix1 n) k = ix2 n k := by
  funext a; match a with | ⟨0, _⟩ => rfl | ⟨1, _⟩ => rfl

/-- The maximum the log-softmax subtracts is the supremum of the row. -/
theorem v2_eq (n : Fin 65536) :
    (val_main_call3_v2 (F := Ideal) x0 x1 x2 x3 : S65536.Idx → EReal) (ix1 n) = Spec.rowMax (Lg x0 x1 x2 x3) n := by
  rw [val_main_call3_v2_apply, val_main_call3_v1_apply, val_main_call3_cst_0_apply, Ideal.maximumf_def, Ideal.ofBits_def,
    ofBits_neg_inf, max_bot_left]
  unfold val_main_call3_v0
  exact hostReduce_max_row _ _ _ _ (by rw [val_main_call3_cst_apply, Ideal.ofBits_def, ofBits_neg_inf]) n

/-- The shifted logit. -/
theorem v5_eq (n : Fin 65536) (j : Fin 2000) :
    (val_main_call3_v5 (F := Ideal) x0 x1 x2 x3 : S65536x2000.Idx → EReal) (ix2 n j)
      = Lg x0 x1 x2 x3 n j - Spec.rowMax (Lg x0 x1 x2 x3) n := by
  rw [val_main_call3_v5_apply, val_main_call3_v4_apply, idx_bc_col, val_main_call3_v3_apply, idx_bc_row, v2_eq,
    Ideal.subf_def]
  rfl

/-- The sum of the shifted exponentials. -/
theorem v7_eq (n : Fin 65536) :
    (val_main_call3_v7 (F := Ideal) x0 x1 x2 x3 : S65536.Idx → EReal) (ix1 n) = Spec.lseSum (Lg x0 x1 x2 x3) n := by
  rw [val_main_call3_v7_apply, val_main_call3_cst_1_apply, Ideal.ofBits_def, ofBits_zero, zero_add]
  unfold Spec.lseSum
  refine Finset.sum_congr rfl fun k _ => ?_
  rw [idx_sum_row, val_main_call3_v6_apply, v5_eq, Ideal.hostUnary_exp_def]

/-- The log-softmax at (n, j): the shifted logit minus the logarithm of the sum. -/
theorem v48_eq (n : Fin 65536) (j : Fin 2000) :
    (val_main_v48 (F := Ideal) x0 x1 x2 x3 : S65536x2000.Idx → EReal) (ix2 n j)
      = (Lg x0 x1 x2 x3 n j - Spec.rowMax (Lg x0 x1 x2 x3) n) - Ideal.log (Spec.lseSum (Lg x0 x1 x2 x3) n) := by
  rw [val_main_v48_apply, v5_eq, val_main_call3_v10_apply]
  rw [show idx_main_call3_v10 (ix2 n j) = ix2 n (0 : Fin 1) from idx_bc_col n j]
  rw [val_main_call3_v9_apply, val_main_call3_v8_apply]
  rw [show idx_main_call3_v8 (ix2 n (0 : Fin 1)) = ix1 n from idx_bc_row n]
  rw [v7_eq, Ideal.hostUnary_log_def, Ideal.subf_def]

/-! ## The label's range tests -/

/-- A 32-bit word below 2000 as an unsigned number is that number as a signed one. -/
theorem toInt_small (l : BitVec 32) (h : l.toNat < 2000) : l.toInt = (l.toNat : Int) := by
  rw [BitVec.toInt_eq_toNat_cond, if_pos (by omega)]

theorem cmp_slt_zero (l : BitVec 32) (h : l.toNat < 2000) : IntOp.cmpi .slt l 0#32 = 0#1 := by
  show BitVec.ofBool (decide (l.toInt < (0#32 : BitVec 32).toInt)) = 0#1
  rw [toInt_small l h, show (0#32 : BitVec 32).toInt = 0 from rfl, decide_eq_false (by omega)]
  rfl

theorem cmp_sge_zero (l : BitVec 32) (h : l.toNat < 2000) : IntOp.cmpi .sge l 0#32 = 1#1 := by
  show BitVec.ofBool (decide ((0#32 : BitVec 32).toInt ≤ l.toInt)) = 1#1
  rw [toInt_small l h, show (0#32 : BitVec 32).toInt = 0 from rfl, decide_eq_true (by omega)]
  rfl

theorem cmp_sle_top (l : BitVec 32) (h : l.toNat < 2000) : IntOp.cmpi .sle l 1999#32 = 1#1 := by
  show BitVec.ofBool (decide (l.toInt ≤ (1999#32 : BitVec 32).toInt)) = 1#1
  rw [toInt_small l h, show (1999#32 : BitVec 32).toInt = 1999 from rfl, decide_eq_true (by omega)]
  rfl

/-- The start index, read signed and clamped into the columns, is the label. -/
theorem clamp_small (l : BitVec 32) (h : l.toNat < 2000) : min l.toInt.toNat 1999 = l.toNat := by
  rw [toInt_small l h, Int.toNat_natCast]; omega

theorem idx_lab (n : Fin 65536) : idx_main_v49 (ix2 n (0 : Fin 1)) = ix1 n := by
  funext a; match a with | ⟨0, _⟩ => rfl
theorem idx_reshape (n : Fin 65536) : idx_main_call4_v5 (ix3 n (0 : Fin 1) (0 : Fin 1)) = ix2 n (0 : Fin 1) := by
  funext a
  match a with
  | ⟨0, _⟩ => exact Fin.ext (by show ((n.val * 1 + 0) * 1 + 0) / 1 = n.val; omega)
  | ⟨1, _⟩ => rfl

/-- The labels as a column. -/
theorem v49_eq (n : Fin 65536) :
    (val_main_v49 (F := Ideal) x1 : S65536x1.Idx → BitVec 32) (ix2 n (0 : Fin 1)) = lab x1 n := by
  rw [val_main_v49_apply, idx_lab]; rfl

/-- A label in range is not wrapped. -/
theorem v4i_eq (n : Fin 65536) (hl : (lab x1 n).toNat < 2000) :
    (val_main_call4_v4 (F := Ideal) x1 : S65536x1.Idx → BitVec 32) (ix2 n (0 : Fin 1)) = lab x1 n := by
  rw [val_main_call4_v4_apply, val_main_call4_v1_apply, v49_eq, val_main_call4_v0_apply, val_main_call4_c_apply,
    cmp_slt_zero _ hl, select_zero]

theorem v5i_eq (n : Fin 65536) (hl : (lab x1 n).toNat < 2000) :
    (val_main_call4_v5 (F := Ideal) x1 : S65536x1x1.Idx → BitVec 32) (ix3 n (0 : Fin 1) (0 : Fin 1)) = lab x1 n := by
  rw [val_main_call4_v5_apply, idx_reshape, v4i_eq x1 n hl]

/-- A label in range passes both range tests. -/
theorem v11_eq (n : Fin 65536) (hl : (lab x1 n).toNat < 2000) :
    (val_main_call4_v11 (F := Ideal) x1 : S65536x1x1.Idx → BitVec 1) (ix3 n (0 : Fin 1) (0 : Fin 1)) = 1#1 := by
  rw [val_main_call4_v11_apply, val_main_call4_v7_apply, val_main_call4_v10_apply, v5i_eq x1 n hl,
    val_main_call4_v6_apply, val_main_call4_c_2_apply, val_main_call4_v9_apply, val_main_call4_v8_apply,
    val_main_call4_c_1_apply, cmp_sge_zero _ hl, cmp_sle_top _ hl]
  rfl

theorem v11_all (hl : ∀ n, (lab x1 n).toNat < 2000) (i : S65536x1x1.Idx) :
    (val_main_call4_v11 (F := Ideal) x1 : S65536x1x1.Idx → BitVec 1) i = 1#1 := by
  obtain ⟨a, b, c, rfl⟩ : ∃ (a : Fin 65536) (b : Fin 1) (c : Fin 1), i = ix3 a b c := ⟨i 0, i 1, i 2, eq_ix3 i⟩
  obtain rfl : b = 0 := Subsingleton.elim _ _
  obtain rfl : c = 0 := Subsingleton.elim _ _
  exact v11_eq x1 a (hl a)

/-- A left fold of "and" from the bit 1 over bits that are all 1 is 1. -/
theorem foldl_andi_one {ι : Type} (l : List ι) (g : ι → BitVec 1) (hg : ∀ i, g i = 1#1) :
    l.foldl (fun r i => IntOp.andi r (g i)) 1#1 = 1#1 := by
  induction l with
  | nil => rfl
  | cons a l ih =>
    rw [List.foldl_cons, hg a, show IntOp.andi (1#1 : BitVec 1) 1#1 = 1#1 from by decide]
    exact ih

/-- With every label in range the gather's mask is 1 everywhere. -/
theorem v12_eq (hl : ∀ n, (lab x1 n).toNat < 2000) (i : S65536x1.Idx) :
    (val_main_call4_v12 (F := Ideal) x1 : S65536x1.Idx → BitVec 1) i = 1#1 := by
  unfold val_main_call4_v12
  unfold Host.reduce
  exact foldl_andi_one _ (fun m => (val_main_call4_v11 (F := Ideal) x1 : S65536x1x1.Idx → BitVec 1) (S65536x1x1.rowMajor.symm m))
    (fun m => v11_all x1 hl _)

/-! ## The picked entry, the mean and the sign -/

/-- What the gather picks on row n is the log-softmax at the row's label. -/
theorem v13_eq (n : Fin 65536) (hl : (lab x1 n).toNat < 2000) :
    (val_main_call4_v13 (F := Ideal) x0 x1 x2 x3 : S65536x1.Idx → EReal) (ix2 n (0 : Fin 1))
      = (val_main_v48 (F := Ideal) x0 x1 x2 x3 : S65536x2000.Idx → EReal) (ix2 n (Spec.labCol (lab x1) n hl)) := by
  unfold val_main_call4_v13
  refine (gather_row _ _ n).trans ?_
  refine congrArg (fun c : Fin 2000 => (val_main_v48 (F := Ideal) x0 x1 x2 x3 : S65536x2000.Idx → EReal) (ix2 n c)) (Fin.ext ?_)
  show min ((val_main_call4_v5 (F := Ideal) x1 : S65536x1x1.Idx → BitVec 32) (ix3 n (0 : Fin 1) (0 : Fin 1))).toInt.toNat 1999
    = (lab x1 n).toNat
  rw [v5i_eq x1 n hl]
  exact clamp_small _ hl

/-- With every label in range, row n of the selected column is the row's log-probability at its label. -/
theorem v50_eq (hl : ∀ n, (lab x1 n).toNat < 2000) (n : Fin 65536) :
    (val_main_v50 (F := Ideal) x0 x1 x2 x3 : S65536x1.Idx → EReal) (ix2 n (0 : Fin 1))
      = Spec.refRow (Lg x0 x1 x2 x3) (lab x1) hl n := by
  rw [val_main_v50_apply, v12_eq x1 hl, select_one, v13_eq x0 x1 x2 x3 n (hl n), v48_eq]
  rfl

/-- With every label in [0, 2000) the gather reads each row's own label column (no wrap, no fill), and the result is
    minus the mean of the rows' log-probabilities. -/
theorem loss_eq (hl : ∀ n, (lab x1 n).toNat < 2000) :
    (val_main_v53 (F := Ideal) x0 x1 x2 x3 : S_.Idx → EReal) ix0 = Spec.refLoss (Lg x0 x1 x2 x3) (lab x1) hl := by
  rw [val_main_v53_apply, val_main_v52_apply, val_main_v51_apply, val_main_cst_11_apply, val_main_cst_12_apply,
    Ideal.hostNegf_def, Ideal.negf_def, Ideal.hostDivf_def]
  simp only [Ideal.ofBits_def]
  rw [ofBits_zero, zero_add, sum_idx2]
  unfold Spec.refLoss
  refine congrArg (fun s : EReal => -(Ideal.div s Spec.nLit)) ?_
  refine Finset.sum_congr rfl fun n _ => ?_
  rw [Fin.sum_univ_one]
  exact v50_eq x0 x1 x2 x3 hl n

end Cert.ReferenceIdeal.RefLoss

end
-- ==== Proof.RValue.lean ====
import proofs.«429995_j90031104459201_3_alg».proof.Defs
import proofs.«429995_j90031104459201_3_alg».proof.Proof.RunP
import proofs.«429995_j90031104459201_3_alg».proof.Proof.RefLogits
import proofs.«429995_j90031104459201_3_alg».proof.Proof.RefLoss

set_option maxRecDepth 16384

noncomputable section

open Idealize.ShloMosaic Idealize.ShloMosaic.TcCoe Idealize.SL.Sem Idealize.ShloMosaic.ValueIdx

namespace Cert.ReferenceIdeal.RValue

open Cert.ReferenceIdeal Cert.ReferenceIdeal.Gen Cert.ReferenceIdeal.ReadP

/- The reference's result as a function of its arguments: minus the mean log-probability of each row's label under the
   softmax of the unit rows' logits against the updated and the source centres. -/

theorem ref_value (hf : Spec.NMFacts) (x0 : (⟨S65536x256, .f32⟩ : BufTy).Contents (Elt Ideal))
    (x1 : (⟨S65536, .i32⟩ : BufTy).Contents (Elt Ideal)) (x2 x3 : (⟨S1000x256, .f32⟩ : BufTy).Contents (Elt Ideal))
    (hl : ∀ n, (RefLogits.lab x1 n).toNat < 2000) :
    (val_main_v53 (F := Ideal) x0 x1 x2 x3 : S_.Idx → EReal) ix0
      = Spec.refLoss (Spec.logits hf (RefLogits.X x0) (RefLogits.lab x1) x2 (RefLogits.src x3)) (RefLogits.lab x1) hl := by
  have hL : RefLoss.Lg x0 x1 x2 x3 = Spec.logits hf (RefLogits.X x0) (RefLogits.lab x1) x2 (RefLogits.src x3) :=
    funext fun n => funext fun j => RefLogits.logits_eq x0 x1 x2 x3 hf hl n j
  rw [RefLoss.loss_eq x0 x1 x2 x3 hl, hL]
  rfl

end Cert.ReferenceIdeal.RValue

end
-- ==== Proof.RefStep.lean ====
/- Two facts about the fold of a straight line of host operations, for reading a long line in stretches.
   The fold over a concatenation of two lines is the fold over the second from the fold over the first.
   The fold over `op :: rest` from `V` is the fold over `rest` from any valuation equal to `op`'s result over `V`:
   stated so that the valuation after the step can be named and reasoned about on its own, a line is then read one
   operation at a time, each step a small statement about one operation, instead of as one composed term. -/
import Idealize.ShloMosaic.Lib.StableHlo.Run

namespace Cert.ReferenceIdeal.RefStep

open Idealize.ShloMosaic Idealize.ShloMosaic.StableHlo

variable {τ : Topo} {sig : RefSig} {Val : EltTy → Type}

/-- The fold over a concatenation of two lines is the fold over the second from the fold over the first. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- One operation of the fold, its result valuation named. -/
theorem after_step (op : HloOp τ sig Val) (rest : List (HloOp τ sig Val)) (V : Valuation τ sig Val)
    (b : DevRef τ sig) (R : b.ty.Contents Val)
    (h : ∀ W : Valuation τ sig Val, W = op.result V → after rest W b = R) :
    after (op :: rest) V b = R :=
  h _ rfl

end Cert.ReferenceIdeal.RefStep
-- ==== Proof.RefStages.lean ====
/- The reference's fold, cut at its one concatenation. For any valuation of the buffers, the fold of @main's 115
   operations holds at the result buffer the last stage of the read-back, of the valuation's contents at the four
   argument buffers. The operations before the concatenation are read in one pass at the buffers the rest reads;
   the concatenation is one step; the operations after it are read one at a time: each step names the valuation
   after one more operation, states the operation's own result as its stage (the operands read from the stages
   before it) and carries the stages that later operations still read. -/
import proofs.«429995_j90031104459201_3_alg».proof.Proof.RunP
import proofs.«429995_j90031104459201_3_alg».proof.Proof.ReadP
import proofs.«429995_j90031104459201_3_alg».proof.Proof.RefStep

noncomputable section

namespace Cert.ReferenceIdeal.RefStages

open Cert.ReferenceIdeal Cert.ReferenceIdeal.Gen Idealize.ShloMosaic Idealize.ShloMosaic.TcCoe Idealize.SL.Sem Idealize.ShloMosaic.StableHlo Cert.ReferenceIdeal.RefStep

variable {F : FTy → Type} [FloatOps F]

/-- The operations before the concatenation. -/
abbrev opsA : List (HloOp τ sig (Elt F)) :=
  [ TRef.binary (TRef.of (T := ⟨S65536x256, .f32⟩) main_arg0) (TRef.of (T := ⟨S65536x256, .f32⟩) main_arg0) (TRef.of (T := ⟨S65536x256, .f32⟩) main_call0_v0) mulf,
    TRef.nullary (TRef.of (T := ⟨S_, .f32⟩) main_call0_cst) (constant S_ .f32 0x00000000#32),
    TRef.binary (TRef.of (T := ⟨S65536x256, .f32⟩) main_call0_v0) (TRef.of (T := ⟨S_, .f32⟩) main_call0_cst) (TRef.of (T := ⟨S65536, .f32⟩) main_call0_v1) (fun x v => Host.reduceAdd x v reducesTo_S65536x256_S65536_d1 h_S_),
    TRef.unary (TRef.of (T := ⟨S65536, .f32⟩) main_call0_v1) (TRef.of (T := ⟨S65536x1, .f32⟩) main_call0_v2) (broadcastInDim S65536x1 ![0] bcast_S65536_S65536x1_0),
    TRef.unary (TRef.of (T := ⟨S65536x1, .f32⟩) main_call0_v2) (TRef.of (T := ⟨S65536x1, .f32⟩) main_v0) Host.sqrt,
    nullary main_cst (constant S_ .f32 0x2B8CBCCC#32),
    unary main_cst main_v1 (broadcastInDim S65536x1 ![] bcast_S_S65536x1 : (⟨S_, .f32⟩ : BufTy).Contents (Elt F) → (⟨S65536x1, .f32⟩ : BufTy).Contents (Elt F)),
    binary main_v0 main_v1 main_v2 (maximumf : (⟨S65536x1, .f32⟩ : BufTy).Contents (Elt F) → (⟨S65536x1, .f32⟩ : BufTy).Contents (Elt F) → (⟨S65536x1, .f32⟩ : BufTy).Contents (Elt F)),
    unary main_v2 main_v3 (broadcastInDim S65536x256 ![0, 1] bcast_S65536x1_S65536x256_0_1 : (⟨S65536x1, .f32⟩ : BufTy).Contents (Elt F) → (⟨S65536x256, .f32⟩ : BufTy).Contents (Elt F)),
    binary main_arg0 main_v3 main_v4 (Host.divf : (⟨S65536x256, .f32⟩ : BufTy).Contents (Elt F) → (⟨S65536x256, .f32⟩ : BufTy).Contents (Elt F) → (⟨S65536x256, .f32⟩ : BufTy).Contents (Elt F)),
    nullary main_cst_0 (constant S_ .f32 0x00000000#32),
    unary main_cst_0 main_v5 (broadcastInDim S1000x256 ![] bcast_S_S1000x256 : (⟨S_, .f32⟩ : BufTy).Contents (Elt F) → (⟨S1000x256, .f32⟩ : BufTy).Contents (Elt F)),
    unary main_arg1 main_v6 (broadcastInDim S65536x1 ![0] bcast_S65536_S65536x1_0 : (⟨S65536, .i32⟩ : BufTy).Contents (Elt F) → (⟨S65536x1, .i32⟩ : BufTy).Contents (Elt F)),
    ternary main_v5 main_v6 main_v4 main_v7 ((fun x i u => Host.scatterAdd scatter_S1000x256_S65536x1_S65536x256_1_0_0_1 x i u) : (⟨S1000x256, .f32⟩ : BufTy).Contents (Elt F) → (⟨S65536x1, .i32⟩ : BufTy).Contents (Elt F) → (⟨S65536x256, .f32⟩ : BufTy).Contents (Elt F) → (⟨S1000x256, .f32⟩ : BufTy).Contents (Elt F)),
    nullary main_cst_1 (constant S_ .f32 0x3F800000#32),
    unary main_cst_1 main_v8 (broadcastInDim S65536 ![] bcast_S_S65536 : (⟨S_, .f32⟩ : BufTy).Contents (Elt F) → (⟨S65536, .f32⟩ : BufTy).Contents (Elt F)),
    nullary main_cst_2 (constant S_ .f32 0x00000000#32),
    unary main_cst_2 main_v9 (broadcastInDim S1000 ![] bcast_S_S1000 : (⟨S_, .f32⟩ : BufTy).Contents (Elt F) → (⟨S1000, .f32⟩ : BufTy).Contents (Elt F)),
    unary main_arg1 main_v10 (broadcastInDim S65536x1 ![0] bcast_S65536_S65536x1_0 : (⟨S65536, .i32⟩ : BufTy).Contents (Elt F) → (⟨S65536x1, .i32⟩ : BufTy).Contents (Elt F)),
    ternary main_v9 main_v10 main_v8 main_v11 ((fun x i u => Host.scatterAdd scatter_S1000_S65536x1_S65536_n_0_0_1 x i u) : (⟨S1000, .f32⟩ : BufTy).Contents (Elt F) → (⟨S65536x1, .i32⟩ : BufTy).Contents (Elt F) → (⟨S65536, .f32⟩ : BufTy).Contents (Elt F) → (⟨S1000, .f32⟩ : BufTy).Contents (Elt F)),
    nullary main_cst_3 (constant S_ .f32 0x00000000#32),
    unary main_cst_3 main_v12 (broadcastInDim S1000 ![] bcast_S_S1000 : (⟨S_, .f32⟩ : BufTy).Contents (Elt F) → (⟨S1000, .f32⟩ : BufTy).Contents (Elt F)),
    binary main_v11 main_v12 main_v13 (cmpf .ogt : (⟨S1000, .f32⟩ : BufTy).Contents (Elt F) → (⟨S1000, .f32⟩ : BufTy).Contents (Elt F) → (⟨S1000, .i1⟩ : BufTy).Contents (Elt F)),
    unary main_v13 main_v14 (uitofp .f32 : (⟨S1000, .i1⟩ : BufTy).Contents (Elt F) → (⟨S1000, .f32⟩ : BufTy).Contents (Elt F)),
    unary main_v14 main_v15 (broadcastInDim S1000x1 ![0] bcast_S1000_S1000x1_0 : (⟨S1000, .f32⟩ : BufTy).Contents (Elt F) → (⟨S1000x1, .f32⟩ : BufTy).Contents (Elt F)),
    TRef.binary (TRef.of (T := ⟨S1000x256, .f32⟩) main_v7) (TRef.of (T := ⟨S1000x256, .f32⟩) main_v7) (TRef.of (T := ⟨S1000x256, .f32⟩) main_call1_v0) mulf,
    TRef.nullary (TRef.of (T := ⟨S_, .f32⟩) main_call1_cst) (constant S_ .f32 0x00000000#32),
    TRef.binary (TRef.of (T := ⟨S1000x256, .f32⟩) main_call1_v0) (TRef.of (T := ⟨S_, .f32⟩) main_call1_cst) (TRef.of (T := ⟨S1000, .f32⟩) main_call1_v1) (fun x v => Host.reduceAdd x v reducesTo_S1000x256_S1000_d1 h_S_),
    TRef.unary (TRef.of (T := ⟨S1000, .f32⟩) main_call1_v1) (TRef.of (T := ⟨S1000x1, .f32⟩) main_call1_v2) (broadcastInDim S1000x1 ![0] bcast_S1000_S1000x1_0),
    TRef.unary (TRef.of (T := ⟨S1000x1, .f32⟩) main_call1_v2) (TRef.of (T := ⟨S1000x1, .f32⟩) main_v16) Host.sqrt,
    nullary main_cst_4 (constant S_ .f32 0x2B8CBCCC#32),
    unary main_cst_4 main_v17 (broadcastInDim S1000x1 ![] bcast_S_S1000x1 : (⟨S_, .f32⟩ : BufTy).Contents (Elt F) → (⟨S1000x1, .f32⟩ : BufTy).Contents (Elt F)),
    binary main_v16 main_v17 main_v18 (maximumf : (⟨S1000x1, .f32⟩ : BufTy).Contents (Elt F) → (⟨S1000x1, .f32⟩ : BufTy).Contents (Elt F) → (⟨S1000x1, .f32⟩ : BufTy).Contents (Elt F)),
    unary main_v18 main_v19 (broadcastInDim S1000x256 ![0, 1] bcast_S1000x1_S1000x256_0_1 : (⟨S1000x1, .f32⟩ : BufTy).Contents (Elt F) → (⟨S1000x256, .f32⟩ : BufTy).Contents (Elt F)),
    binary main_v7 main_v19 main_v20 (Host.divf : (⟨S1000x256, .f32⟩ : BufTy).Contents (Elt F) → (⟨S1000x256, .f32⟩ : BufTy).Contents (Elt F) → (⟨S1000x256, .f32⟩ : BufTy).Contents (Elt F)),
    unary main_v15 main_v21 (broadcastInDim S1000x256 ![0, 1] bcast_S1000x1_S1000x256_0_1 : (⟨S1000x1, .f32⟩ : BufTy).Contents (Elt F) → (⟨S1000x256, .f32⟩ : BufTy).Contents (Elt F)),
    binary main_v20 main_v21 main_v22 (mulf : (⟨S1000x256, .f32⟩ : BufTy).Contents (Elt F) → (⟨S1000x256, .f32⟩ : BufTy).Contents (Elt F) → (⟨S1000x256, .f32⟩ : BufTy).Contents (Elt F)),
    binary main_arg2 main_v22 main_v23 (mulf : (⟨S1000x256, .f32⟩ : BufTy).Contents (Elt F) → (⟨S1000x256, .f32⟩ : BufTy).Contents (Elt F) → (⟨S1000x256, .f32⟩ : BufTy).Contents (Elt F)),
    nullary main_cst_5 (constant S_ .f32 0x00000000#32),
    binary main_v23 main_cst_5 main_v24 ((fun x v => Host.reduceAdd x v reducesTo_S1000x256_S1000_d1 h_S_) : (⟨S1000x256, .f32⟩ : BufTy).Contents (Elt F) → (⟨S_, .f32⟩ : BufTy).Contents (Elt F) → (⟨S1000, .f32⟩ : BufTy).Contents (Elt F)),
    unary main_v24 main_v25 (broadcastInDim S1000x1 ![0] bcast_S1000_S1000x1_0 : (⟨S1000, .f32⟩ : BufTy).Contents (Elt F) → (⟨S1000x1, .f32⟩ : BufTy).Contents (Elt F)),
    nullary main_cst_6 (constant S_ .f32 0x3F800000#32),
    unary main_cst_6 main_v26 (broadcastInDim S1000x1 ![] bcast_S_S1000x1 : (⟨S_, .f32⟩ : BufTy).Contents (Elt F) → (⟨S1000x1, .f32⟩ : BufTy).Contents (Elt F)),
    binary main_v26 main_v25 main_v27 (subf : (⟨S1000x1, .f32⟩ : BufTy).Contents (Elt F) → (⟨S1000x1, .f32⟩ : BufTy).Contents (Elt F) → (⟨S1000x1, .f32⟩ : BufTy).Contents (Elt F)),
    binary main_v27 main_v15 main_v28 (mulf : (⟨S1000x1, .f32⟩ : BufTy).Contents (Elt F) → (⟨S1000x1, .f32⟩ : BufTy).Contents (Elt F) → (⟨S1000x1, .f32⟩ : BufTy).Contents (Elt F)),
    nullary main_cst_7 (constant S_ .f32 0x3F800000#32),
    unary main_cst_7 main_v29 (broadcastInDim S1000x1 ![] bcast_S_S1000x1 : (⟨S_, .f32⟩ : BufTy).Contents (Elt F) → (⟨S1000x1, .f32⟩ : BufTy).Contents (Elt F)),
    binary main_v29 main_v28 main_v30 (subf : (⟨S1000x1, .f32⟩ : BufTy).Contents (Elt F) → (⟨S1000x1, .f32⟩ : BufTy).Contents (Elt F) → (⟨S1000x1, .f32⟩ : BufTy).Contents (Elt F)),
    unary main_v30 main_v31 (broadcastInDim S1000x256 ![0, 1] bcast_S1000x1_S1000x256_0_1 : (⟨S1000x1, .f32⟩ : BufTy).Contents (Elt F) → (⟨S1000x256, .f32⟩ : BufTy).Contents (Elt F)),
    binary main_v31 main_arg2 main_v32 (mulf : (⟨S1000x256, .f32⟩ : BufTy).Contents (Elt F) → (⟨S1000x256, .f32⟩ : BufTy).Contents (Elt F) → (⟨S1000x256, .f32⟩ : BufTy).Contents (Elt F)),
    nullary main_cst_8 (constant S_ .f32 0x3F800000#32),
    unary main_cst_8 main_v33 (broadcastInDim S1000x1 ![] bcast_S_S1000x1 : (⟨S_, .f32⟩ : BufTy).Contents (Elt F) → (⟨S1000x1, .f32⟩ : BufTy).Contents (Elt F)),
    binary main_v33 main_v30 main_v34 (subf : (⟨S1000x1, .f32⟩ : BufTy).Contents (Elt F) → (⟨S1000x1, .f32⟩ : BufTy).Contents (Elt F) → (⟨S1000x1, .f32⟩ : BufTy).Contents (Elt F)),
    unary main_v34 main_v35 (broadcastInDim S1000x256 ![0, 1] bcast_S1000x1_S1000x256_0_1 : (⟨S1000x1, .f32⟩ : BufTy).Contents (Elt F) → (⟨S1000x256, .f32⟩ : BufTy).Contents (Elt F)),
    binary main_v35 main_v22 main_v36 (mulf : (⟨S1000x256, .f32⟩ : BufTy).Contents (Elt F) → (⟨S1000x256, .f32⟩ : BufTy).Contents (Elt F) → (⟨S1000x256, .f32⟩ : BufTy).Contents (Elt F)),
    binary main_v32 main_v36 main_v37 (addf : (⟨S1000x256, .f32⟩ : BufTy).Contents (Elt F) → (⟨S1000x256, .f32⟩ : BufTy).Contents (Elt F) → (⟨S1000x256, .f32⟩ : BufTy).Contents (Elt F)),
    TRef.binary (TRef.of (T := ⟨S1000x256, .f32⟩) main_v37) (TRef.of (T := ⟨S1000x256, .f32⟩) main_v37) (TRef.of (T := ⟨S1000x256, .f32⟩) main_call2_v0) mulf,
    TRef.nullary (TRef.of (T := ⟨S_, .f32⟩) main_call2_cst) (constant S_ .f32 0x00000000#32),
    TRef.binary (TRef.of (T := ⟨S1000x256, .f32⟩) main_call2_v0) (TRef.of (T := ⟨S_, .f32⟩) main_call2_cst) (TRef.of (T := ⟨S1000, .f32⟩) main_call2_v1) (fun x v => Host.reduceAdd x v reducesTo_S1000x256_S1000_d1 h_S_),
    TRef.unary (TRef.of (T := ⟨S1000, .f32⟩) main_call2_v1) (TRef.of (T := ⟨S1000x1, .f32⟩) main_call2_v2) (broadcastInDim S1000x1 ![0] bcast_S1000_S1000x1_0),
    TRef.unary (TRef.of (T := ⟨S1000x1, .f32⟩) main_call2_v2) (TRef.of (T := ⟨S1000x1, .f32⟩) main_v38) Host.sqrt,
    nullary main_cst_9 (constant S_ .f32 0x2B8CBCCC#32),
    unary main_cst_9 main_v39 (broadcastInDim S1000x1 ![] bcast_S_S1000x1 : (⟨S_, .f32⟩ : BufTy).Contents (Elt F) → (⟨S1000x1, .f32⟩ : BufTy).Contents (Elt F)),
    binary main_v38 main_v39 main_v40 (maximumf : (⟨S1000x1, .f32⟩ : BufTy).Contents (Elt F) → (⟨S1000x1, .f32⟩ : BufTy).Contents (Elt F) → (⟨S1000x1, .f32⟩ : BufTy).Contents (Elt F)),
    unary main_v40 main_v41 (broadcastInDim S1000x256 ![0, 1] bcast_S1000x1_S1000x256_0_1 : (⟨S1000x1, .f32⟩ : BufTy).Contents (Elt F) → (⟨S1000x256, .f32⟩ : BufTy).Contents (Elt F)),
    binary main_v37 main_v41 main_v42 (Host.divf : (⟨S1000x256, .f32⟩ : BufTy).Contents (Elt F) → (⟨S1000x256, .f32⟩ : BufTy).Contents (Elt F) → (⟨S1000x256, .f32⟩ : BufTy).Contents (Elt F)) ]

/-- The concatenation. -/
abbrev opC : HloOp τ sig (Elt F) :=
  binary main_v42 main_arg3 main_v43 ((fun a b => concatenate S2000x256 0 [⟨S1000x256, a⟩, ⟨S1000x256, b⟩] concatenates_S1000x256_S1000x256_S2000x256_d0) : (⟨S1000x256, .f32⟩ : BufTy).Contents (Elt F) → (⟨S1000x256, .f32⟩ : BufTy).Contents (Elt F) → (⟨S2000x256, .f32⟩ : BufTy).Contents (Elt F))

/-- The operations after the concatenation. -/
abbrev opsB : List (HloOp τ sig (Elt F)) :=
  [ unary main_v43 main_v44 ((transpose S256x2000 [1, 0] · transposes_S2000x256_S256x2000_1_0) : (⟨S2000x256, .f32⟩ : BufTy).Contents (Elt F) → (⟨S256x2000, .f32⟩ : BufTy).Contents (Elt F)),
    binary main_v4 main_v44 main_v45 ((fun l r => Host.dotGeneral dot_S65536x256_S256x2000_S65536x2000_1_0_0_1_n_n none l r) : (⟨S65536x256, .f32⟩ : BufTy).Contents (Elt F) → (⟨S256x2000, .f32⟩ : BufTy).Contents (Elt F) → (⟨S65536x2000, .f32⟩ : BufTy).Contents (Elt F)),
    nullary main_cst_10 (constant S_ .f32 0x3F800000#32),
    unary main_cst_10 main_v46 (broadcastInDim S65536x2000 ![] bcast_S_S65536x2000 : (⟨S_, .f32⟩ : BufTy).Contents (Elt F) → (⟨S65536x2000, .f32⟩ : BufTy).Contents (Elt F)),
    binary main_v45 main_v46 main_v47 (Host.divf : (⟨S65536x2000, .f32⟩ : BufTy).Contents (Elt F) → (⟨S65536x2000, .f32⟩ : BufTy).Contents (Elt F) → (⟨S65536x2000, .f32⟩ : BufTy).Contents (Elt F)),
    TRef.nullary (TRef.of (T := ⟨S_, .f32⟩) main_call3_cst) (constant S_ .f32 0xFF800000#32),
    TRef.binary (TRef.of (T := ⟨S65536x2000, .f32⟩) main_v47) (TRef.of (T := ⟨S_, .f32⟩) main_call3_cst) (TRef.of (T := ⟨S65536, .f32⟩) main_call3_v0) (fun x v => Host.reduce FloatOps.maximumf x v reducesTo_S65536x2000_S65536_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S65536, .f32⟩) main_call3_v1) (broadcastInDim S65536 ![] bcast_S_S65536),
    TRef.binary (TRef.of (T := ⟨S65536, .f32⟩) main_call3_v1) (TRef.of (T := ⟨S65536, .f32⟩) main_call3_v0) (TRef.of (T := ⟨S65536, .f32⟩) main_call3_v2) maximumf,
    TRef.unary (TRef.of (T := ⟨S65536, .f32⟩) main_call3_v2) (TRef.of (T := ⟨S65536x1, .f32⟩) main_call3_v3) (broadcastInDim S65536x1 ![0] bcast_S65536_S65536x1_0),
    TRef.unary (TRef.of (T := ⟨S65536x1, .f32⟩) main_call3_v3) (TRef.of (T := ⟨S65536x2000, .f32⟩) main_call3_v4) (broadcastInDim S65536x2000 ![0, 1] bcast_S65536x1_S65536x2000_0_1),
    TRef.binary (TRef.of (T := ⟨S65536x2000, .f32⟩) main_v47) (TRef.of (T := ⟨S65536x2000, .f32⟩) main_call3_v4) (TRef.of (T := ⟨S65536x2000, .f32⟩) main_call3_v5) subf,
    TRef.unary (TRef.of (T := ⟨S65536x2000, .f32⟩) main_call3_v5) (TRef.of (T := ⟨S65536x2000, .f32⟩) main_call3_v6) Host.exp,
    TRef.nullary (TRef.of (T := ⟨S_, .f32⟩) main_call3_cst_1) (constant S_ .f32 0x00000000#32),
    TRef.binary (TRef.of (T := ⟨S65536x2000, .f32⟩) main_call3_v6) (TRef.of (T := ⟨S_, .f32⟩) main_call3_cst_1) (TRef.of (T := ⟨S65536, .f32⟩) main_call3_v7) (fun x v => Host.reduceAdd x v reducesTo_S65536x2000_S65536_d1 h_S_),
    TRef.unary (TRef.of (T := ⟨S65536, .f32⟩) main_call3_v7) (TRef.of (T := ⟨S65536x1, .f32⟩) main_call3_v8) (broadcastInDim S65536x1 ![0] bcast_S65536_S65536x1_0),
    TRef.unary (TRef.of (T := ⟨S65536x1, .f32⟩) main_call3_v8) (TRef.of (T := ⟨S65536x1, .f32⟩) main_call3_v9) Host.log,
    TRef.unary (TRef.of (T := ⟨S65536x1, .f32⟩) main_call3_v9) (TRef.of (T := ⟨S65536x2000, .f32⟩) main_call3_v10) (broadcastInDim S65536x2000 ![0, 1] bcast_S65536x1_S65536x2000_0_1),
    TRef.binary (TRef.of (T := ⟨S65536x2000, .f32⟩) main_call3_v5) (TRef.of (T := ⟨S65536x2000, .f32⟩) main_call3_v10) (TRef.of (T := ⟨S65536x2000, .f32⟩) main_v48) subf,
    unary main_arg1 main_v49 (broadcastInDim S65536x1 ![0] bcast_S65536_S65536x1_0 : (⟨S65536, .i32⟩ : BufTy).Contents (Elt F) → (⟨S65536x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S65536x1, .i32⟩) main_call4_v0) (broadcastInDim S65536x1 ![] bcast_S_S65536x1),
    TRef.binary (TRef.of (T := ⟨S65536x1, .i32⟩) main_v49) (TRef.of (T := ⟨S65536x1, .i32⟩) main_call4_v0) (TRef.of (T := ⟨S65536x1, .i1⟩) main_call4_v1) (cmpi .slt),
    TRef.nullary (TRef.of (T := ⟨S_, .i32⟩) main_call4_c_0) (constantI S_ 32 2000#32),
    TRef.unary (TRef.of (T := ⟨S_, .i32⟩) main_call4_c_0) (TRef.of (T := ⟨S65536x1, .i32⟩) main_call4_v2) (broadcastInDim S65536x1 ![] bcast_S_S65536x1),
    TRef.binary (TRef.of (T := ⟨S65536x1, .i32⟩) main_v49) (TRef.of (T := ⟨S65536x1, .i32⟩) main_call4_v2) (TRef.of (T := ⟨S65536x1, .i32⟩) main_call4_v3) addi,
    TRef.ternary (TRef.of (T := ⟨S65536x1, .i1⟩) main_call4_v1) (TRef.of (T := ⟨S65536x1, .i32⟩) main_call4_v3) (TRef.of (T := ⟨S65536x1, .i32⟩) main_v49) (TRef.of (T := ⟨S65536x1, .i32⟩) main_call4_v4) select,
    TRef.reshape (TRef.of (T := ⟨S65536x1, .i32⟩) main_call4_v4) (TRef.of (T := ⟨S65536x1x1, .i32⟩) main_call4_v5) rfl shapeCasts_S65536x1_S65536x1x1,
    TRef.nullary (TRef.of (T := ⟨S1, .i32⟩) main_call4_c_1) (constantI S1 32 1999#32),
    TRef.nullary (TRef.of (T := ⟨S_, .i32⟩) main_call4_c_2) (constantI S_ 32 0#32),
    TRef.unary (TRef.of (T := ⟨S_, .i32⟩) main_call4_c_2) (TRef.of (T := ⟨S65536x1x1, .i32⟩) main_call4_v6) (broadcastInDim S65536x1x1 ![] bcast_S_S65536x1x1),
    TRef.binary (TRef.of (T := ⟨S65536x1x1, .i32⟩) main_call4_v5) (TRef.of (T := ⟨S65536x1x1, .i32⟩) main_call4_v6) (TRef.of (T := ⟨S65536x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S65536x1x1, .i32⟩) main_call4_v9) (broadcastInDim S65536x1x1 ![0, 1, 2] bcast_S1x1x1_S65536x1x1_0_1_2),
    TRef.binary (TRef.of (T := ⟨S65536x1x1, .i32⟩) main_call4_v5) (TRef.of (T := ⟨S65536x1x1, .i32⟩) main_call4_v9) (TRef.of (T := ⟨S65536x1x1, .i1⟩) main_call4_v10) (cmpi .sle),
    TRef.binary (TRef.of (T := ⟨S65536x1x1, .i1⟩) main_call4_v7) (TRef.of (T := ⟨S65536x1x1, .i1⟩) main_call4_v10) (TRef.of (T := ⟨S65536x1x1, .i1⟩) main_call4_v11) andi,
    TRef.nullary (TRef.of (T := ⟨S_, .i1⟩) main_call4_c_3) (constantI S_ 1 1#1),
    TRef.binary (TRef.of (T := ⟨S65536x1x1, .i1⟩) main_call4_v11) (TRef.of (T := ⟨S_, .i1⟩) main_call4_c_3) (TRef.of (T := ⟨S65536x1, .i1⟩) main_call4_v12) (fun x v => Host.reduce IntOp.andi x v reducesTo_S65536x1x1_S65536x1_d2 h_S_),
    TRef.binary (TRef.of (T := ⟨S65536x2000, .f32⟩) main_v48) (TRef.of (T := ⟨S65536x1x1, .i32⟩) main_call4_v5) (TRef.of (T := ⟨S65536x1, .f32⟩) main_call4_v13) (fun x i => Host.gather gather_S65536x2000_S65536x1x1_S65536x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S65536x1, .f32⟩) main_call4_v14) (broadcastInDim S65536x1 ![] bcast_S_S65536x1),
    TRef.ternary (TRef.of (T := ⟨S65536x1, .i1⟩) main_call4_v12) (TRef.of (T := ⟨S65536x1, .f32⟩) main_call4_v13) (TRef.of (T := ⟨S65536x1, .f32⟩) main_call4_v14) (TRef.of (T := ⟨S65536x1, .f32⟩) main_v50) select,
    nullary main_cst_11 (constant S_ .f32 0x00000000#32),
    binary main_v50 main_cst_11 main_v51 ((fun x v => Host.reduceAdd x v reducesTo_S65536x1_S_d0_1 h_S_) : (⟨S65536x1, .f32⟩ : BufTy).Contents (Elt F) → (⟨S_, .f32⟩ : BufTy).Contents (Elt F) → (⟨S_, .f32⟩ : BufTy).Contents (Elt F)),
    nullary main_cst_12 (constant S_ .f32 0x47800000#32),
    binary main_v51 main_cst_12 main_v52 (Host.divf : (⟨S_, .f32⟩ : BufTy).Contents (Elt F) → (⟨S_, .f32⟩ : BufTy).Contents (Elt F) → (⟨S_, .f32⟩ : BufTy).Contents (Elt F)),
    unary main_v52 main_v53 (Host.negf : (⟨S_, .f32⟩ : BufTy).Contents (Elt F) → (⟨S_, .f32⟩ : BufTy).Contents (Elt F)) ]

set_option maxRecDepth 8192 in
theorem ops_cut : (Cert.ReferenceIdeal.RunP.ops : List (HloOp τ sig (Elt F))) = opsA ++ opC :: opsB := rfl

set_option maxRecDepth 100000 in
set_option maxHeartbeats 4000000 in
theorem foldA_main_v42 (V : Valuation τ sig (Elt F)) :
    after opsA V (Proc.devRef (τ := τ) .tc main_v42) = (ReadP.val_main_v42 (F := F) (V (Proc.devRef (τ := τ) .tc main_arg0)) (V (Proc.devRef (τ := τ) .tc main_arg1)) (V (Proc.devRef (τ := τ) .tc main_arg2))) := by
  after_results_simp <;> rfl

set_option maxRecDepth 100000 in
set_option maxHeartbeats 4000000 in
theorem foldA_main_arg3 (V : Valuation τ sig (Elt F)) :
    after opsA V (Proc.devRef (τ := τ) .tc main_arg3) = (V (Proc.devRef (τ := τ) .tc main_arg3)) := by
  after_results_simp <;> rfl

set_option maxRecDepth 100000 in
set_option maxHeartbeats 4000000 in
theorem foldA_main_v4 (V : Valuation τ sig (Elt F)) :
    after opsA V (Proc.devRef (τ := τ) .tc main_v4) = (ReadP.val_main_v4 (F := F) (V (Proc.devRef (τ := τ) .tc main_arg0))) := by
  after_results_simp <;> rfl

set_option maxRecDepth 100000 in
set_option maxHeartbeats 4000000 in
theorem foldA_main_arg1 (V : Valuation τ sig (Elt F)) :
    after opsA V (Proc.devRef (τ := τ) .tc main_arg1) = (V (Proc.devRef (τ := τ) .tc main_arg1)) := by
  after_results_simp <;> rfl

/-- The operation writing main_call3_v0, over named operands: the transports along its typed references are identities,
    and the two sides are then the same operation on the same operands, compared argument by argument. -/
theorem st_main_call3_v0 (W : Valuation τ sig (Elt F))
    (y0 : (⟨S65536x2000, .f32⟩ : BufTy).Contents (Elt F))
    (y1 : (⟨S_, .f32⟩ : BufTy).Contents (Elt F))
    (hy0 : W (Proc.devRef (τ := τ) .tc main_v47) = y0)
    (hy1 : W (Proc.devRef (τ := τ) .tc main_call3_cst) = y1)
    : (TRef.binary (TRef.of (T := ⟨S65536x2000, .f32⟩) main_v47) (TRef.of (T := ⟨S_, .f32⟩) main_call3_cst) (TRef.of (T := ⟨S65536, .f32⟩) main_call3_v0) (fun x v => Host.reduce FloatOps.maximumf x v reducesTo_S65536x2000_S65536_d1 h_S_) : HloOp τ sig (Elt F)).result W (Proc.devRef (τ := τ) .tc main_call3_v0) = Host.reduce FloatOps.maximumf y0 y1 reducesTo_S65536x2000_S65536_d1 h_S_ := by
  rw [binary_result, hy0, hy1]; (simp only [TRef.ofBuf, TRef.toBuf, cast_eq]) <;> congr 1

/-- The stage of main_call3_v0, opened once. -/
theorem l_main_call3_v0
    (x0 : (⟨S65536x256, .f32⟩ : BufTy).Contents (Elt F))
    (x1 : (⟨S65536, .i32⟩ : BufTy).Contents (Elt F))
    (x2 : (⟨S1000x256, .f32⟩ : BufTy).Contents (Elt F))
    (x3 : (⟨S1000x256, .f32⟩ : BufTy).Contents (Elt F))
    : (ReadP.val_main_call3_v0 (F := F) x0 x1 x2 x3) = Host.reduce FloatOps.maximumf (ReadP.val_main_v47 (F := F) x0 x1 x2 x3) (ReadP.val_main_call3_cst (F := F)) reducesTo_S65536x2000_S65536_d1 h_S_ := by
  unfold ReadP.val_main_call3_v0; rfl

/-- The operation writing main_call3_v2, over named operands: the transports along its typed references are identities,
    and the two sides are then the same operation on the same operands, compared argument by argument. -/
theorem st_main_call3_v2 (W : Valuation τ sig (Elt F))
    (y0 : (⟨S65536, .f32⟩ : BufTy).Contents (Elt F))
    (y1 : (⟨S65536, .f32⟩ : BufTy).Contents (Elt F))
    (hy0 : W (Proc.devRef (τ := τ) .tc main_call3_v1) = y0)
    (hy1 : W (Proc.devRef (τ := τ) .tc main_call3_v0) = y1)
    : (TRef.binary (TRef.of (T := ⟨S65536, .f32⟩) main_call3_v1) (TRef.of (T := ⟨S65536, .f32⟩) main_call3_v0) (TRef.of (T := ⟨S65536, .f32⟩) main_call3_v2) maximumf : HloOp τ sig (Elt F)).result W (Proc.devRef (τ := τ) .tc main_call3_v2) = maximumf y0 y1 := by
  rw [binary_result, hy0, hy1]; (simp only [TRef.ofBuf, TRef.toBuf, cast_eq]) <;> congr 1

/-- The stage of main_call3_v2, opened once. -/
theorem l_main_call3_v2
    (x0 : (⟨S65536x256, .f32⟩ : BufTy).Contents (Elt F))
    (x1 : (⟨S65536, .i32⟩ : BufTy).Contents (Elt F))
    (x2 : (⟨S1000x256, .f32⟩ : BufTy).Contents (Elt F))
    (x3 : (⟨S1000x256, .f32⟩ : BufTy).Contents (Elt F))
    : (ReadP.val_main_call3_v2 (F := F) x0 x1 x2 x3) = maximumf (ReadP.val_main_call3_v1 (F := F)) (ReadP.val_main_call3_v0 (F := F) x0 x1 x2 x3) := by
  unfold ReadP.val_main_call3_v2; rfl

set_option maxRecDepth 100000 in
set_option maxHeartbeats 8000000 in
theorem foldB (W67 : Valuation τ sig (Elt F))
    (x0 : (⟨S65536x256, .f32⟩ : BufTy).Contents (Elt F))
    (x1 : (⟨S65536, .i32⟩ : BufTy).Contents (Elt F))
    (x2 : (⟨S1000x256, .f32⟩ : BufTy).Contents (Elt F))
    (x3 : (⟨S1000x256, .f32⟩ : BufTy).Contents (Elt F))
    (f67_main_v43 : W67 (Proc.devRef (τ := τ) .tc main_v43) = (ReadP.val_main_v43 (F := F) x0 x1 x2 x3))
    (f67_main_v4 : W67 (Proc.devRef (τ := τ) .tc main_v4) = (ReadP.val_main_v4 (F := F) x0))
    (f67_main_arg1 : W67 (Proc.devRef (τ := τ) .tc main_arg1) = x1)
    : after opsB W67 (Proc.devRef (τ := τ) .tc main_v53) = (ReadP.val_main_v53 (F := F) x0 x1 x2 x3) := by
  -- 67: main_v44
  refine after_step _ _ _ _ _ (fun W68 hW => ?_)
  have f68_main_v44 : W68 (Proc.devRef (τ := τ) .tc main_v44) = (ReadP.val_main_v44 (F := F) x0 x1 x2 x3) := by
    rewrite [hW, unary_result, f67_main_v43]; rfl
  have f68_main_v4 : W68 (Proc.devRef (τ := τ) .tc main_v4) = (ReadP.val_main_v4 (F := F) x0) := by
    rewrite [hW, unary_result_ne]; exact f67_main_v4; decide
  have f68_main_arg1 : W68 (Proc.devRef (τ := τ) .tc main_arg1) = x1 := by
    rewrite [hW, unary_result_ne]; exact f67_main_arg1; decide
  clear hW f67_main_v43 f67_main_v4 f67_main_arg1
  clear W67
  -- 68: main_v45
  refine after_step _ _ _ _ _ (fun W69 hW => ?_)
  have f69_main_v45 : W69 (Proc.devRef (τ := τ) .tc main_v45) = (ReadP.val_main_v45 (F := F) x0 x1 x2 x3) := by
    rewrite [hW, binary_result, f68_main_v4, f68_main_v44]; rfl
  have f69_main_arg1 : W69 (Proc.devRef (τ := τ) .tc main_arg1) = x1 := by
    rewrite [hW, binary_result_ne]; exact f68_main_arg1; decide
  clear hW f68_main_v4 f68_main_arg1 f68_main_v44
  clear W68
  -- 69: main_cst_10
  refine after_step _ _ _ _ _ (fun W70 hW => ?_)
  have f70_main_cst_10 : W70 (Proc.devRef (τ := τ) .tc main_cst_10) = (ReadP.val_main_cst_10 (F := F)) := by
    rewrite [hW, nullary_result]; rfl
  have f70_main_arg1 : W70 (Proc.devRef (τ := τ) .tc main_arg1) = x1 := by
    rewrite [hW, nullary_result_ne]; exact f69_main_arg1; decide
  have f70_main_v45 : W70 (Proc.devRef (τ := τ) .tc main_v45) = (ReadP.val_main_v45 (F := F) x0 x1 x2 x3) := by
    rewrite [hW, nullary_result_ne]; exact f69_main_v45; decide
  clear hW f69_main_arg1 f69_main_v45
  clear W69
  -- 70: main_v46
  refine after_step _ _ _ _ _ (fun W71 hW => ?_)
  have f71_main_v46 : W71 (Proc.devRef (τ := τ) .tc main_v46) = (ReadP.val_main_v46 (F := F)) := by
    rewrite [hW, unary_result, f70_main_cst_10]; rfl
  have f71_main_arg1 : W71 (Proc.devRef (τ := τ) .tc main_arg1) = x1 := by
    rewrite [hW, unary_result_ne]; exact f70_main_arg1; decide
  have f71_main_v45 : W71 (Proc.devRef (τ := τ) .tc main_v45) = (ReadP.val_main_v45 (F := F) x0 x1 x2 x3) := by
    rewrite [hW, unary_result_ne]; exact f70_main_v45; decide
  clear hW f70_main_arg1 f70_main_v45 f70_main_cst_10
  clear W70
  -- 71: main_v47
  refine after_step _ _ _ _ _ (fun W72 hW => ?_)
  have f72_main_v47 : W72 (Proc.devRef (τ := τ) .tc main_v47) = (ReadP.val_main_v47 (F := F) x0 x1 x2 x3) := by
    rewrite [hW, binary_result, f71_main_v45, f71_main_v46]; rfl
  have f72_main_arg1 : W72 (Proc.devRef (τ := τ) .tc main_arg1) = x1 := by
    rewrite [hW, binary_result_ne]; exact f71_main_arg1; decide
  clear hW f71_main_arg1 f71_main_v45 f71_main_v46
  clear W71
  -- 72: main_call3_cst
  refine after_step _ _ _ _ _ (fun W73 hW => ?_)
  have f73_main_call3_cst : W73 (Proc.devRef (τ := τ) .tc main_call3_cst) = (ReadP.val_main_call3_cst (F := F)) := by
    rewrite [hW, nullary_result]; rfl
  have f73_main_arg1 : W73 (Proc.devRef (τ := τ) .tc main_arg1) = x1 := by
    rewrite [hW, nullary_result_ne]; exact f72_main_arg1; decide
  have f73_main_v47 : W73 (Proc.devRef (τ := τ) .tc main_v47) = (ReadP.val_main_v47 (F := F) x0 x1 x2 x3) := by
    rewrite [hW, nullary_result_ne]; exact f72_main_v47; decide
  clear hW f72_main_arg1 f72_main_v47
  clear W72
  -- 73: main_call3_v0
  refine after_step _ _ _ _ _ (fun W74 hW => ?_)
  have f74_main_call3_v0 : W74 (Proc.devRef (τ := τ) .tc main_call3_v0) = (ReadP.val_main_call3_v0 (F := F) x0 x1 x2 x3) := by
    rewrite [hW, l_main_call3_v0 x0 x1 x2 x3]; exact st_main_call3_v0 W73 _ _ f73_main_v47 f73_main_call3_cst
  have f74_main_arg1 : W74 (Proc.devRef (τ := τ) .tc main_arg1) = x1 := by
    rewrite [hW, binary_result_ne]; exact f73_main_arg1; decide
  have f74_main_v47 : W74 (Proc.devRef (τ := τ) .tc main_v47) = (ReadP.val_main_v47 (F := F) x0 x1 x2 x3) := by
    rewrite [hW, binary_result_ne]; exact f73_main_v47; decide
  clear hW f73_main_arg1 f73_main_v47 f73_main_call3_cst
  clear W73
  -- 74: main_call3_cst_0
  refine after_step _ _ _ _ _ (fun W75 hW => ?_)
  have f75_main_call3_cst_0 : W75 (Proc.devRef (τ := τ) .tc main_call3_cst_0) = (ReadP.val_main_call3_cst_0 (F := F)) := by
    rewrite [hW, nullary_result]; rfl
  have f75_main_arg1 : W75 (Proc.devRef (τ := τ) .tc main_arg1) = x1 := by
    rewrite [hW, nullary_result_ne]; exact f74_main_arg1; decide
  have f75_main_v47 : W75 (Proc.devRef (τ := τ) .tc main_v47) = (ReadP.val_main_v47 (F := F) x0 x1 x2 x3) := by
    rewrite [hW, nullary_result_ne]; exact f74_main_v47; decide
  have f75_main_call3_v0 : W75 (Proc.devRef (τ := τ) .tc main_call3_v0) = (ReadP.val_main_call3_v0 (F := F) x0 x1 x2 x3) := by
    rewrite [hW, nullary_result_ne]; exact f74_main_call3_v0; decide
  clear hW f74_main_arg1 f74_main_v47 f74_main_call3_v0
  clear W74
  -- 75: main_call3_v1
  refine after_step _ _ _ _ _ (fun W76 hW => ?_)
  have f76_main_call3_v1 : W76 (Proc.devRef (τ := τ) .tc main_call3_v1) = (ReadP.val_main_call3_v1 (F := F)) := by
    rewrite [hW, unary_result, f75_main_call3_cst_0]; rfl
  have f76_main_arg1 : W76 (Proc.devRef (τ := τ) .tc main_arg1) = x1 := by
    rewrite [hW, unary_result_ne]; exact f75_main_arg1; decide
  have f76_main_v47 : W76 (Proc.devRef (τ := τ) .tc main_v47) = (ReadP.val_main_v47 (F := F) x0 x1 x2 x3) := by
    rewrite [hW, unary_result_ne]; exact f75_main_v47; decide
  have f76_main_call3_v0 : W76 (Proc.devRef (τ := τ) .tc main_call3_v0) = (ReadP.val_main_call3_v0 (F := F) x0 x1 x2 x3) := by
    rewrite [hW, unary_result_ne]; exact f75_main_call3_v0; decide
  clear hW f75_main_arg1 f75_main_v47 f75_main_call3_v0 f75_main_call3_cst_0
  clear W75
  -- 76: main_call3_v2
  refine after_step _ _ _ _ _ (fun W77 hW => ?_)
  have f77_main_call3_v2 : W77 (Proc.devRef (τ := τ) .tc main_call3_v2) = (ReadP.val_main_call3_v2 (F := F) x0 x1 x2 x3) := by
    rewrite [hW, l_main_call3_v2 x0 x1 x2 x3]; exact st_main_call3_v2 W76 _ _ f76_main_call3_v1 f76_main_call3_v0
  have f77_main_arg1 : W77 (Proc.devRef (τ := τ) .tc main_arg1) = x1 := by
    rewrite [hW, binary_result_ne]; exact f76_main_arg1; decide
  have f77_main_v47 : W77 (Proc.devRef (τ := τ) .tc main_v47) = (ReadP.val_main_v47 (F := F) x0 x1 x2 x3) := by
    rewrite [hW, binary_result_ne]; exact f76_main_v47; decide
  clear hW f76_main_arg1 f76_main_v47 f76_main_call3_v0 f76_main_call3_v1
  clear W76
  -- 77: main_call3_v3
  refine after_step _ _ _ _ _ (fun W78 hW => ?_)
  have f78_main_call3_v3 : W78 (Proc.devRef (τ := τ) .tc main_call3_v3) = (ReadP.val_main_call3_v3 (F := F) x0 x1 x2 x3) := by
    rewrite [hW, unary_result, f77_main_call3_v2]; rfl
  have f78_main_arg1 : W78 (Proc.devRef (τ := τ) .tc main_arg1) = x1 := by
    rewrite [hW, unary_result_ne]; exact f77_main_arg1; decide
  have f78_main_v47 : W78 (Proc.devRef (τ := τ) .tc main_v47) = (ReadP.val_main_v47 (F := F) x0 x1 x2 x3) := by
    rewrite [hW, unary_result_ne]; exact f77_main_v47; decide
  clear hW f77_main_arg1 f77_main_v47 f77_main_call3_v2
  clear W77
  -- 78: main_call3_v4
  refine after_step _ _ _ _ _ (fun W79 hW => ?_)
  have f79_main_call3_v4 : W79 (Proc.devRef (τ := τ) .tc main_call3_v4) = (ReadP.val_main_call3_v4 (F := F) x0 x1 x2 x3) := by
    rewrite [hW, unary_result, f78_main_call3_v3]; rfl
  have f79_main_arg1 : W79 (Proc.devRef (τ := τ) .tc main_arg1) = x1 := by
    rewrite [hW, unary_result_ne]; exact f78_main_arg1; decide
  have f79_main_v47 : W79 (Proc.devRef (τ := τ) .tc main_v47) = (ReadP.val_main_v47 (F := F) x0 x1 x2 x3) := by
    rewrite [hW, unary_result_ne]; exact f78_main_v47; decide
  clear hW f78_main_arg1 f78_main_v47 f78_main_call3_v3
  clear W78
  -- 79: main_call3_v5
  refine after_step _ _ _ _ _ (fun W80 hW => ?_)
  have f80_main_call3_v5 : W80 (Proc.devRef (τ := τ) .tc main_call3_v5) = (ReadP.val_main_call3_v5 (F := F) x0 x1 x2 x3) := by
    rewrite [hW, binary_result, f79_main_v47, f79_main_call3_v4]; rfl
  have f80_main_arg1 : W80 (Proc.devRef (τ := τ) .tc main_arg1) = x1 := by
    rewrite [hW, binary_result_ne]; exact f79_main_arg1; decide
  clear hW f79_main_arg1 f79_main_v47 f79_main_call3_v4
  clear W79
  -- 80: main_call3_v6
  refine after_step _ _ _ _ _ (fun W81 hW => ?_)
  have f81_main_call3_v6 : W81 (Proc.devRef (τ := τ) .tc main_call3_v6) = (ReadP.val_main_call3_v6 (F := F) x0 x1 x2 x3) := by
    rewrite [hW, unary_result, f80_main_call3_v5]; rfl
  have f81_main_arg1 : W81 (Proc.devRef (τ := τ) .tc main_arg1) = x1 := by
    rewrite [hW, unary_result_ne]; exact f80_main_arg1; decide
  have f81_main_call3_v5 : W81 (Proc.devRef (τ := τ) .tc main_call3_v5) = (ReadP.val_main_call3_v5 (F := F) x0 x1 x2 x3) := by
    rewrite [hW, unary_result_ne]; exact f80_main_call3_v5; decide
  clear hW f80_main_arg1 f80_main_call3_v5
  clear W80
  -- 81: main_call3_cst_1
  refine after_step _ _ _ _ _ (fun W82 hW => ?_)
  have f82_main_call3_cst_1 : W82 (Proc.devRef (τ := τ) .tc main_call3_cst_1) = (ReadP.val_main_call3_cst_1 (F := F)) := by
    rewrite [hW, nullary_result]; rfl
  have f82_main_arg1 : W82 (Proc.devRef (τ := τ) .tc main_arg1) = x1 := by
    rewrite [hW, nullary_result_ne]; exact f81_main_arg1; decide
  have f82_main_call3_v5 : W82 (Proc.devRef (τ := τ) .tc main_call3_v5) = (ReadP.val_main_call3_v5 (F := F) x0 x1 x2 x3) := by
    rewrite [hW, nullary_result_ne]; exact f81_main_call3_v5; decide
  have f82_main_call3_v6 : W82 (Proc.devRef (τ := τ) .tc main_call3_v6) = (ReadP.val_main_call3_v6 (F := F) x0 x1 x2 x3) := by
    rewrite [hW, nullary_result_ne]; exact f81_main_call3_v6; decide
  clear hW f81_main_arg1 f81_main_call3_v5 f81_main_call3_v6
  clear W81
  -- 82: main_call3_v7
  refine after_step _ _ _ _ _ (fun W83 hW => ?_)
  have f83_main_call3_v7 : W83 (Proc.devRef (τ := τ) .tc main_call3_v7) = (ReadP.val_main_call3_v7 (F := F) x0 x1 x2 x3) := by
    rewrite [hW, binary_result, f82_main_call3_v6, f82_main_call3_cst_1]; rfl
  have f83_main_arg1 : W83 (Proc.devRef (τ := τ) .tc main_arg1) = x1 := by
    rewrite [hW, binary_result_ne]; exact f82_main_arg1; decide
  have f83_main_call3_v5 : W83 (Proc.devRef (τ := τ) .tc main_call3_v5) = (ReadP.val_main_call3_v5 (F := F) x0 x1 x2 x3) := by
    rewrite [hW, binary_result_ne]; exact f82_main_call3_v5; decide
  clear hW f82_main_arg1 f82_main_call3_v5 f82_main_call3_v6 f82_main_call3_cst_1
  clear W82
  -- 83: main_call3_v8
  refine after_step _ _ _ _ _ (fun W84 hW => ?_)
  have f84_main_call3_v8 : W84 (Proc.devRef (τ := τ) .tc main_call3_v8) = (ReadP.val_main_call3_v8 (F := F) x0 x1 x2 x3) := by
    rewrite [hW, unary_result, f83_main_call3_v7]; rfl
  have f84_main_arg1 : W84 (Proc.devRef (τ := τ) .tc main_arg1) = x1 := by
    rewrite [hW, unary_result_ne]; exact f83_main_arg1; decide
  have f84_main_call3_v5 : W84 (Proc.devRef (τ := τ) .tc main_call3_v5) = (ReadP.val_main_call3_v5 (F := F) x0 x1 x2 x3) := by
    rewrite [hW, unary_result_ne]; exact f83_main_call3_v5; decide
  clear hW f83_main_arg1 f83_main_call3_v5 f83_main_call3_v7
  clear W83
  -- 84: main_call3_v9
  refine after_step _ _ _ _ _ (fun W85 hW => ?_)
  have f85_main_call3_v9 : W85 (Proc.devRef (τ := τ) .tc main_call3_v9) = (ReadP.val_main_call3_v9 (F := F) x0 x1 x2 x3) := by
    rewrite [hW, unary_result, f84_main_call3_v8]; rfl
  have f85_main_arg1 : W85 (Proc.devRef (τ := τ) .tc main_arg1) = x1 := by
    rewrite [hW, unary_result_ne]; exact f84_main_arg1; decide
  have f85_main_call3_v5 : W85 (Proc.devRef (τ := τ) .tc main_call3_v5) = (ReadP.val_main_call3_v5 (F := F) x0 x1 x2 x3) := by
    rewrite [hW, unary_result_ne]; exact f84_main_call3_v5; decide
  clear hW f84_main_arg1 f84_main_call3_v5 f84_main_call3_v8
  clear W84
  -- 85: main_call3_v10
  refine after_step _ _ _ _ _ (fun W86 hW => ?_)
  have f86_main_call3_v10 : W86 (Proc.devRef (τ := τ) .tc main_call3_v10) = (ReadP.val_main_call3_v10 (F := F) x0 x1 x2 x3) := by
    rewrite [hW, unary_result, f85_main_call3_v9]; rfl
  have f86_main_arg1 : W86 (Proc.devRef (τ := τ) .tc main_arg1) = x1 := by
    rewrite [hW, unary_result_ne]; exact f85_main_arg1; decide
  have f86_main_call3_v5 : W86 (Proc.devRef (τ := τ) .tc main_call3_v5) = (ReadP.val_main_call3_v5 (F := F) x0 x1 x2 x3) := by
    rewrite [hW, unary_result_ne]; exact f85_main_call3_v5; decide
  clear hW f85_main_arg1 f85_main_call3_v5 f85_main_call3_v9
  clear W85
  -- 86: main_v48
  refine after_step _ _ _ _ _ (fun W87 hW => ?_)
  have f87_main_v48 : W87 (Proc.devRef (τ := τ) .tc main_v48) = (ReadP.val_main_v48 (F := F) x0 x1 x2 x3) := by
    rewrite [hW, binary_result, f86_main_call3_v5, f86_main_call3_v10]; rfl
  have f87_main_arg1 : W87 (Proc.devRef (τ := τ) .tc main_arg1) = x1 := by
    rewrite [hW, binary_result_ne]; exact f86_main_arg1; decide
  clear hW f86_main_arg1 f86_main_call3_v5 f86_main_call3_v10
  clear W86
  -- 87: main_v49
  refine after_step _ _ _ _ _ (fun W88 hW => ?_)
  have f88_main_v49 : W88 (Proc.devRef (τ := τ) .tc main_v49) = (ReadP.val_main_v49 (F := F) x1) := by
    rewrite [hW, unary_result, f87_main_arg1]; rfl
  have f88_main_v48 : W88 (Proc.devRef (τ := τ) .tc main_v48) = (ReadP.val_main_v48 (F := F) x0 x1 x2 x3) := by
    rewrite [hW, unary_result_ne]; exact f87_main_v48; decide
  clear hW f87_main_arg1 f87_main_v48
  clear W87
  -- 88: main_call4_c
  refine after_step _ _ _ _ _ (fun W89 hW => ?_)
  have f89_main_call4_c : W89 (Proc.devRef (τ := τ) .tc main_call4_c) = (ReadP.val_main_call4_c (F := F)) := by
    rewrite [hW, nullary_result]; rfl
  have f89_main_v48 : W89 (Proc.devRef (τ := τ) .tc main_v48) = (ReadP.val_main_v48 (F := F) x0 x1 x2 x3) := by
    rewrite [hW, nullary_result_ne]; exact f88_main_v48; decide
  have f89_main_v49 : W89 (Proc.devRef (τ := τ) .tc main_v49) = (ReadP.val_main_v49 (F := F) x1) := by
    rewrite [hW, nullary_result_ne]; exact f88_main_v49; decide
  clear hW f88_main_v48 f88_main_v49
  clear W88
  -- 89: main_call4_v0
  refine after_step _ _ _ _ _ (fun W90 hW => ?_)
  have f90_main_call4_v0 : W90 (Proc.devRef (τ := τ) .tc main_call4_v0) = (ReadP.val_main_call4_v0 (F := F)) := by
    rewrite [hW, unary_result, f89_main_call4_c]; rfl
  have f90_main_v48 : W90 (Proc.devRef (τ := τ) .tc main_v48) = (ReadP.val_main_v48 (F := F) x0 x1 x2 x3) := by
    rewrite [hW, unary_result_ne]; exact f89_main_v48; decide
  have f90_main_v49 : W90 (Proc.devRef (τ := τ) .tc main_v49) = (ReadP.val_main_v49 (F := F) x1) := by
    rewrite [hW, unary_result_ne]; exact f89_main_v49; decide
  clear hW f89_main_v48 f89_main_v49 f89_main_call4_c
  clear W89
  -- 90: main_call4_v1
  refine after_step _ _ _ _ _ (fun W91 hW => ?_)
  have f91_main_call4_v1 : W91 (Proc.devRef (τ := τ) .tc main_call4_v1) = (ReadP.val_main_call4_v1 (F := F) x1) := by
    rewrite [hW, binary_result, f90_main_v49, f90_main_call4_v0]; rfl
  have f91_main_v48 : W91 (Proc.devRef (τ := τ) .tc main_v48) = (ReadP.val_main_v48 (F := F) x0 x1 x2 x3) := by
    rewrite [hW, binary_result_ne]; exact f90_main_v48; decide
  have f91_main_v49 : W91 (Proc.devRef (τ := τ) .tc main_v49) = (ReadP.val_main_v49 (F := F) x1) := by
    rewrite [hW, binary_result_ne]; exact f90_main_v49; decide
  clear hW f90_main_v48 f90_main_v49 f90_main_call4_v0
  clear W90
  -- 91: main_call4_c_0
  refine after_step _ _ _ _ _ (fun W92 hW => ?_)
  have f92_main_call4_c_0 : W92 (Proc.devRef (τ := τ) .tc main_call4_c_0) = (ReadP.val_main_call4_c_0 (F := F)) := by
    rewrite [hW, nullary_result]; rfl
  have f92_main_v48 : W92 (Proc.devRef (τ := τ) .tc main_v48) = (ReadP.val_main_v48 (F := F) x0 x1 x2 x3) := by
    rewrite [hW, nullary_result_ne]; exact f91_main_v48; decide
  have f92_main_v49 : W92 (Proc.devRef (τ := τ) .tc main_v49) = (ReadP.val_main_v49 (F := F) x1) := by
    rewrite [hW, nullary_result_ne]; exact f91_main_v49; decide
  have f92_main_call4_v1 : W92 (Proc.devRef (τ := τ) .tc main_call4_v1) = (ReadP.val_main_call4_v1 (F := F) x1) := by
    rewrite [hW, nullary_result_ne]; exact f91_main_call4_v1; decide
  clear hW f91_main_v48 f91_main_v49 f91_main_call4_v1
  clear W91
  -- 92: main_call4_v2
  refine after_step _ _ _ _ _ (fun W93 hW => ?_)
  have f93_main_call4_v2 : W93 (Proc.devRef (τ := τ) .tc main_call4_v2) = (ReadP.val_main_call4_v2 (F := F)) := by
    rewrite [hW, unary_result, f92_main_call4_c_0]; rfl
  have f93_main_v48 : W93 (Proc.devRef (τ := τ) .tc main_v48) = (ReadP.val_main_v48 (F := F) x0 x1 x2 x3) := by
    rewrite [hW, unary_result_ne]; exact f92_main_v48; decide
  have f93_main_v49 : W93 (Proc.devRef (τ := τ) .tc main_v49) = (ReadP.val_main_v49 (F := F) x1) := by
    rewrite [hW, unary_result_ne]; exact f92_main_v49; decide
  have f93_main_call4_v1 : W93 (Proc.devRef (τ := τ) .tc main_call4_v1) = (ReadP.val_main_call4_v1 (F := F) x1) := by
    rewrite [hW, unary_result_ne]; exact f92_main_call4_v1; decide
  clear hW f92_main_v48 f92_main_v49 f92_main_call4_v1 f92_main_call4_c_0
  clear W92
  -- 93: main_call4_v3
  refine after_step _ _ _ _ _ (fun W94 hW => ?_)
  have f94_main_call4_v3 : W94 (Proc.devRef (τ := τ) .tc main_call4_v3) = (ReadP.val_main_call4_v3 (F := F) x1) := by
    rewrite [hW, binary_result, f93_main_v49, f93_main_call4_v2]; rfl
  have f94_main_v48 : W94 (Proc.devRef (τ := τ) .tc main_v48) = (ReadP.val_main_v48 (F := F) x0 x1 x2 x3) := by
    rewrite [hW, binary_result_ne]; exact f93_main_v48; decide
  have f94_main_v49 : W94 (Proc.devRef (τ := τ) .tc main_v49) = (ReadP.val_main_v49 (F := F) x1) := by
    rewrite [hW, binary_result_ne]; exact f93_main_v49; decide
  have f94_main_call4_v1 : W94 (Proc.devRef (τ := τ) .tc main_call4_v1) = (ReadP.val_main_call4_v1 (F := F) x1) := by
    rewrite [hW, binary_result_ne]; exact f93_main_call4_v1; decide
  clear hW f93_main_v48 f93_main_v49 f93_main_call4_v1 f93_main_call4_v2
  clear W93
  -- 94: main_call4_v4
  refine after_step _ _ _ _ _ (fun W95 hW => ?_)
  have f95_main_call4_v4 : W95 (Proc.devRef (τ := τ) .tc main_call4_v4) = (ReadP.val_main_call4_v4 (F := F) x1) := by
    rewrite [hW, ternary_result, f94_main_call4_v1, f94_main_call4_v3, f94_main_v49]; rfl
  have f95_main_v48 : W95 (Proc.devRef (τ := τ) .tc main_v48) = (ReadP.val_main_v48 (F := F) x0 x1 x2 x3) := by
    rewrite [hW, ternary_result_ne]; exact f94_main_v48; decide
  clear hW f94_main_v48 f94_main_v49 f94_main_call4_v1 f94_main_call4_v3
  clear W94
  -- 95: main_call4_v5
  refine after_step _ _ _ _ _ (fun W96 hW => ?_)
  have f96_main_call4_v5 : W96 (Proc.devRef (τ := τ) .tc main_call4_v5) = (ReadP.val_main_call4_v5 (F := F) x1) := by
    rewrite [hW, reshape_result, f95_main_call4_v4]; rfl
  have f96_main_v48 : W96 (Proc.devRef (τ := τ) .tc main_v48) = (ReadP.val_main_v48 (F := F) x0 x1 x2 x3) := by
    rewrite [hW, reshape_result_ne]; exact f95_main_v48; decide
  clear hW f95_main_v48 f95_main_call4_v4
  clear W95
  -- 96: main_call4_c_1
  refine after_step _ _ _ _ _ (fun W97 hW => ?_)
  have f97_main_call4_c_1 : W97 (Proc.devRef (τ := τ) .tc main_call4_c_1) = (ReadP.val_main_call4_c_1 (F := F)) := by
    rewrite [hW, nullary_result]; rfl
  have f97_main_v48 : W97 (Proc.devRef (τ := τ) .tc main_v48) = (ReadP.val_main_v48 (F := F) x0 x1 x2 x3) := by
    rewrite [hW, nullary_result_ne]; exact f96_main_v48; decide
  have f97_main_call4_v5 : W97 (Proc.devRef (τ := τ) .tc main_call4_v5) = (ReadP.val_main_call4_v5 (F := F) x1) := by
    rewrite [hW, nullary_result_ne]; exact f96_main_call4_v5; decide
  clear hW f96_main_v48 f96_main_call4_v5
  clear W96
  -- 97: main_call4_c_2
  refine after_step _ _ _ _ _ (fun W98 hW => ?_)
  have f98_main_call4_c_2 : W98 (Proc.devRef (τ := τ) .tc main_call4_c_2) = (ReadP.val_main_call4_c_2 (F := F)) := by
    rewrite [hW, nullary_result]; rfl
  have f98_main_v48 : W98 (Proc.devRef (τ := τ) .tc main_v48) = (ReadP.val_main_v48 (F := F) x0 x1 x2 x3) := by
    rewrite [hW, nullary_result_ne]; exact f97_main_v48; decide
  have f98_main_call4_v5 : W98 (Proc.devRef (τ := τ) .tc main_call4_v5) = (ReadP.val_main_call4_v5 (F := F) x1) := by
    rewrite [hW, nullary_result_ne]; exact f97_main_call4_v5; decide
  have f98_main_call4_c_1 : W98 (Proc.devRef (τ := τ) .tc main_call4_c_1) = (ReadP.val_main_call4_c_1 (F := F)) := by
    rewrite [hW, nullary_result_ne]; exact f97_main_call4_c_1; decide
  clear hW f97_main_v48 f97_main_call4_v5 f97_main_call4_c_1
  clear W97
  -- 98: main_call4_v6
  refine after_step _ _ _ _ _ (fun W99 hW => ?_)
  have f99_main_call4_v6 : W99 (Proc.devRef (τ := τ) .tc main_call4_v6) = (ReadP.val_main_call4_v6 (F := F)) := by
    rewrite [hW, unary_result, f98_main_call4_c_2]; rfl
  have f99_main_v48 : W99 (Proc.devRef (τ := τ) .tc main_v48) = (ReadP.val_main_v48 (F := F) x0 x1 x2 x3) := by
    rewrite [hW, unary_result_ne]; exact f98_main_v48; decide
  have f99_main_call4_v5 : W99 (Proc.devRef (τ := τ) .tc main_call4_v5) = (ReadP.val_main_call4_v5 (F := F) x1) := by
    rewrite [hW, unary_result_ne]; exact f98_main_call4_v5; decide
  have f99_main_call4_c_1 : W99 (Proc.devRef (τ := τ) .tc main_call4_c_1) = (ReadP.val_main_call4_c_1 (F := F)) := by
    rewrite [hW, unary_result_ne]; exact f98_main_call4_c_1; decide
  clear hW f98_main_v48 f98_main_call4_v5 f98_main_call4_c_1 f98_main_call4_c_2
  clear W98
  -- 99: main_call4_v7
  refine after_step _ _ _ _ _ (fun W100 hW => ?_)
  have f100_main_call4_v7 : W100 (Proc.devRef (τ := τ) .tc main_call4_v7) = (ReadP.val_main_call4_v7 (F := F) x1) := by
    rewrite [hW, binary_result, f99_main_call4_v5, f99_main_call4_v6]; rfl
  have f100_main_v48 : W100 (Proc.devRef (τ := τ) .tc main_v48) = (ReadP.val_main_v48 (F := F) x0 x1 x2 x3) := by
    rewrite [hW, binary_result_ne]; exact f99_main_v48; decide
  have f100_main_call4_v5 : W100 (Proc.devRef (τ := τ) .tc main_call4_v5) = (ReadP.val_main_call4_v5 (F := F) x1) := by
    rewrite [hW, binary_result_ne]; exact f99_main_call4_v5; decide
  have f100_main_call4_c_1 : W100 (Proc.devRef (τ := τ) .tc main_call4_c_1) = (ReadP.val_main_call4_c_1 (F := F)) := by
    rewrite [hW, binary_result_ne]; exact f99_main_call4_c_1; decide
  clear hW f99_main_v48 f99_main_call4_v5 f99_main_call4_c_1 f99_main_call4_v6
  clear W99
  -- 100: main_call4_v8
  refine after_step _ _ _ _ _ (fun W101 hW => ?_)
  have f101_main_call4_v8 : W101 (Proc.devRef (τ := τ) .tc main_call4_v8) = (ReadP.val_main_call4_v8 (F := F)) := by
    rewrite [hW, unary_result, f100_main_call4_c_1]; rfl
  have f101_main_v48 : W101 (Proc.devRef (τ := τ) .tc main_v48) = (ReadP.val_main_v48 (F := F) x0 x1 x2 x3) := by
    rewrite [hW, unary_result_ne]; exact f100_main_v48; decide
  have f101_main_call4_v5 : W101 (Proc.devRef (τ := τ) .tc main_call4_v5) = (ReadP.val_main_call4_v5 (F := F) x1) := by
    rewrite [hW, unary_result_ne]; exact f100_main_call4_v5; decide
  have f101_main_call4_v7 : W101 (Proc.devRef (τ := τ) .tc main_call4_v7) = (ReadP.val_main_call4_v7 (F := F) x1) := by
    rewrite [hW, unary_result_ne]; exact f100_main_call4_v7; decide
  clear hW f100_main_v48 f100_main_call4_v5 f100_main_call4_c_1 f100_main_call4_v7
  clear W100
  -- 101: main_call4_v9
  refine after_step _ _ _ _ _ (fun W102 hW => ?_)
  have f102_main_call4_v9 : W102 (Proc.devRef (τ := τ) .tc main_call4_v9) = (ReadP.val_main_call4_v9 (F := F)) := by
    rewrite [hW, unary_result, f101_main_call4_v8]; rfl
  have f102_main_v48 : W102 (Proc.devRef (τ := τ) .tc main_v48) = (ReadP.val_main_v48 (F := F) x0 x1 x2 x3) := by
    rewrite [hW, unary_result_ne]; exact f101_main_v48; decide
  have f102_main_call4_v5 : W102 (Proc.devRef (τ := τ) .tc main_call4_v5) = (ReadP.val_main_call4_v5 (F := F) x1) := by
    rewrite [hW, unary_result_ne]; exact f101_main_call4_v5; decide
  have f102_main_call4_v7 : W102 (Proc.devRef (τ := τ) .tc main_call4_v7) = (ReadP.val_main_call4_v7 (F := F) x1) := by
    rewrite [hW, unary_result_ne]; exact f101_main_call4_v7; decide
  clear hW f101_main_v48 f101_main_call4_v5 f101_main_call4_v7 f101_main_call4_v8
  clear W101
  -- 102: main_call4_v10
  refine after_step _ _ _ _ _ (fun W103 hW => ?_)
  have f103_main_call4_v10 : W103 (Proc.devRef (τ := τ) .tc main_call4_v10) = (ReadP.val_main_call4_v10 (F := F) x1) := by
    rewrite [hW, binary_result, f102_main_call4_v5, f102_main_call4_v9]; rfl
  have f103_main_v48 : W103 (Proc.devRef (τ := τ) .tc main_v48) = (ReadP.val_main_v48 (F := F) x0 x1 x2 x3) := by
    rewrite [hW, binary_result_ne]; exact f102_main_v48; decide
  have f103_main_call4_v5 : W103 (Proc.devRef (τ := τ) .tc main_call4_v5) = (ReadP.val_main_call4_v5 (F := F) x1) := by
    rewrite [hW, binary_result_ne]; exact f102_main_call4_v5; decide
  have f103_main_call4_v7 : W103 (Proc.devRef (τ := τ) .tc main_call4_v7) = (ReadP.val_main_call4_v7 (F := F) x1) := by
    rewrite [hW, binary_result_ne]; exact f102_main_call4_v7; decide
  clear hW f102_main_v48 f102_main_call4_v5 f102_main_call4_v7 f102_main_call4_v9
  clear W102
  -- 103: main_call4_v11
  refine after_step _ _ _ _ _ (fun W104 hW => ?_)
  have f104_main_call4_v11 : W104 (Proc.devRef (τ := τ) .tc main_call4_v11) = (ReadP.val_main_call4_v11 (F := F) x1) := by
    rewrite [hW, binary_result, f103_main_call4_v7, f103_main_call4_v10]; rfl
  have f104_main_v48 : W104 (Proc.devRef (τ := τ) .tc main_v48) = (ReadP.val_main_v48 (F := F) x0 x1 x2 x3) := by
    rewrite [hW, binary_result_ne]; exact f103_main_v48; decide
  have f104_main_call4_v5 : W104 (Proc.devRef (τ := τ) .tc main_call4_v5) = (ReadP.val_main_call4_v5 (F := F) x1) := by
    rewrite [hW, binary_result_ne]; exact f103_main_call4_v5; decide
  clear hW f103_main_v48 f103_main_call4_v5 f103_main_call4_v7 f103_main_call4_v10
  clear W103
  -- 104: main_call4_c_3
  refine after_step _ _ _ _ _ (fun W105 hW => ?_)
  have f105_main_call4_c_3 : W105 (Proc.devRef (τ := τ) .tc main_call4_c_3) = (ReadP.val_main_call4_c_3 (F := F)) := by
    rewrite [hW, nullary_result]; rfl
  have f105_main_v48 : W105 (Proc.devRef (τ := τ) .tc main_v48) = (ReadP.val_main_v48 (F := F) x0 x1 x2 x3) := by
    rewrite [hW, nullary_result_ne]; exact f104_main_v48; decide
  have f105_main_call4_v5 : W105 (Proc.devRef (τ := τ) .tc main_call4_v5) = (ReadP.val_main_call4_v5 (F := F) x1) := by
    rewrite [hW, nullary_result_ne]; exact f104_main_call4_v5; decide
  have f105_main_call4_v11 : W105 (Proc.devRef (τ := τ) .tc main_call4_v11) = (ReadP.val_main_call4_v11 (F := F) x1) := by
    rewrite [hW, nullary_result_ne]; exact f104_main_call4_v11; decide
  clear hW f104_main_v48 f104_main_call4_v5 f104_main_call4_v11
  clear W104
  -- 105: main_call4_v12
  refine after_step _ _ _ _ _ (fun W106 hW => ?_)
  have f106_main_call4_v12 : W106 (Proc.devRef (τ := τ) .tc main_call4_v12) = (ReadP.val_main_call4_v12 (F := F) x1) := by
    rewrite [hW, binary_result, f105_main_call4_v11, f105_main_call4_c_3]; rfl
  have f106_main_v48 : W106 (Proc.devRef (τ := τ) .tc main_v48) = (ReadP.val_main_v48 (F := F) x0 x1 x2 x3) := by
    rewrite [hW, binary_result_ne]; exact f105_main_v48; decide
  have f106_main_call4_v5 : W106 (Proc.devRef (τ := τ) .tc main_call4_v5) = (ReadP.val_main_call4_v5 (F := F) x1) := by
    rewrite [hW, binary_result_ne]; exact f105_main_call4_v5; decide
  clear hW f105_main_v48 f105_main_call4_v5 f105_main_call4_v11 f105_main_call4_c_3
  clear W105
  -- 106: main_call4_v13
  refine after_step _ _ _ _ _ (fun W107 hW => ?_)
  have f107_main_call4_v13 : W107 (Proc.devRef (τ := τ) .tc main_call4_v13) = (ReadP.val_main_call4_v13 (F := F) x0 x1 x2 x3) := by
    rewrite [hW, binary_result, f106_main_v48, f106_main_call4_v5]; rfl
  have f107_main_call4_v12 : W107 (Proc.devRef (τ := τ) .tc main_call4_v12) = (ReadP.val_main_call4_v12 (F := F) x1) := by
    rewrite [hW, binary_result_ne]; exact f106_main_call4_v12; decide
  clear hW f106_main_v48 f106_main_call4_v5 f106_main_call4_v12
  clear W106
  -- 107: main_call4_cst
  refine after_step _ _ _ _ _ (fun W108 hW => ?_)
  have f108_main_call4_cst : W108 (Proc.devRef (τ := τ) .tc main_call4_cst) = (ReadP.val_main_call4_cst (F := F)) := by
    rewrite [hW, nullary_result]; rfl
  have f108_main_call4_v12 : W108 (Proc.devRef (τ := τ) .tc main_call4_v12) = (ReadP.val_main_call4_v12 (F := F) x1) := by
    rewrite [hW, nullary_result_ne]; exact f107_main_call4_v12; decide
  have f108_main_call4_v13 : W108 (Proc.devRef (τ := τ) .tc main_call4_v13) = (ReadP.val_main_call4_v13 (F := F) x0 x1 x2 x3) := by
    rewrite [hW, nullary_result_ne]; exact f107_main_call4_v13; decide
  clear hW f107_main_call4_v12 f107_main_call4_v13
  clear W107
  -- 108: main_call4_v14
  refine after_step _ _ _ _ _ (fun W109 hW => ?_)
  have f109_main_call4_v14 : W109 (Proc.devRef (τ := τ) .tc main_call4_v14) = (ReadP.val_main_call4_v14 (F := F)) := by
    rewrite [hW, unary_result, f108_main_call4_cst]; rfl
  have f109_main_call4_v12 : W109 (Proc.devRef (τ := τ) .tc main_call4_v12) = (ReadP.val_main_call4_v12 (F := F) x1) := by
    rewrite [hW, unary_result_ne]; exact f108_main_call4_v12; decide
  have f109_main_call4_v13 : W109 (Proc.devRef (τ := τ) .tc main_call4_v13) = (ReadP.val_main_call4_v13 (F := F) x0 x1 x2 x3) := by
    rewrite [hW, unary_result_ne]; exact f108_main_call4_v13; decide
  clear hW f108_main_call4_v12 f108_main_call4_v13 f108_main_call4_cst
  clear W108
  -- 109: main_v50
  refine after_step _ _ _ _ _ (fun W110 hW => ?_)
  have f110_main_v50 : W110 (Proc.devRef (τ := τ) .tc main_v50) = (ReadP.val_main_v50 (F := F) x0 x1 x2 x3) := by
    rewrite [hW, ternary_result, f109_main_call4_v12, f109_main_call4_v13, f109_main_call4_v14]; rfl
  clear hW f109_main_call4_v12 f109_main_call4_v13 f109_main_call4_v14
  clear W109
  -- 110: main_cst_11
  refine after_step _ _ _ _ _ (fun W111 hW => ?_)
  have f111_main_cst_11 : W111 (Proc.devRef (τ := τ) .tc main_cst_11) = (ReadP.val_main_cst_11 (F := F)) := by
    rewrite [hW, nullary_result]; rfl
  have f111_main_v50 : W111 (Proc.devRef (τ := τ) .tc main_v50) = (ReadP.val_main_v50 (F := F) x0 x1 x2 x3) := by
    rewrite [hW, nullary_result_ne]; exact f110_main_v50; decide
  clear hW f110_main_v50
  clear W110
  -- 111: main_v51
  refine after_step _ _ _ _ _ (fun W112 hW => ?_)
  have f112_main_v51 : W112 (Proc.devRef (τ := τ) .tc main_v51) = (ReadP.val_main_v51 (F := F) x0 x1 x2 x3) := by
    rewrite [hW, binary_result, f111_main_v50, f111_main_cst_11]; rfl
  clear hW f111_main_v50 f111_main_cst_11
  clear W111
  -- 112: main_cst_12
  refine after_step _ _ _ _ _ (fun W113 hW => ?_)
  have f113_main_cst_12 : W113 (Proc.devRef (τ := τ) .tc main_cst_12) = (ReadP.val_main_cst_12 (F := F)) := by
    rewrite [hW, nullary_result]; rfl
  have f113_main_v51 : W113 (Proc.devRef (τ := τ) .tc main_v51) = (ReadP.val_main_v51 (F := F) x0 x1 x2 x3) := by
    rewrite [hW, nullary_result_ne]; exact f112_main_v51; decide
  clear hW f112_main_v51
  clear W112
  -- 113: main_v52
  refine after_step _ _ _ _ _ (fun W114 hW => ?_)
  have f114_main_v52 : W114 (Proc.devRef (τ := τ) .tc main_v52) = (ReadP.val_main_v52 (F := F) x0 x1 x2 x3) := by
    rewrite [hW, binary_result, f113_main_v51, f113_main_cst_12]; rfl
  clear hW f113_main_v51 f113_main_cst_12
  clear W113
  -- 114: main_v53
  refine after_step _ _ _ _ _ (fun W115 hW => ?_)
  have f115_main_v53 : W115 (Proc.devRef (τ := τ) .tc main_v53) = (ReadP.val_main_v53 (F := F) x0 x1 x2 x3) := by
    rewrite [hW, unary_result, f114_main_v52]; rfl
  clear hW f114_main_v52
  clear W114
  exact f115_main_v53

/-- The fold of @main's operations from any valuation, at the result buffer: the last stage. -/
theorem fold (V : Valuation τ sig (Elt F)) :
    after (Cert.ReferenceIdeal.RunP.ops (F := F)) V (Proc.devRef (τ := τ) .tc main_v53) = (ReadP.val_main_v53 (F := F) (V (Proc.devRef (τ := τ) .tc main_arg0)) (V (Proc.devRef (τ := τ) .tc main_arg1)) (V (Proc.devRef (τ := τ) .tc main_arg2)) (V (Proc.devRef (τ := τ) .tc main_arg3))) := by
  have hA_main_v42 := foldA_main_v42 V
  have hA_main_arg3 := foldA_main_arg3 V
  have hA_main_v4 := foldA_main_v4 V
  have hA_main_arg1 := foldA_main_arg1 V
  rw [ops_cut, after_app, after_cons]
  generalize after opsA V = W at hA_main_v42 hA_main_arg3 hA_main_v4 hA_main_arg1 ⊢
  have k_main_v43 : opC.result W (Proc.devRef (τ := τ) .tc main_v43) = (ReadP.val_main_v43 (F := F) (V (Proc.devRef (τ := τ) .tc main_arg0)) (V (Proc.devRef (τ := τ) .tc main_arg1)) (V (Proc.devRef (τ := τ) .tc main_arg2)) (V (Proc.devRef (τ := τ) .tc main_arg3))) := by
    rw [binary_result, hA_main_v42, hA_main_arg3]; rfl
  have k_main_v4 : opC.result W (Proc.devRef (τ := τ) .tc main_v4) = (ReadP.val_main_v4 (F := F) (V (Proc.devRef (τ := τ) .tc main_arg0))) := by
    rw [binary_result_ne, hA_main_v4]; decide
  have k_main_arg1 : opC.result W (Proc.devRef (τ := τ) .tc main_arg1) = (V (Proc.devRef (τ := τ) .tc main_arg1)) := by
    rw [binary_result_ne, hA_main_arg1]; decide
  generalize opC.result W = W' at k_main_v43 k_main_v4 k_main_arg1 ⊢
  exact foldB W' _ _ _ _ k_main_v43 k_main_v4 k_main_arg1

end Cert.ReferenceIdeal.RefStages

end
-- ==== Proof.RefRun.lean ====
/- The reference's run, stated at the last stage of the read-back. @main is the sequence of its host operations
   (the list `ops`); every weakly fair execution ends with each buffer at the fold of the
   operations over its launch contents; the fold at the result buffer is the last stage (the fold read in stretches,
   the last of them one operation at a time), and no operation writes an argument buffer. -/
import proofs.«429995_j90031104459201_3_alg».proof.Proof.Gen.ReferenceIdeal
import proofs.«429995_j90031104459201_3_alg».proof.Proof.ReadP
import proofs.«429995_j90031104459201_3_alg».proof.Proof.RunP
import proofs.«429995_j90031104459201_3_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RunP

variable {F : FTy → Type} [FloatOps F]

set_option maxRecDepth 100000 in
set_option maxHeartbeats 46000000 in
/-- On every device, for any float values, from any memory with zero counters: every weakly fair execution of
    @main terminates with the result at the last stage of the operations read one at a time, of the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = Cert.ReferenceIdeal.ReadP.val_main_v53 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v53).trans (Cert.ReferenceIdeal.RefStages.fold _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.PreFacts.lean ====
import proofs.«429995_j90031104459201_3_alg».proof.Pre_finite_inputs
import proofs.«429995_j90031104459201_3_alg».proof.Proof.Gen.Pre_finite_inputs
import proofs.«429995_j90031104459201_3_alg».proof.Proof.Spec
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.PreFacts

open Cert.Pre_finite_inputs

/-- The scalar shape has one index. -/
instance scalarIdxSubsingleton : Subsingleton S_.Idx := ⟨fun a b => funext fun d => d.elim0⟩

/-- The word 0x7F800000 denotes plus infinity. -/
theorem inf_lit : Ideal.ofBits .f32 0x7F800000#32 = (⊤ : EReal) := by
  simp [Ideal.ofBits, Ideal.ieee]

/-- An extended real whose absolute value max x (-x) is strictly below plus infinity is a real number: the bound
    excludes plus infinity itself, and minus infinity since its negation is plus infinity. -/
theorem isR_of_abs_lt (x : EReal)
    (h : FloatOps.cmpf (F := Ideal) (φ := .f32) .olt (FloatOps.hostAbsf (F := Ideal) (φ := .f32) x)
      (FloatOps.ofBits (F := Ideal) .f32 0x7F800000#32) = 1#1) : Spec.IsR x := by
  change Ideal.cmp .olt (max x (-x)) (Ideal.ofBits .f32 0x7F800000#32) = 1#1 at h
  rw [inf_lit] at h
  simp only [Ideal.cmp] at h
  rw [StableHlo.Predicate.ofBool_eq_one_iff, decide_eq_true_eq] at h
  induction x using EReal.rec with
  | bot => simp at h
  | coe r => exact ⟨r, rfl⟩
  | top => simp at h

/-- An array all of whose entries pass the test |x| < plus infinity holds real numbers. -/
theorem all_real {s : Shape} {axes : List (Fin s.rank)} (hb : S_.BroadcastsInDim s (![] : Fin 0 → Fin s.rank))
    (hr : s.ReducesTo axes S_) (h0 : 0 < S_.numel) (x : FVec Ideal s .f32)
    (e : Host.reduce IntOp.andi (cmpf .olt (Host.absf x) (broadcastInDim s ![] hb (constant (F := Ideal) S_ .f32 0x7F800000#32)))
      (constantI S_ 1 1#1) hr h0 ix0 = 1#1) (i : s.Idx) : Spec.IsR (x i) :=
  isR_of_abs_lt (x i) (Host.reduce_andi_all _ _ hr h0 ix0 e i)

/-- A 32-bit word that is at least 0 and below 2000 read signed is below 2000 read unsigned. -/
theorem label_lt (w : BitVec 32) (h0 : IntOp.cmpi .sge w 0#32 = 1#1) (h1 : IntOp.cmpi .slt w 2000#32 = 1#1) :
    w.toNat < 2000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have t : (2000#32 : BitVec 32).toInt = 2000 := by decide
  rw [z] at h0
  rw [t] at h1
  have h32 := w.isLt
  rw [BitVec.toInt_eq_toNat_cond] at h0 h1
  split at h1 <;> omega

/- What the precondition says, entry by entry: the three float inputs hold real numbers, and every label, read as an
   unsigned word, is below 2000 (it is at least 0 and below 2000 read signed). -/

theorem of_pre [Cert.Pre_finite_inputs.Facts] (x0 : FVec Ideal S65536x256 .f32) (x1 : IVec S65536 32)
    (x2 x3 : FVec Ideal S1000x256 .f32)
    (h : Cert.Pre_finite_inputs.fn (F := Ideal) x0 x1 x2 x3 = fun _ => 1#1) :
    (∀ i, Spec.IsR (x0 i)) ∧ (∀ i, Spec.IsR (x2 i)) ∧ (∀ i, Spec.IsR (x3 i)) ∧ (∀ i, (x1 i).toNat < 2000) := by
  have e := congrFun h ValueIdx.ix0
  dsimp only [Cert.Pre_finite_inputs.fn, Cert.Pre_finite_inputs.fn_part1] at e
  obtain ⟨e123, e4⟩ := IntOp.andi_eq_one.1 e
  obtain ⟨e12, e3⟩ := IntOp.andi_eq_one.1 e123
  obtain ⟨e1, e2⟩ := IntOp.andi_eq_one.1 e12
  refine ⟨all_real _ _ _ x0 e1, all_real _ _ _ x2 e2, all_real _ _ _ x3 e3, fun i => ?_⟩
  obtain ⟨a, b⟩ := IntOp.andi_eq_one.1 (Host.reduce_andi_all _ _ _ _ ix0 e4 i)
  exact label_lt (x1 i) a b

end Cert.PreFacts

end
-- ==== Proof.lean ====
/- The proof of Cert.Claim: the three frames, the idealization's three rewrites, and the equality of the kernel's and
   the reference's results over the extended reals.

   Both programs compute the mean softmax cross-entropy of the unit-normalised feature rows against 2000 centres
   (1000 class centres updated from the per-class sums of the unit rows, then 1000 fixed source centres), each row
   at its label. The kernel accumulates the class sums and counts per core and block with a one-hot matrix product,
   pads the centre axis to 2048 columns filled with a constant that denotes minus infinity (so the padded columns
   change neither a row's maximum nor its exponential sum), and sums lse - target; the reference scatters, takes a
   log-softmax and gathers. With finite inputs every logit is a real number, where
   (log S + m) - l = -((l - m) - log S) and the mean of the one is minus the mean of the other. -/
import proofs.«429995_j90031104459201_3_alg».proof.Defs
import proofs.«429995_j90031104459201_3_alg».proof.Proof.Gen.Kernel
import proofs.«429995_j90031104459201_3_alg».proof.Proof.Gen.Kernel.Skeleton
import proofs.«429995_j90031104459201_3_alg».proof.Proof.Gen.Kernel.Launch
import proofs.«429995_j90031104459201_3_alg».proof.Proof.Gen.Kernel.Points
import proofs.«429995_j90031104459201_3_alg».proof.Proof.Gen.Kernel.Frame
import proofs.«429995_j90031104459201_3_alg».proof.Proof.Gen.KernelIdeal
import proofs.«429995_j90031104459201_3_alg».proof.Proof.Gen.KernelIdeal.Skeleton
import proofs.«429995_j90031104459201_3_alg».proof.Proof.Gen.KernelIdeal.Launch
import proofs.«429995_j90031104459201_3_alg».proof.Proof.Gen.KernelIdeal.Points
import proofs.«429995_j90031104459201_3_alg».proof.Proof.Gen.KernelIdeal.Frame
import proofs.«429995_j90031104459201_3_alg».proof.Proof.Gen.ReferenceIdeal
import proofs.«429995_j90031104459201_3_alg».proof.Proof.Gen.Pre_finite_inputs
import proofs.«429995_j90031104459201_3_alg».proof.Proof.KValue
import proofs.«429995_j90031104459201_3_alg».proof.Proof.RValue
import proofs.«429995_j90031104459201_3_alg».proof.Proof.RefRun
import proofs.«429995_j90031104459201_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The shape facts of the centre update's array operations. -/
theorem nmFacts : Cert.Spec.NMFacts := ⟨by decide, by decide, by decide, by decide, by decide⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The idealization's three rewrites: two format round trips that are the identity over the extended reals, and the
    padding fill named minus infinity by the certificate's table. -/
theorem preserves : Cert.preserves_Kernel_KernelIdeal :=
  ⟨IdealRules.truncf_extf.statement _ _ _, IdealRules.truncf_extf.statement _ _ _,
    IdealRules.named_const.statement Cert.KernelIdeal.κ "neg_big" .f32 0xFF333332#32 ⊥ rfl⟩

/-- The two results are one extended real: the kernel's mean of (log S + m) - l and the reference's minus mean of
    (l - m) - log S over the same real logits. -/
theorem algebraic : Cert.algebraic_KernelIdeal_ReferenceIdeal := by
  intro m ρ m' ρ' hpre hagree
  refine ⟨fun c => Cert.KernelIdeal.Gen.W11 m ρ c (Proc.devRef .tc Cert.KernelIdeal.main_v41),
    Cert.KernelIdeal.RunNamed.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3⟩ := hagree c
  rw [h0, h1, h2, h3]
  obtain ⟨hX, hM, hS, hl⟩ := Cert.PreFacts.of_pre _ _ _ _ (hpre c)
  have hl' : ∀ n, (Cert.KernelIdeal.KValue.lab m c n).toNat < 2000 := fun n => hl (ix1 n)
  have hX' : ∀ n d, Cert.Spec.IsR (Cert.KernelIdeal.KValue.X m c n d) := fun n d => hX (ix2 n d)
  funext i
  rw [eq_ix0 i]
  refine (Cert.ReferenceIdeal.RValue.ref_value nmFacts _ _ _ _ hl').trans ?_
  refine Eq.trans ?_ (Cert.KernelIdeal.KValue.kernel_value m ρ nmFacts c hX' hl').symm
  exact (Cert.Spec.ker_eq_ref _ _ hl'
    (fun n j => Cert.Spec.logits_real nmFacts _ _ _ _ hX' hM (fun cl e => hS (ix2 cl e)) n j) Cert.Spec.nLit_eq).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
